-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S32x20 : Shape := ⟨2, ![32, 20]⟩
abbrev S2097152x20 : Shape := ⟨2, ![2097152, 20]⟩
abbrev S1x20 : Shape := ⟨2, ![1, 20]⟩
abbrev S20x5 : Shape := ⟨2, ![20, 5]⟩
abbrev S2097152x5 : Shape := ⟨2, ![2097152, 5]⟩
abbrev S1x5 : Shape := ⟨2, ![1, 5]⟩
abbrev S5x2 : Shape := ⟨2, ![5, 2]⟩
abbrev S2097152x2 : Shape := ⟨2, ![2097152, 2]⟩
abbrev S1x2 : Shape := ⟨2, ![1, 2]⟩
abbrev S_ : Shape := ⟨0, ![]⟩

class Facts : Prop where
  transposes_S20x32_S32x20_1_0 : S20x32.Transposes [1, 0] S32x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  transposes_S5x20_S20x5_1_0 : S5x20.Transposes [1, 0] S20x5
  bcast_S5_S1x5_1 : S5.BroadcastsInDim S1x5 (![1] : Fin 1 → Fin S1x5.rank)
  bcast_S1x5_S2097152x5_0_1 : S1x5.BroadcastsInDim S2097152x5 (![0, 1] : Fin 2 → Fin S2097152x5.rank)
  transposes_S2x5_S5x2_1_0 : S2x5.Transposes [1, 0] S5x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S20x32 : S_.BroadcastsInDim S20x32 (![] : Fin 0 → Fin S20x32.rank)
  reducesTo_S20x32_S_d0_1 : S20x32.ReducesTo [0, 1] S_
  bcast_S_S20 : S_.BroadcastsInDim S20 (![] : Fin 0 → Fin S20.rank)
  reducesTo_S20_S_d0 : S20.ReducesTo [0] S_
  bcast_S_S5x20 : S_.BroadcastsInDim S5x20 (![] : Fin 0 → Fin S5x20.rank)
  reducesTo_S5x20_S_d0_1 : S5x20.ReducesTo [0, 1] S_
  bcast_S_S5 : S_.BroadcastsInDim S5 (![] : Fin 0 → Fin S5.rank)
  reducesTo_S5_S_d0 : S5.ReducesTo [0] S_
  bcast_S_S2x5 : S_.BroadcastsInDim S2x5 (![] : Fin 0 → Fin S2x5.rank)
  reducesTo_S2x5_S_d0_1 : S2x5.ReducesTo [0, 1] S_
  bcast_S_S2 : S_.BroadcastsInDim S2 (![] : Fin 0 → Fin S2.rank)
  reducesTo_S2_S_d0 : S2.ReducesTo [0] S_
  bcast_S_S625 : S_.BroadcastsInDim S625 (![] : Fin 0 → Fin S625.rank)
  reducesTo_S625_S_d0 : S625.ReducesTo [0] S_
  reducesTo_S2097152x2_S2_d0 : S2097152x2.ReducesTo [0] S2
  dot_S2097152x32_S32x20_S2097152x20_1_0_0_1_n_n_wf : DotDims.WF S2097152x32 S32x20 S2097152x20 [1] [0] [0] [1] [] []
  dot_S2097152x20_S20x5_S2097152x5_1_0_0_1_n_n_wf : DotDims.WF S2097152x20 S20x5 S2097152x5 [1] [0] [0] [1] [] []
  dot_S2097152x5_S5x2_S2097152x2_1_0_0_1_n_n_wf : DotDims.WF S2097152x5 S5x2 S2097152x2 [1] [0] [0] [1] [] []

variable [Facts]

def dot_S2097152x32_S32x20_S2097152x20_1_0_0_1_n_n : DotDims S2097152x32 S32x20 S2097152x20 where
  lhsContracting := [1]
  rhsContracting := [0]
  lhsNonContracting := [0]
  rhsNonContracting := [1]
  lhsBatch := []
  rhsBatch := []
  wf := dot_S2097152x32_S32x20_S2097152x20_1_0_0_1_n_n_wf
def dot_S2097152x20_S20x5_S2097152x5_1_0_0_1_n_n : DotDims S2097152x20 S20x5 S2097152x5 where
  lhsContracting := [1]
  rhsContracting := [0]
  lhsNonContracting := [0]
  rhsNonContracting := [1]
  lhsBatch := []
  rhsBatch := []
  wf := dot_S2097152x20_S20x5_S2097152x5_1_0_0_1_n_n_wf
def dot_S2097152x5_S5x2_S2097152x2_1_0_0_1_n_n : DotDims S2097152x5 S5x2 S2097152x2 where
  lhsContracting := [1]
  rhsContracting := [0]
  lhsNonContracting := [0]
  rhsNonContracting := [1]
  lhsBatch := []
  rhsBatch := []
  wf := dot_S2097152x5_S5x2_S2097152x2_1_0_0_1_n_n_wf
def fn_part3 {F : FTy → Type} [FloatOps F] (main_v17 : FVec F S2097152x2 .f32) (main_v51 : IVec S_ 1) (main_v55 : IVec S_ 1) : IVec S_ 1 :=
  let main_v56 : IVec S_ 1 := andi main_v51 main_v55
  let main_cst_14 : FVec F S_ .f32 := constant S_ .f32 0xFF800000#32
  let main_v57 : FVec F S2 .f32 := (fun x v => Host.reduce FloatOps.maximumf x v reducesTo_S2097152x2_S2_d0 h_S_) main_v17 main_cst_14
  let main_cst_15 : FVec F S_ .f32 := constant S_ .f32 0x7F800000#32
  let main_v58 : FVec F S2 .f32 := (fun x v => Host.reduce FloatOps.minimumf x v reducesTo_S2097152x2_S2_d0 h_S_) main_v17 main_cst_15
  let main_v59 : IVec S2 1 := cmpf .ogt main_v57 main_v58
  let main_c_16 : IVec S_ 1 := constantI S_ 1 1#1
  let main_v60 : IVec S_ 1 := (fun x v => Host.reduce IntOp.andi x v reducesTo_S2_S_d0 h_S_) main_v59 main_c_16
  let main_v61 : IVec S_ 1 := andi main_v56 main_v60
  main_v61

def fn_part2 {F : FTy → Type} [FloatOps F] (main_arg5 : FVec F S2x5 .f32) (main_arg6 : FVec F S2 .f32) (main_arg7 : FVec F S625 .f32) (main_v17 : FVec F S2097152x2 .f32) (main_v36 : IVec S_ 1) (main_v37 : FVec F S5 .f32) (main_v38 : FVec F S5 .f32) : IVec S_ 1 :=
  let main_v39 : IVec S5 1 := cmpf .olt main_v37 main_v38
  let main_c_7 : IVec S_ 1 := constantI S_ 1 1#1
  let main_v40 : IVec S_ 1 := (fun x v => Host.reduce IntOp.andi x v reducesTo_S5_S_d0 h_S_) main_v39 main_c_7
  let main_v41 : IVec S_ 1 := andi main_v36 main_v40
  let main_v42 : FVec F S2x5 .f32 := Host.absf main_arg5
  let main_cst_8 : FVec F S_ .f32 := constant S_ .f32 0x7F800000#32
  let main_v43 : FVec F S2x5 .f32 := broadcastInDim S2x5 ![] bcast_S_S2x5 main_cst_8
  let main_v44 : IVec S2x5 1 := cmpf .olt main_v42 main_v43
  let main_c_9 : IVec S_ 1 := constantI S_ 1 1#1
  let main_v45 : IVec S_ 1 := (fun x v => Host.reduce IntOp.andi x v reducesTo_S2x5_S_d0_1 h_S_) main_v44 main_c_9
  let main_v46 : IVec S_ 1 := andi main_v41 main_v45
  let main_v47 : FVec F S2 .f32 := Host.absf main_arg6
  let main_cst_10 : FVec F S_ .f32 := constant S_ .f32 0x7F800000#32
  let main_v48 : FVec F S2 .f32 := broadcastInDim S2 ![] bcast_S_S2 main_cst_10
  let main_v49 : IVec S2 1 := cmpf .olt main_v47 main_v48
  let main_c_11 : IVec S_ 1 := constantI S_ 1 1#1
  let main_v50 : IVec S_ 1 := (fun x v => Host.reduce IntOp.andi x v reducesTo_S2_S_d0 h_S_) main_v49 main_c_11
  let main_v51 : IVec S_ 1 := andi main_v46 main_v50
  let main_v52 : FVec F S625 .f32 := Host.absf main_arg7
  let main_cst_12 : FVec F S_ .f32 := constant S_ .f32 0x7F800000#32
  let main_v53 : FVec F S625 .f32 := broadcastInDim S625 ![] bcast_S_S625 main_cst_12
  let main_v54 : IVec S625 1 := cmpf .olt main_v52 main_v53
  let main_c_13 : IVec S_ 1 := constantI S_ 1 1#1
  let main_v55 : IVec S_ 1 := (fun x v => Host.reduce IntOp.andi x v reducesTo_S625_S_d0 h_S_) main_v54 main_c_13
  fn_part3 (F := F) main_v17 main_v51 main_v55

def fn_part1 {F : FTy → Type} [FloatOps F] (main_arg1 : FVec F S20x32 .f32) (main_arg2 : FVec F S20 .f32) (main_arg3 : FVec F S5x20 .f32) (main_arg4 : FVec F S5 .f32) (main_arg5 : FVec F S2x5 .f32) (main_arg6 : FVec F S2 .f32) (main_arg7 : FVec F S625 .f32) (main_v17 : FVec F S2097152x2 .f32) (main_v21 : IVec S_ 1) : IVec S_ 1 :=
  let main_v22 : FVec F S20x32 .f32 := Host.absf main_arg1
  let main_cst_0 : FVec F S_ .f32 := constant S_ .f32 0x7F800000#32
  let main_v23 : FVec F S20x32 .f32 := broadcastInDim S20x32 ![] bcast_S_S20x32 main_cst_0
  let main_v24 : IVec S20x32 1 := cmpf .olt main_v22 main_v23
  let main_c_1 : IVec S_ 1 := constantI S_ 1 1#1
  let main_v25 : IVec S_ 1 := (fun x v => Host.reduce IntOp.andi x v reducesTo_S20x32_S_d0_1 h_S_) main_v24 main_c_1
  let main_v26 : IVec S_ 1 := andi main_v21 main_v25
  let main_v27 : FVec F S20 .f32 := Host.absf main_arg2
  let main_cst_2 : FVec F S_ .f32 := constant S_ .f32 0x7F800000#32
  let main_v28 : FVec F S20 .f32 := broadcastInDim S20 ![] bcast_S_S20 main_cst_2
  let main_v29 : IVec S20 1 := cmpf .olt main_v27 main_v28
  let main_c_3 : IVec S_ 1 := constantI S_ 1 1#1
  let main_v30 : IVec S_ 1 := (fun x v => Host.reduce IntOp.andi x v reducesTo_S20_S_d0 h_S_) main_v29 main_c_3
  let main_v31 : IVec S_ 1 := andi main_v26 main_v30
  let main_v32 : FVec F S5x20 .f32 := Host.absf main_arg3
  let main_cst_4 : FVec F S_ .f32 := constant S_ .f32 0x7F800000#32
  let main_v33 : FVec F S5x20 .f32 := broadcastInDim S5x20 ![] bcast_S_S5x20 main_cst_4
  let main_v34 : IVec S5x20 1 := cmpf .olt main_v32 main_v33
  let main_c_5 : IVec S_ 1 := constantI S_ 1 1#1
  let main_v35 : IVec S_ 1 := (fun x v => Host.reduce IntOp.andi x v reducesTo_S5x20_S_d0_1 h_S_) main_v34 main_c_5
  let main_v36 : IVec S_ 1 := andi main_v31 main_v35
  let main_v37 : FVec F S5 .f32 := Host.absf main_arg4
  let main_cst_6 : FVec F S_ .f32 := constant S_ .f32 0x7F800000#32
  let main_v38 : FVec F S5 .f32 := broadcastInDim S5 ![] bcast_S_S5 main_cst_6
  fn_part2 (F := F) main_arg5 main_arg6 main_arg7 main_v17 main_v36 main_v37 main_v38

def fn {F : FTy → Type} [FloatOps F] (main_arg0 : FVec F S2097152x32 .f32) (main_arg1 : FVec F S20x32 .f32) (main_arg2 : FVec F S20 .f32) (main_arg3 : FVec F S5x20 .f32) (main_arg4 : FVec F S5 .f32) (main_arg5 : FVec F S2x5 .f32) (main_arg6 : FVec F S2 .f32) (main_arg7 : FVec F S625 .f32) : IVec S_ 1 :=
  let main_v0 : FVec F S32x20 .f32 := (transpose S32x20 [1, 0] · transposes_S20x32_S32x20_1_0) main_arg1
  let main_v1 : FVec F S2097152x20 .f32 := (fun l r => Host.dotGeneral dot_S2097152x32_S32x20_S2097152x20_1_0_0_1_n_n none l r) main_arg0 main_v0
  let main_v2 : FVec F S1x20 .f32 := broadcastInDim S1x20 ![1] bcast_S20_S1x20_1 main_arg2
  let main_v3 : FVec F S2097152x20 .f32 := broadcastInDim S2097152x20 ![0, 1] bcast_S1x20_S2097152x20_0_1 main_v2
  let main_v4 : FVec F S2097152x20 .f32 := addf main_v1 main_v3
  let main_v5 : FVec F S2097152x20 .f32 := Host.tanh main_v4
  let main_v6 : FVec F S20x5 .f32 := (transpose S20x5 [1, 0] · transposes_S5x20_S20x5_1_0) main_arg3
  let main_v7 : FVec F S2097152x5 .f32 := (fun l r => Host.dotGeneral dot_S2097152x20_S20x5_S2097152x5_1_0_0_1_n_n none l r) main_v5 main_v6
  let main_v8 : FVec F S1x5 .f32 := broadcastInDim S1x5 ![1] bcast_S5_S1x5_1 main_arg4
  let main_v9 : FVec F S2097152x5 .f32 := broadcastInDim S2097152x5 ![0, 1] bcast_S1x5_S2097152x5_0_1 main_v8
  let main_v10 : FVec F S2097152x5 .f32 := addf main_v7 main_v9
  let main_v11 : FVec F S2097152x5 .f32 := Host.tanh main_v10
  let main_v12 : FVec F S5x2 .f32 := (transpose S5x2 [1, 0] · transposes_S2x5_S5x2_1_0) main_arg5
  let main_v13 : FVec F S2097152x2 .f32 := (fun l r => Host.dotGeneral dot_S2097152x5_S5x2_S2097152x2_1_0_0_1_n_n none l r) main_v11 main_v12
  let main_v14 : FVec F S1x2 .f32 := broadcastInDim S1x2 ![1] bcast_S2_S1x2_1 main_arg6
  let main_v15 : FVec F S2097152x2 .f32 := broadcastInDim S2097152x2 ![0, 1] bcast_S1x2_S2097152x2_0_1 main_v14
  let main_v16 : FVec F S2097152x2 .f32 := addf main_v13 main_v15
  let main_v17 : FVec F S2097152x2 .f32 := Host.tanh main_v16
  let main_v18 : FVec F S2097152x32 .f32 := Host.absf main_arg0
  let main_cst : FVec F S_ .f32 := constant S_ .f32 0x7F800000#32
  let main_v19 : FVec F S2097152x32 .f32 := broadcastInDim S2097152x32 ![] bcast_S_S2097152x32 main_cst
  let main_v20 : IVec S2097152x32 1 := cmpf .olt main_v18 main_v19
  let main_c : IVec S_ 1 := constantI S_ 1 1#1
  let main_v21 : IVec S_ 1 := (fun x v => Host.reduce IntOp.andi x v reducesTo_S2097152x32_S_d0_1 h_S_) main_v20 main_c
  fn_part1 (F := F) main_arg1 main_arg2 main_arg3 main_arg4 main_arg5 main_arg6 main_arg7 main_v17 main_v21
-- ==== Kernel.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S32x20 : Shape := ⟨2, ![32, 20]⟩
abbrev S20x5 : Shape := ⟨2, ![20, 5]⟩
abbrev S5x2 : Shape := ⟨2, ![5, 2]⟩
abbrev S1x20 : Shape := ⟨2, ![1, 20]⟩
abbrev S1x5 : Shape := ⟨2, ![1, 5]⟩
abbrev S1x2 : Shape := ⟨2, ![1, 2]⟩
abbrev S25x25 : Shape := ⟨2, ![25, 25]⟩
abbrev S2097152x2 : Shape := ⟨2, ![2097152, 2]⟩
abbrev S65536x32 : Shape := ⟨2, ![65536, 32]⟩
abbrev S65536x2 : Shape := ⟨2, ![65536, 2]⟩
abbrev S65536x20 : Shape := ⟨2, ![65536, 20]⟩
abbrev S65536x5 : Shape := ⟨2, ![65536, 5]⟩
abbrev S2097152x1 : Shape := ⟨2, ![2097152, 1]⟩
abbrev S8192x2 : Shape := ⟨2, ![8192, 2]⟩
abbrev S8192x1 : Shape := ⟨2, ![8192, 1]⟩
abbrev S8192x25 : Shape := ⟨2, ![8192, 25]⟩
abbrev S8192 : Shape := ⟨1, ![8192]⟩

abbrev nBuf : Space → Nat
  | .hbm => 19
  | .vmem => 19
  | .smem => 0
  | _ => 0

abbrev bufTy : (tb : Table) → Fin (tcTables nBuf tb) → BufTy
  | .hbm, ⟨0, _⟩ => ⟨S2097152x32, .f32⟩
  | .hbm, ⟨1, _⟩ => ⟨S20x32, .f32⟩
  | .hbm, ⟨2, _⟩ => ⟨S20, .f32⟩
  | .hbm, ⟨3, _⟩ => ⟨S5x20, .f32⟩
  | .hbm, ⟨4, _⟩ => ⟨S5, .f32⟩
  | .hbm, ⟨5, _⟩ => ⟨S2x5, .f32⟩
  | .hbm, ⟨6, _⟩ => ⟨S2, .f32⟩
  | .hbm, ⟨7, _⟩ => ⟨S625, .f32⟩
  | .hbm, ⟨8, _⟩ => ⟨S32x20, .f32⟩
  | .hbm, ⟨9, _⟩ => ⟨S20x5, .f32⟩
  | .hbm, ⟨10, _⟩ => ⟨S5x2, .f32⟩
  | .hbm, ⟨11, _⟩ => ⟨S1x20, .f32⟩
  | .hbm, ⟨12, _⟩ => ⟨S1x5, .f32⟩
  | .hbm, ⟨13, _⟩ => ⟨S1x2, .f32⟩
  | .hbm, ⟨14, _⟩ => ⟨S25x25, .f32⟩
  | .hbm, ⟨15, _⟩ => ⟨S2097152x2, .f32⟩
  | .hbm, ⟨16, _⟩ => ⟨S1x2, .f32⟩
  | .hbm, ⟨17, _⟩ => ⟨S1x2, .f32⟩
  | .hbm, ⟨18, _⟩ => ⟨S2097152x1, .f32⟩
  | .local _ .vmem, ⟨0, _⟩ => ⟨S65536x32, .f32⟩
  | .local _ .vmem, ⟨1, _⟩ => ⟨S65536x32, .f32⟩
  | .local _ .vmem, ⟨2, _⟩ => ⟨S32x20, .f32⟩
  | .local _ .vmem, ⟨3, _⟩ => ⟨S1x20, .f32⟩
  | .local _ .vmem, ⟨4, _⟩ => ⟨S20x5, .f32⟩
  | .local _ .vmem, ⟨5, _⟩ => ⟨S1x5, .f32⟩
  | .local _ .vmem, ⟨6, _⟩ => ⟨S5x2, .f32⟩
  | .local _ .vmem, ⟨7, _⟩ => ⟨S1x2, .f32⟩
  | .local _ .vmem, ⟨8, _⟩ => ⟨S65536x2, .f32⟩
  | .local _ .vmem, ⟨9, _⟩ => ⟨S65536x2, .f32⟩
  | .local _ .vmem, ⟨10, _⟩ => ⟨S1x2, .f32⟩
  | .local _ .vmem, ⟨11, _⟩ => ⟨S1x2, .f32⟩
  | .local _ .vmem, ⟨12, _⟩ => ⟨S8192x2, .f32⟩
  | .local _ .vmem, ⟨13, _⟩ => ⟨S8192x2, .f32⟩
  | .local _ .vmem, ⟨14, _⟩ => ⟨S1x2, .f32⟩
  | .local _ .vmem, ⟨15, _⟩ => ⟨S1x2, .f32⟩
  | .local _ .vmem, ⟨16, _⟩ => ⟨S25x25, .f32⟩
  | .local _ .vmem, ⟨17, _⟩ => ⟨S8192x1, .f32⟩
  | .local _ .vmem, ⟨18, _⟩ => ⟨S8192x1, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_19 : BitVec 32 := 0#32
  let v32 : BitVec 1 := Scalar.cmpi .ne v31 c0_i32_19
  v32

def k0_cond2 (i : grid0.Coords) : BitVec 1 :=
  let arg0 : BitVec 32 := BitVec.ofNat 32 (i 0).val
  let c0_i32_20 : BitVec 32 := 0#32
  let v33 : BitVec 1 := Scalar.cmpi .sgt arg0 c0_i32_20
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S65536x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S65536x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S25x25 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S20x32_S32x20_1_0 : S20x32.Transposes [1, 0] S32x20
  transposes_S5x20_S20x5_1_0 : S5x20.Transposes [1, 0] S20x5
  transposes_S2x5_S5x2_1_0 : S2x5.Transposes [1, 0] S5x2
  shapeCasts_S20_S1x20 : S20.ShapeCasts S1x20
  shapeCasts_S5_S1x5 : S5.ShapeCasts S1x5
  shapeCasts_S2_S1x2 : S2.ShapeCasts S1x2
  shapeCasts_S625_S25x25 : S625.ShapeCasts S25x25
  inb_S65536x32_S65536x32_0_0 : ∀ a, (![0, 0] : Fin 2 → Nat) a + S65536x32.size a ≤ S65536x32.size a
  h_S65536x32 : 0 < S65536x32.numel
  inb_S32x20_S32x20_0_0 : ∀ a, (![0, 0] : Fin 2 → Nat) a + S32x20.size a ≤ S32x20.size a
  h_S32x20 : 0 < S32x20.numel
  shapeCasts_S32x20_S32x20 : S32x20.ShapeCasts S32x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S65536x20 : S1x20.Broadcasts S65536x20
  inb_S20x5_S20x5_0_0 : ∀ a, (![0, 0] : Fin 2 → Nat) a + S20x5.size a ≤ S20x5.size a
  h_S20x5 : 0 < S20x5.numel
  shapeCasts_S20x5_S20x5 : S20x5.ShapeCasts S20x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S65536x5 : S1x5.Broadcasts S65536x5
  inb_S5x2_S5x2_0_0 : ∀ a, (![0, 0] : Fin 2 → Nat) a + S5x2.size a ≤ S5x2.size a
  h_S5x2 : 0 < S5x2.numel
  shapeCasts_S5x2_S5x2 : S5x2.ShapeCasts S5x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S65536x2 : S1x2.Broadcasts S65536x2
  inb_S65536x2_S65536x2_0_0 : ∀ a, (![0, 0] : Fin 2 → Nat) a + S65536x2.size a ≤ S65536x2.size a
  h_S65536x2 : 0 < S65536x2.numel
  reduces_S65536x2_S2 : S65536x2.Reduces [0] S2
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  broadcasts_S1x2_S8192x2 : S1x2.Broadcasts S8192x2
  slices_S8192x2_o0_0_S8192x1 : S8192x2.Slices ![0, 0] S8192x1
  slices_S8192x2_o0_1_S8192x1 : S8192x2.Slices ![0, 1] S8192x1
  inb_S25x25_S25x25_0_0 : ∀ a, (![0, 0] : Fin 2 → Nat) a + S25x25.size a ≤ S25x25.size a
  h_S25x25 : 0 < S25x25.numel
  shapeCasts_S25x25_S25x25 : S25x25.ShapeCasts S25x25
  iota_S8192x25_d1_w32 : S8192x25.Iotas .tc 32 [1]
  broadcasts_S8192x1_S8192x25 : S8192x1.Broadcasts S8192x25
  natLt_1_32 : 1 < 32
  reduces_S8192x25_S8192 : S8192x25.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  dot_S65536x32_S32x20_S65536x20_1_0_0_1_n_n_wf : DotDims.WF S65536x32 S32x20 S65536x20 [1] [0] [0] [1] [] []
  dot_S65536x20_S20x5_S65536x5_1_0_0_1_n_n_wf : DotDims.WF S65536x20 S20x5 S65536x5 [1] [0] [0] [1] [] []
  dot_S65536x5_S5x2_S65536x2_1_0_0_1_n_n_wf : DotDims.WF S65536x5 S5x2 S65536x2 [1] [0] [0] [1] [] []
  dot_S8192x25_S25x25_S8192x25_1_0_0_1_n_n_wf : DotDims.WF S8192x25 S25x25 S8192x25 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x32.size a ≤ S2097152x32.size a
  hwx0_0 : ∀ i : grid0.Coords, EltTy.bits .f32 = 32 ∨ (Rect.block (s := S2097152x32) S65536x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x20.size a ≤ S32x20.size a
  hwx0_1 : ∀ i : grid0.Coords, EltTy.bits .f32 = 32 ∨ (Rect.block (s := S32x20) S32x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x5.size a ≤ S20x5.size a
  hwx0_3 : ∀ i : grid0.Coords, EltTy.bits .f32 = 32 ∨ (Rect.block (s := S20x5) S20x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x2.size a ≤ S5x2.size a
  hwx0_5 : ∀ i : grid0.Coords, EltTy.bits .f32 = 32 ∨ (Rect.block (s := S5x2) S5x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S65536x2.size a ≤ S2097152x2.size a
  hwx0_7 : ∀ i : grid0.Coords, EltTy.bits .f32 = 32 ∨ (Rect.block (s := S2097152x2) S65536x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S2097152x2.size a
  hwx1_0 : ∀ i : grid1.Coords, EltTy.bits .f32 = 32 ∨ (Rect.block (s := S2097152x2) S8192x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S25x25.size a ≤ S25x25.size a
  hwx1_3 : ∀ i : grid1.Coords, EltTy.bits .f32 = 32 ∨ (Rect.block (s := S25x25) S25x25.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x1.size a ≤ S2097152x1.size a
  hwx1_4 : ∀ i : grid1.Coords, EltTy.bits .f32 = 32 ∨ (Rect.block (s := S2097152x1) S8192x1.size (cc1_transform_4 i) (hinb1_4 i)).WholeWords (EltTy.packing .f32)

variable [Facts₀]

def dot_S65536x32_S32x20_S65536x20_1_0_0_1_n_n : DotDims S65536x32 S32x20 S65536x20 where
  lhsContracting := [1]
  rhsContracting := [0]
  lhsNonContracting := [0]
  rhsNonContracting := [1]
  lhsBatch := []
  rhsBatch := []
  wf := dot_S65536x32_S32x20_S65536x20_1_0_0_1_n_n_wf
def dot_S65536x20_S20x5_S65536x5_1_0_0_1_n_n : DotDims S65536x20 S20x5 S65536x5 where
  lhsContracting := [1]
  rhsContracting := [0]
  lhsNonContracting := [0]
  rhsNonContracting := [1]
  lhsBatch := []
  rhsBatch := []
  wf := dot_S65536x20_S20x5_S65536x5_1_0_0_1_n_n_wf
def dot_S65536x5_S5x2_S65536x2_1_0_0_1_n_n : DotDims S65536x5 S5x2 S65536x2 where
  lhsContracting := [1]
  rhsContracting := [0]
  lhsNonContracting := [0]
  rhsNonContracting := [1]
  lhsBatch := []
  rhsBatch := []
  wf := dot_S65536x5_S5x2_S65536x2_1_0_0_1_n_n_wf
def dot_S8192x25_S25x25_S8192x25_1_0_0_1_n_n : DotDims S8192x25 S25x25 S8192x25 where
  lhsContracting := [1]
  rhsContracting := [0]
  lhsNonContracting := [0]
  rhsNonContracting := [1]
  lhsBatch := []
  rhsBatch := []
  wf := dot_S8192x25_S25x25_S8192x25_1_0_0_1_n_n_wf

abbrev win0_0 : Pipeline.Window sig grid0 :=
  Pipeline.Window.ofSpec (Memref.whole main_arg0) S65536x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S65536x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x2.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1x2.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | 9 => fun i => !(k0_cond1 i == 1#1) && !(k0_cond2 i == 1#1) | ⟨_ + 10, h⟩ => absurd h (Nat.not_lt.2 (Nat.le_add_left _ _))

abbrev win1_0 : Pipeline.Window sig grid1 :=
  Pipeline.Window.ofSpec (Memref.whole main_v7_0) S8192x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S25x25.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S8192x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S32x20 : Shape := ⟨2, ![32, 20]⟩
abbrev S2097152x20 : Shape := ⟨2, ![2097152, 20]⟩
abbrev S1x20 : Shape := ⟨2, ![1, 20]⟩
abbrev S20x5 : Shape := ⟨2, ![20, 5]⟩
abbrev S2097152x5 : Shape := ⟨2, ![2097152, 5]⟩
abbrev S1x5 : Shape := ⟨2, ![1, 5]⟩
abbrev S5x2 : Shape := ⟨2, ![5, 2]⟩
abbrev S2097152x2 : Shape := ⟨2, ![2097152, 2]⟩
abbrev S1x2 : Shape := ⟨2, ![1, 2]⟩
abbrev S_ : Shape := ⟨0, ![]⟩
abbrev S2097152x1 : Shape := ⟨2, ![2097152, 1]⟩
abbrev S2097152 : Shape := ⟨1, ![2097152]⟩
abbrev S1 : Shape := ⟨1, ![1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S20x32, .f32⟩
  | .hbm, ⟨2, _⟩ => ⟨S20, .f32⟩
  | .hbm, ⟨3, _⟩ => ⟨S5x20, .f32⟩
  | .hbm, ⟨4, _⟩ => ⟨S5, .f32⟩
  | .hbm, ⟨5, _⟩ => ⟨S2x5, .f32⟩
  | .hbm, ⟨6, _⟩ => ⟨S2, .f32⟩
  | .hbm, ⟨7, _⟩ => ⟨S625, .f32⟩
  | .hbm, ⟨8, _⟩ => ⟨S32x20, .f32⟩
  | .hbm, ⟨9, _⟩ => ⟨S2097152x20, .f32⟩
  | .hbm, ⟨10, _⟩ => ⟨S1x20, .f32⟩
  | .hbm, ⟨11, _⟩ => ⟨S2097152x20, .f32⟩
  | .hbm, ⟨12, _⟩ => ⟨S2097152x20, .f32⟩
  | .hbm, ⟨13, _⟩ => ⟨S2097152x20, .f32⟩
  | .hbm, ⟨14, _⟩ => ⟨S20x5, .f32⟩
  | .hbm, ⟨15, _⟩ => ⟨S2097152x5, .f32⟩
  | .hbm, ⟨16, _⟩ => ⟨S1x5, .f32⟩
  | .hbm, ⟨17, _⟩ => ⟨S2097152x5, .f32⟩
  | .hbm, ⟨18, _⟩ => ⟨S2097152x5, .f32⟩
  | .hbm, ⟨19, _⟩ => ⟨S2097152x5, .f32⟩
  | .hbm, ⟨20, _⟩ => ⟨S5x2, .f32⟩
  | .hbm, ⟨21, _⟩ => ⟨S2097152x2, .f32⟩
  | .hbm, ⟨22, _⟩ => ⟨S1x2, .f32⟩
  | .hbm, ⟨23, _⟩ => ⟨S2097152x2, .f32⟩
  | .hbm, ⟨24, _⟩ => ⟨S2097152x2, .f32⟩
  | .hbm, ⟨25, _⟩ => ⟨S2097152x2, .f32⟩
  | .hbm, ⟨26, _⟩ => ⟨S_, .f32⟩
  | .hbm, ⟨27, _⟩ => ⟨S2, .f32⟩
  | .hbm, ⟨28, _⟩ => ⟨S1x2, .f32⟩
  | .hbm, ⟨29, _⟩ => ⟨S_, .f32⟩
  | .hbm, ⟨30, _⟩ => ⟨S2, .f32⟩
  | .hbm, ⟨31, _⟩ => ⟨S1x2, .f32⟩
  | .hbm, ⟨32, _⟩ => ⟨S2097152x2, .f32⟩
  | .hbm, ⟨33, _⟩ => ⟨S2097152x2, .f32⟩
  | .hbm, ⟨34, _⟩ => ⟨S1x2, .f32⟩
  | .hbm, ⟨35, _⟩ => ⟨S2097152x2, .f32⟩
  | .hbm, ⟨36, _⟩ => ⟨S2097152x2, .f32⟩
  | .hbm, ⟨37, _⟩ => ⟨S_, .f32⟩
  | .hbm, ⟨38, _⟩ => ⟨S2097152x2, .f32⟩
  | .hbm, ⟨39, _⟩ => ⟨S2097152x2, .f32⟩
  | .hbm, ⟨40, _⟩ => ⟨S_, .f32⟩
  | .hbm, ⟨41, _⟩ => ⟨S2097152x2, .f32⟩
  | .hbm, ⟨42, _⟩ => ⟨S2097152x2, .f32⟩
  | .hbm, ⟨43, _⟩ => ⟨S_, .f32⟩
  | .hbm, ⟨44, _⟩ => ⟨S2097152x2, .f32⟩
  | .hbm, ⟨45, _⟩ => ⟨S2097152x2, .f32⟩
  | .hbm, ⟨46, _⟩ => ⟨S2097152x2, .f32⟩
  | .hbm, ⟨47, _⟩ => ⟨S2097152x2, .i32⟩
  | .hbm, ⟨48, _⟩ => ⟨S2097152x1, .i32⟩
  | .hbm, ⟨49, _⟩ => ⟨S2097152, .i32⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S2097152x1, .i32⟩
  | .hbm, ⟨54, _⟩ => ⟨S2097152, .i32⟩
  | .hbm, ⟨55, _⟩ => ⟨S2097152, .i32⟩
  | .hbm, ⟨56, _⟩ => ⟨S_, .i32⟩
  | .hbm, ⟨57, _⟩ => ⟨S2097152, .i32⟩
  | .hbm, ⟨58, _⟩ => ⟨S2097152, .i1⟩
  | .hbm, ⟨59, _⟩ => ⟨S_, .i32⟩
  | .hbm, ⟨60, _⟩ => ⟨S2097152, .i32⟩
  | .hbm, ⟨61, _⟩ => ⟨S2097152, .i32⟩
  | .hbm, ⟨62, _⟩ => ⟨S2097152, .i32⟩
  | .hbm, ⟨63, _⟩ => ⟨S2097152x1, .i32⟩
  | .hbm, ⟨64, _⟩ => ⟨S1, .i32⟩
  | .hbm, ⟨65, _⟩ => ⟨S_, .i32⟩
  | .hbm, ⟨66, _⟩ => ⟨S2097152x1, .i32⟩
  | .hbm, ⟨67, _⟩ => ⟨S2097152x1, .i1⟩
  | .hbm, ⟨68, _⟩ => ⟨S1x1, .i32⟩
  | .hbm, ⟨69, _⟩ => ⟨S2097152x1, .i32⟩
  | .hbm, ⟨70, _⟩ => ⟨S2097152x1, .i1⟩
  | .hbm, ⟨71, _⟩ => ⟨S2097152x1, .i1⟩
  | .hbm, ⟨72, _⟩ => ⟨S_, .i1⟩
  | .hbm, ⟨73, _⟩ => ⟨S2097152, .i1⟩
  | .hbm, ⟨74, _⟩ => ⟨S2097152, .f32⟩
  | .hbm, ⟨75, _⟩ => ⟨S_, .f32⟩
  | .hbm, ⟨76, _⟩ => ⟨S2097152, .f32⟩
  | .hbm, ⟨77, _⟩ => ⟨S2097152, .f32⟩
  | .hbm, ⟨78, _⟩ => ⟨S2097152x1, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v42 : Ref sig .tc := ⟨.hbm, 77, rfl⟩
abbrev main_v43 : Ref sig .tc := ⟨.hbm, 78, rfl⟩

abbrev nD : Nat := 1
abbrev τ : Topo := Topo.v7x

variable {F : FTy → Type} [FloatOps F]

class Facts₀ : Prop where
  transposes_S20x32_S32x20_1_0 : S20x32.Transposes [1, 0] S32x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  transposes_S5x20_S20x5_1_0 : S5x20.Transposes [1, 0] S20x5
  bcast_S5_S1x5_1 : S5.BroadcastsInDim S1x5 (![1] : Fin 1 → Fin S1x5.rank)
  bcast_S1x5_S2097152x5_0_1 : S1x5.BroadcastsInDim S2097152x5 (![0, 1] : Fin 2 → Fin S2097152x5.rank)
  transposes_S2x5_S5x2_1_0 : S2x5.Transposes [1, 0] S5x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  reducesTo_S2097152x2_S2_d0 : S2097152x2.ReducesTo [0] S2
  h_S_ : 0 < S_.numel
  bcast_S_S2097152x2 : S_.BroadcastsInDim S2097152x2 (![] : Fin 0 → Fin S2097152x2.rank)
  slices_S2097152x2_S2097152x1_0_0 : S2097152x2.Slices ![0, 0] S2097152x1
  shapeCasts_S2097152x1_S2097152 : S2097152x1.ShapeCasts S2097152
  bcast_S_S2097152 : S_.BroadcastsInDim S2097152 (![] : Fin 0 → Fin S2097152.rank)
  slices_S2097152x2_S2097152x1_0_1 : S2097152x2.Slices ![0, 1] S2097152x1
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  dot_S2097152x32_S32x20_S2097152x20_1_0_0_1_n_n_wf : DotDims.WF S2097152x32 S32x20 S2097152x20 [1] [0] [0] [1] [] []
  dot_S2097152x20_S20x5_S2097152x5_1_0_0_1_n_n_wf : DotDims.WF S2097152x20 S20x5 S2097152x5 [1] [0] [0] [1] [] []
  dot_S2097152x5_S5x2_S2097152x2_1_0_0_1_n_n_wf : DotDims.WF S2097152x5 S5x2 S2097152x2 [1] [0] [0] [1] [] []
  gather_S625_S2097152x1_S2097152_n_0_n_n_0_1_1_wf : GatherDims.WF S625 S2097152x1 S2097152 [] [0] [] [0] [] 1 ![1]

variable [Facts₀]

def dot_S2097152x32_S32x20_S2097152x20_1_0_0_1_n_n : DotDims S2097152x32 S32x20 S2097152x20 where
  lhsContracting := [1]
  rhsContracting := [0]
  lhsNonContracting := [0]
  rhsNonContracting := [1]
  lhsBatch := []
  rhsBatch := []
  wf := dot_S2097152x32_S32x20_S2097152x20_1_0_0_1_n_n_wf
def dot_S2097152x20_S20x5_S2097152x5_1_0_0_1_n_n : DotDims S2097152x20 S20x5 S2097152x5 where
  lhsContracting := [1]
  rhsContracting := [0]
  lhsNonContracting := [0]
  rhsNonContracting := [1]
  lhsBatch := []
  rhsBatch := []
  wf := dot_S2097152x20_S20x5_S2097152x5_1_0_0_1_n_n_wf
def dot_S2097152x5_S5x2_S2097152x2_1_0_0_1_n_n : DotDims S2097152x5 S5x2 S2097152x2 where
  lhsContracting := [1]
  rhsContracting := [0]
  lhsNonContracting := [0]
  rhsNonContracting := [1]
  lhsBatch := []
  rhsBatch := []
  wf := dot_S2097152x5_S5x2_S2097152x2_1_0_0_1_n_n_wf
def gather_S625_S2097152x1_S2097152_n_0_n_n_0_1_1 : GatherDims S625 S2097152x1 S2097152 where
  offsetDims := []
  collapsedSliceDims := [0]
  operandBatchingDims := []
  startIndicesBatchingDims := []
  startIndexMap := [0]
  indexVectorDim := 1
  sliceSizes := ![1]
  wf := gather_S625_S2097152x1_S2097152_n_0_n_n_0_1_1_wf

class Facts : Prop extends Facts₀ where

variable [Facts]
-- ==== Proof.K.Region0.lean ====
/-
  The first kernel region (the encoder) of the program, at any float instance and at any contents `V` of the
  core's buffers when the region is entered. At each of the 32 grid points the body reads a block of 65536 rows of the
  input and the six weight and bias arrays, and stores the encoded block (`k0_pay3` of the seven). Two 1x2 rows carry
  the running column minimum and maximum of the encoded blocks: at the first point the body stores the block's own
  column minimum and maximum (`k0_pay4`, `k0_pay5`), at every later point the minimum (maximum) of the row it finds and
  the block's (`k0_pay1`, `k0_pay2`). The rows stay in their buffers from one point to the next.
-/
import proofs.«120400_j53171695125388_1_alg».proof.Proof.Gen.Kernel.Launch
import proofs.«120400_j53171695125388_1_alg».proof.Proof.Gen.Kernel.Skeleton
import proofs.«120400_j53171695125388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The conditions on the grid coordinate -/

/-- The body's first conditional holds at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- its second at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two holds at every coordinate (the coordinate is zero or positive). -/
theorem idle_tab : ∀ k : Fin 32,
    (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by
  decide +kernel

/-- So the two rows are stored at every point: their windows are nowhere idle. -/
theorem idle0_8 : ∀ i : grid0.Coords, cfg0.idle 8 i = false := fun i => idle_tab (i 0)
theorem idle0_9 : ∀ i : grid0.Coords, cfg0.idle 9 i = false := fun i => idle_tab (i 0)

/-- An input window's staging buffer holds the window's block at every point, whether the point fetched it or an
    earlier one did and the body left it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S65536x32 := Rect.unit (s := S65536x32) ![0, 0] S65536x32.size inb_S65536x32_S65536x32_0_0
abbrev r0_w1 : Rect S32x20 := Rect.unit (s := S32x20) ![0, 0] S32x20.size inb_S32x20_S32x20_0_0
abbrev r0_b1 : Rect S1x20 := Rect.unit (s := S1x20) ![0, 0] S1x20.size inb_S1x20_S1x20_0_0
abbrev r0_w2 : Rect S20x5 := Rect.unit (s := S20x5) ![0, 0] S20x5.size inb_S20x5_S20x5_0_0
abbrev r0_b2 : Rect S1x5 := Rect.unit (s := S1x5) ![0, 0] S1x5.size inb_S1x5_S1x5_0_0
abbrev r0_w3 : Rect S5x2 := Rect.unit (s := S5x2) ![0, 0] S5x2.size inb_S5x2_S5x2_0_0
abbrev r0_row : Rect S1x2 := Rect.unit (s := S1x2) ![0, 0] S1x2.size inb_S1x2_S1x2_0_0
abbrev r0_e : Rect S65536x2 := Rect.unit (s := S65536x2) ![0, 0] S65536x2.size inb_S65536x2_S65536x2_0_0

/-- The encoded block after the body: its one store, which covers the block. -/
def out0_7 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S65536x2 .f32 :=
  View.canon [⟨r0_e, k0_pay3 (View.ld x0 r0_x) (View.ld x1 r0_w1) (View.ld x2 r0_b1) (View.ld x3 r0_w2) (View.ld x4 r0_b2) (View.ld x5 r0_w3) (View.ld x6 r0_row)⟩]

/-- The minimum row after the body at the first point: the block's column minimum. -/
def out0_A_8 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S1x2 .f32 :=
  View.canon [⟨r0_row, k0_pay4 (View.ld x0 r0_x) (View.ld x1 r0_w1) (View.ld x2 r0_b1) (View.ld x3 r0_w2) (View.ld x4 r0_b2) (View.ld x5 r0_w3) (View.ld x6 r0_row)⟩]

/-- The maximum row after the body at the first point: the block's column maximum. -/
def out0_A_9 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S1x2 .f32 :=
  View.canon [⟨r0_row, k0_pay5 (View.ld x0 r0_x) (View.ld x1 r0_w1) (View.ld x2 r0_b1) (View.ld x3 r0_w2) (View.ld x4 r0_b2) (View.ld x5 r0_w3) (View.ld x6 r0_row)⟩]

/-- The minimum row after the body at a later point: the minimum of the row `p` it finds and the block's column minimum. -/
def out0_B_8 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p : Vec F S1x2 .f32) : Vec F S1x2 .f32 :=
  View.canon [⟨r0_row, k0_pay1 (k0_pay4 (View.ld x0 r0_x) (View.ld x1 r0_w1) (View.ld x2 r0_b1) (View.ld x3 r0_w2) (View.ld x4 r0_b2) (View.ld x5 r0_w3) (View.ld x6 r0_row)) (View.ld p r0_row)⟩]

/-- The maximum row after the body at a later point: the maximum of the row `p` it finds and the block's column maximum. -/
def out0_B_9 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p : Vec F S1x2 .f32) : Vec F S1x2 .f32 :=
  View.canon [⟨r0_row, k0_pay2 (k0_pay5 (View.ld x0 r0_x) (View.ld x1 r0_w1) (View.ld x2 r0_b1) (View.ld x3 r0_w2) (View.ld x4 r0_b2) (View.ld x5 r0_w3) (View.ld x6 r0_row)) (View.ld p r0_row)⟩]

theorem cover0_7 (p0 : Vec F S65536x2 .f32) (y : S65536x2.Idx) :
    ∃ pc ∈ ([⟨r0_e, p0⟩] : List (View.Piece (Elt F) S65536x2 .f32)), y ∈ pc.1.set :=
  View.cover_of_tiled [⟨r0_e, p0⟩] S65536x2.size (by rfl) y

theorem cover0_row (p0 : Vec F S1x2 .f32) (y : S1x2.Idx) :
    ∃ pc ∈ ([⟨r0_row, p0⟩] : List (View.Piece (Elt F) S1x2 .f32)), y ∈ pc.1.set :=
  View.cover_of_tiled [⟨r0_row, p0⟩] S1x2.size (by rfl) y

set_option maxHeartbeats 4000000 in
/-- The body at the first grid point, on whole staging memrefs: the seven inputs at contents `x0 … x6` stay as they
    are; the three outputs' buffers, whatever they held, end at the encoded block and its column minimum and maximum. -/
theorem sound_kernel0_A (c : Dev nD) (E : Set ℕ) (i : grid0.Coords) (hc1 : k0_cond1 i = 1#1) (hc2 : ¬k0_cond2 i = 1#1)
    (arg1 : Memref sig .tc .vmem S65536x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S65536x2 .f32) (harg8 : arg8.IsWhole) (arg9 : Memref sig .tc .vmem S1x2 .f32) (harg9 : arg9.IsWhole) (arg10 : Memref sig .tc .vmem S1x2 .f32) (harg10 : arg10.IsWhole)
    (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_A_8 x0 x1 x2 x3 x4 x5 x6)
            ∗ owns (c : Thread nD τ) arg10 fullShare (out0_A_9 x0 x1 x2 x3 x4 x5 x6)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_row _)
  iexists _; isplitr
  swap; · iexact H9
  ipureintro
  exact View.read_writes_eq_canon _ _ _ (cover0_row _)

set_option maxHeartbeats 4000000 in
/-- The body at a later grid point, on whole staging memrefs: the seven inputs at contents `x0 … x6` stay as they are; the
    encoded block's buffer, whatever it held, ends at the encoded block; the two rows, found at `p8` and `p9`, end at
    their minimum (maximum) with the block's column minimum (maximum). -/
theorem sound_kernel0_B (c : Dev nD) (E : Set ℕ) (i : grid0.Coords) (hc1 : ¬k0_cond1 i = 1#1) (hc2 : k0_cond2 i = 1#1)
    (arg1 : Memref sig .tc .vmem S65536x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S65536x2 .f32) (harg8 : arg8.IsWhole) (arg9 : Memref sig .tc .vmem S1x2 .f32) (harg9 : arg9.IsWhole) (arg10 : Memref sig .tc .vmem S1x2 .f32) (harg10 : arg10.IsWhole)
    (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p8 p9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare p8 ∗ owns (c : Thread nD τ) arg10 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_B_8 x0 x1 x2 x3 x4 x5 x6 p8)
            ∗ owns (c : Thread nD τ) arg10 fullShare (out0_B_9 x0 x1 x2 x3 x4 x5 x6 p9)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0; subst hf1; subst hf2; subst hf3; subst hf4; subst hf5; subst hf6; subst hf8; subst hf9
  sl_exec (disch := first | exact hc1 | exact hc2)
  sl_step
  iapply Hk
  dsimp only
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_row _)
  iexists _; isplitr
  swap; · iexact H9
  ipureintro
  exact View.read_writes_eq_canon _ _ _ (cover0_row _)

/-- THE RUNNING MINIMUM. What the minimum row's buffer holds after the body at position `n`: the first block's column
    minimum at `0`, at `n + 1` the minimum of what position `n` left and block `n + 1`'s column minimum. -/
def mnAt (c : Dev nD) : (n : ℕ) → n < cfg0.N → Vec F S1x2 .f32
  | 0, hn => out0_A_8 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn => out0_B_8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mnAt c n (Nat.lt_of_succ_lt hn))

/-- THE RUNNING MAXIMUM, likewise. -/
def mxAt (c : Dev nD) : (n : ℕ) → n < cfg0.N → Vec F S1x2 .f32
  | 0, hn => out0_A_9 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn => out0_B_9 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mxAt c n (Nat.lt_of_succ_lt hn))

theorem mnAt_zero (c : Dev nD) (t : Fin cfg0.N) (h0 : t.val = 0) :
    mnAt V c t.val t.isLt = out0_A_8 (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact absurd h0 (Nat.succ_ne_zero n)

theorem mnAt_succ (c : Dev nD) (t : Fin cfg0.N) (h0 : t.val ≠ 0) :
    mnAt V c t.val t.isLt = out0_B_8 (iblk0 V c 0 t) (iblk0 V c 1 t) (iblk0 V c 2 t) (iblk0 V c 3 t) (iblk0 V c 4 t) (iblk0 V c 5 t) (iblk0 V c 6 t) (mnAt V c (t.val - 1) (Nat.lt_of_le_of_lt (Nat.sub_le _ _) t.isLt)) := by
  obtain ⟨n, hn⟩ := t
  cases n with
  | zero => exact absurd rfl h0
  | succ n => exact rfl

theorem mxAt_zero (c : Dev nD) (t : Fin cfg0.N) (h0 : t.val = 0) :
    mxAt V c t.val t.isLt = out0_A_9 (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact absurd h0 (Nat.succ_ne_zero n)

theorem mxAt_succ (c : Dev nD) (t : Fin cfg0.N) (h0 : t.val ≠ 0) :
    mxAt V c t.val t.isLt = out0_B_9 (iblk0 V c 0 t) (iblk0 V c 1 t) (iblk0 V c 2 t) (iblk0 V c 3 t) (iblk0 V c 4 t) (iblk0 V c 5 t) (iblk0 V c 6 t) (mxAt V c (t.val - 1) (Nat.lt_of_le_of_lt (Nat.sub_le _ _) t.isLt)) := by
  obtain ⟨n, hn⟩ := t
  cases n with
  | zero => exact absurd rfl h0
  | succ n => exact rfl

/-- The region's proof data on core `c`: the arrays as the region finds them; after the body each input's buffer at its
    block, the encoded block at `out0_7` of the seven input blocks, the two rows at the running minimum and maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => mnAt V c t.val t.isLt
    | ⟨9, _⟩ => mxAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = mnAt V c t.val t.isLt := by dsimp only [dat0]
theorem after0_9 (c : Dev nD) (t : Fin cfg0.N) : (dat0 V c).after 9 t = mxAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- At a later point the minimum row's buffer holds what the body left at the point before: the row is written back at
    the last point only, and its window is live and uncut. -/
theorem before0_8_B (c : Dev nD) (t : Fin cfg0.N) (h0 : t.val ≠ 0) (d) :
    (dat0 V c).before 8 t d = mnAt V c (t.val - 1) (Nat.lt_of_le_of_lt (Nat.sub_le _ _) t.isLt) := by
  have hN : t.val < 32 := lt_of_lt_of_eq t.isLt (show cfg0.N = 32 from N_0)
  rw [Dat.before_out_kept _ 8 rfl t h0 (Bool.eq_false_iff.mpr fun h => by have := (flush0_8 _).mp h; dsimp only at this; omega)
    idle0_8 (fun _ _ => rfl)]
  dsimp only [dat0]
/-- The maximum row's likewise. -/
theorem before0_9_B (c : Dev nD) (t : Fin cfg0.N) (h0 : t.val ≠ 0) (d) :
    (dat0 V c).before 9 t d = mxAt V c (t.val - 1) (Nat.lt_of_le_of_lt (Nat.sub_le _ _) t.isLt) := by
  have hN : t.val < 32 := lt_of_lt_of_eq t.isLt (show cfg0.N = 32 from N_0)
  rw [Dat.before_out_kept _ 9 rfl t h0 (Bool.eq_false_iff.mpr fun h => by have := (flush0_9 _).mp h; dsimp only at this; omega)
    idle0_9 (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1600000 in
/-- The body at any point: the inputs' buffers hold their blocks; at the first point the three outputs' buffers hold
    anything and the first case applies; at a later point the two rows' buffers hold what the point before left, and the
    second case applies. The invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val = 0
  · rw [mnAt_zero V c t h0, mxAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ _ ((hcond1 t).mpr h0) (fun h => (hcond2 t).mp h h0) _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [mnAt_succ V c t h0, mxAt_succ V c t h0]
    simp only [before0_8_B V c t h0, before0_9_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ _ (fun h => h0 ((hcond1 t).mp h)) ((hcond2 t).mpr h0) _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point: the two rows' windows are nowhere idle. -/
theorem body_obligation0 (c : Dev nD) : BodyObligation (dat0 (F := F) V c) (defs₀ (F := F)) Variants.none () Set.univ := fun t => by
  rw [bigSep_W0, bigSep_W0]
  rw [show cfg0.idle 8 (cfg0.grid.coords t) = false from idle0_8 _]
  try rw [show cfg0.idle 9 (cfg0.grid.coords t) = false from idle0_9 _]
  exact sound_body0 V c t

end Cert.Kernel.Hand

end
-- ==== Proof.K.Region1.lean ====
/-
  The second kernel region (the table look-up) of the program, at any float instance and at any contents `V` of the
  core's buffers when the region is entered. The body reads four blocks — 8192 rows of the encoded pairs, the two
  1x2 rows holding the per-coordinate minimum and maximum, the 25x25 table — and stores one 8192x1 block: a single
  function of the four blocks (`k1_pay1`). No block is carried from one grid point to the next.
-/
import proofs.«120400_j53171695125388_1_alg».proof.Proof.Gen.Kernel.Launch
import proofs.«120400_j53171695125388_1_alg».proof.Proof.Gen.Kernel.Skeleton
import proofs.«120400_j53171695125388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or an
    earlier one did and the body left it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_e : Rect S8192x2 := Rect.unit (s := S8192x2) ![0, 0] S8192x2.size inb_S8192x2_S8192x2_0_0
abbrev r1_row : Rect S1x2 := Rect.unit (s := S1x2) ![0, 0] S1x2.size inb_S1x2_S1x2_0_0
abbrev r1_tab : Rect S25x25 := Rect.unit (s := S25x25) ![0, 0] S25x25.size inb_S25x25_S25x25_0_0
abbrev r1_out : Rect S8192x1 := Rect.unit (s := S8192x1) ![0, 0] S8192x1.size inb_S8192x1_S8192x1_0_0

/-- The output block after the body: its one store, which covers the block. -/
def out1_4 (x0 : Vec F S8192x2 .f32) (x1 : Vec F S1x2 .f32) (x2 : Vec F S1x2 .f32) (x3 : Vec F S25x25 .f32) : Vec F S8192x1 .f32 :=
  View.canon [⟨r1_out, k1_pay1 (View.ld x0 r1_e) (View.ld x1 r1_row) (View.ld x2 r1_row) (View.ld x3 r1_tab)⟩]

theorem cover1_4 (p0 : Vec F S8192x1 .f32) (y : S8192x1.Idx) :
    ∃ pc ∈ ([⟨r1_out, p0⟩] : List (View.Piece (Elt F) S8192x1 .f32)), y ∈ pc.1.set :=
  View.cover_of_tiled [⟨r1_out, p0⟩] S8192x1.size (by rfl) y

set_option maxHeartbeats 1000000 in
/-- The body on whole staging memrefs: the four inputs at contents `x0 … x3` stay as they are, the output's buffer,
    whatever it held, ends at `out1_4` of them. -/
theorem sound_kernel1 (c : Dev nD) (E : Set ℕ) (i : grid1.Coords)
    (arg1 : Memref sig .tc .vmem S8192x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S25x25 .f32) (harg4 : arg4.IsWhole)
    (arg5 : Memref sig .tc .vmem S8192x1 .f32) (harg5 : arg5.IsWhole)
    (x0 : Vec F S8192x2 .f32) (x1 : Vec F S1x2 .f32) (x2 : Vec F S1x2 .f32) (x3 : Vec F S25x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body each input's buffer
    at its block and the output's at `out1_4` of the four input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as three items in order — the host operations that lay out the weights (three transposes, four
  reshapes), the encoder region, the look-up region — and its run: from any memory, every weakly fair execution ends,
  nothing faults, the result buffer holds what the look-up region's write-backs leave and the eight argument
  buffers hold what they held at launch.

  The buffer contents at each boundary are a fold from the launch memory: `W1` after the host operations, `W2` with
  the encoder region's three result arrays at what its write-backs leave, `W3` likewise for the look-up region.
-/
import proofs.«120400_j53171695125388_1_alg».proof.Proof.K.Region0
import proofs.«120400_j53171695125388_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations: what the encoder region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the encoder region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the look-up region's exit (it is entered from `W2`: no host operation stands between the two regions). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The result buffer at the end is what the look-up region's write-backs leave. -/
theorem W3_main_v8 (c : Dev nD) : W3 m ρ c (Proc.devRef .tc main_v8) = (dat1 (V2 m ρ) c).arrAt 4 cfg1.N := W3_arr m ρ c 4

/-! No host operation and no region writes an argument: the fold at an argument's buffer walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: its arrays split out of the unscoped buffers at entry and put back, at what the
    write-backs leave, at exit; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back, at what the
    write-backs leave, at exit; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. Every weakly fair execution from memory `m` with zero counters terminates without a fault; at the end every
    unscoped buffer of every core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run, read at the result and at the arguments: the result buffer at what the look-up region's write-backs leave,
    the eight arguments as launched. -/
theorem run_main : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (W3_main_v8 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- The frame: every execution ends without a fault and the eight arguments hold what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_main m ρ)

end Cert.Kernel.Hand

end
-- ==== Proof.KI.Region0.lean ====
/-
  The first kernel region (the encoder) of the program, at any float instance and at any contents `V` of the
  core's buffers when the region is entered. At each of the 32 grid points the body reads a block of 65536 rows of the
  input and the six weight and bias arrays, and stores the encoded block (`k0_pay3` of the seven). Two 1x2 rows carry
  the running column minimum and maximum of the encoded blocks: at the first point the body stores the block's own
  column minimum and maximum (`k0_pay4`, `k0_pay5`), at every later point the minimum (maximum) of the row it finds and
  the block's (`k0_pay1`, `k0_pay2`). The rows stay in their buffers from one point to the next.
-/
import proofs.«120400_j53171695125388_1_alg».proof.Proof.Gen.KernelIdeal.Launch
import proofs.«120400_j53171695125388_1_alg».proof.Proof.Gen.KernelIdeal.Skeleton
import proofs.«120400_j53171695125388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The conditions on the grid coordinate -/

/-- The body's first conditional holds at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- its second at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two holds at every coordinate (the coordinate is zero or positive). -/
theorem idle_tab : ∀ k : Fin 32,
    (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by
  decide +kernel

/-- So the two rows are stored at every point: their windows are nowhere idle. -/
theorem idle0_8 : ∀ i : grid0.Coords, cfg0.idle 8 i = false := fun i => idle_tab (i 0)
theorem idle0_9 : ∀ i : grid0.Coords, cfg0.idle 9 i = false := fun i => idle_tab (i 0)

/-- An input window's staging buffer holds the window's block at every point, whether the point fetched it or an
    earlier one did and the body left it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S65536x32 := Rect.unit (s := S65536x32) ![0, 0] S65536x32.size inb_S65536x32_S65536x32_0_0
abbrev r0_w1 : Rect S32x20 := Rect.unit (s := S32x20) ![0, 0] S32x20.size inb_S32x20_S32x20_0_0
abbrev r0_b1 : Rect S1x20 := Rect.unit (s := S1x20) ![0, 0] S1x20.size inb_S1x20_S1x20_0_0
abbrev r0_w2 : Rect S20x5 := Rect.unit (s := S20x5) ![0, 0] S20x5.size inb_S20x5_S20x5_0_0
abbrev r0_b2 : Rect S1x5 := Rect.unit (s := S1x5) ![0, 0] S1x5.size inb_S1x5_S1x5_0_0
abbrev r0_w3 : Rect S5x2 := Rect.unit (s := S5x2) ![0, 0] S5x2.size inb_S5x2_S5x2_0_0
abbrev r0_row : Rect S1x2 := Rect.unit (s := S1x2) ![0, 0] S1x2.size inb_S1x2_S1x2_0_0
abbrev r0_e : Rect S65536x2 := Rect.unit (s := S65536x2) ![0, 0] S65536x2.size inb_S65536x2_S65536x2_0_0

/-- The encoded block after the body: its one store, which covers the block. -/
def out0_7 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S65536x2 .f32 :=
  View.canon [⟨r0_e, k0_pay3 (View.ld x0 r0_x) (View.ld x1 r0_w1) (View.ld x2 r0_b1) (View.ld x3 r0_w2) (View.ld x4 r0_b2) (View.ld x5 r0_w3) (View.ld x6 r0_row)⟩]

/-- The minimum row after the body at the first point: the block's column minimum. -/
def out0_A_8 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S1x2 .f32 :=
  View.canon [⟨r0_row, k0_pay4 (View.ld x0 r0_x) (View.ld x1 r0_w1) (View.ld x2 r0_b1) (View.ld x3 r0_w2) (View.ld x4 r0_b2) (View.ld x5 r0_w3) (View.ld x6 r0_row)⟩]

/-- The maximum row after the body at the first point: the block's column maximum. -/
def out0_A_9 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) : Vec F S1x2 .f32 :=
  View.canon [⟨r0_row, k0_pay5 (View.ld x0 r0_x) (View.ld x1 r0_w1) (View.ld x2 r0_b1) (View.ld x3 r0_w2) (View.ld x4 r0_b2) (View.ld x5 r0_w3) (View.ld x6 r0_row)⟩]

/-- The minimum row after the body at a later point: the minimum of the row `p` it finds and the block's column minimum. -/
def out0_B_8 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p : Vec F S1x2 .f32) : Vec F S1x2 .f32 :=
  View.canon [⟨r0_row, k0_pay1 (k0_pay4 (View.ld x0 r0_x) (View.ld x1 r0_w1) (View.ld x2 r0_b1) (View.ld x3 r0_w2) (View.ld x4 r0_b2) (View.ld x5 r0_w3) (View.ld x6 r0_row)) (View.ld p r0_row)⟩]

/-- The maximum row after the body at a later point: the maximum of the row `p` it finds and the block's column maximum. -/
def out0_B_9 (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p : Vec F S1x2 .f32) : Vec F S1x2 .f32 :=
  View.canon [⟨r0_row, k0_pay2 (k0_pay5 (View.ld x0 r0_x) (View.ld x1 r0_w1) (View.ld x2 r0_b1) (View.ld x3 r0_w2) (View.ld x4 r0_b2) (View.ld x5 r0_w3) (View.ld x6 r0_row)) (View.ld p r0_row)⟩]

theorem cover0_7 (p0 : Vec F S65536x2 .f32) (y : S65536x2.Idx) :
    ∃ pc ∈ ([⟨r0_e, p0⟩] : List (View.Piece (Elt F) S65536x2 .f32)), y ∈ pc.1.set :=
  View.cover_of_tiled [⟨r0_e, p0⟩] S65536x2.size (by rfl) y

theorem cover0_row (p0 : Vec F S1x2 .f32) (y : S1x2.Idx) :
    ∃ pc ∈ ([⟨r0_row, p0⟩] : List (View.Piece (Elt F) S1x2 .f32)), y ∈ pc.1.set :=
  View.cover_of_tiled [⟨r0_row, p0⟩] S1x2.size (by rfl) y

set_option maxHeartbeats 4000000 in
/-- The body at the first grid point, on whole staging memrefs: the seven inputs at contents `x0 … x6` stay as they
    are; the three outputs' buffers, whatever they held, end at the encoded block and its column minimum and maximum. -/
theorem sound_kernel0_A (c : Dev nD) (E : Set ℕ) (i : grid0.Coords) (hc1 : k0_cond1 i = 1#1) (hc2 : ¬k0_cond2 i = 1#1)
    (arg1 : Memref sig .tc .vmem S65536x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S65536x2 .f32) (harg8 : arg8.IsWhole) (arg9 : Memref sig .tc .vmem S1x2 .f32) (harg9 : arg9.IsWhole) (arg10 : Memref sig .tc .vmem S1x2 .f32) (harg10 : arg10.IsWhole)
    (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_A_8 x0 x1 x2 x3 x4 x5 x6)
            ∗ owns (c : Thread nD τ) arg10 fullShare (out0_A_9 x0 x1 x2 x3 x4 x5 x6)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_row _)
  iexists _; isplitr
  swap; · iexact H9
  ipureintro
  exact View.read_writes_eq_canon _ _ _ (cover0_row _)

set_option maxHeartbeats 4000000 in
/-- The body at a later grid point, on whole staging memrefs: the seven inputs at contents `x0 … x6` stay as they are; the
    encoded block's buffer, whatever it held, ends at the encoded block; the two rows, found at `p8` and `p9`, end at
    their minimum (maximum) with the block's column minimum (maximum). -/
theorem sound_kernel0_B (c : Dev nD) (E : Set ℕ) (i : grid0.Coords) (hc1 : ¬k0_cond1 i = 1#1) (hc2 : k0_cond2 i = 1#1)
    (arg1 : Memref sig .tc .vmem S65536x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S65536x2 .f32) (harg8 : arg8.IsWhole) (arg9 : Memref sig .tc .vmem S1x2 .f32) (harg9 : arg9.IsWhole) (arg10 : Memref sig .tc .vmem S1x2 .f32) (harg10 : arg10.IsWhole)
    (x0 : Vec F S65536x32 .f32) (x1 : Vec F S32x20 .f32) (x2 : Vec F S1x20 .f32) (x3 : Vec F S20x5 .f32) (x4 : Vec F S1x5 .f32) (x5 : Vec F S5x2 .f32) (x6 : Vec F S1x2 .f32) (p8 p9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare p8 ∗ owns (c : Thread nD τ) arg10 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_B_8 x0 x1 x2 x3 x4 x5 x6 p8)
            ∗ owns (c : Thread nD τ) arg10 fullShare (out0_B_9 x0 x1 x2 x3 x4 x5 x6 p9)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0; subst hf1; subst hf2; subst hf3; subst hf4; subst hf5; subst hf6; subst hf8; subst hf9
  sl_exec (disch := first | exact hc1 | exact hc2)
  sl_step
  iapply Hk
  dsimp only
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_row _)
  iexists _; isplitr
  swap; · iexact H9
  ipureintro
  exact View.read_writes_eq_canon _ _ _ (cover0_row _)

/-- THE RUNNING MINIMUM. What the minimum row's buffer holds after the body at position `n`: the first block's column
    minimum at `0`, at `n + 1` the minimum of what position `n` left and block `n + 1`'s column minimum. -/
def mnAt (c : Dev nD) : (n : ℕ) → n < cfg0.N → Vec F S1x2 .f32
  | 0, hn => out0_A_8 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn => out0_B_8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mnAt c n (Nat.lt_of_succ_lt hn))

/-- THE RUNNING MAXIMUM, likewise. -/
def mxAt (c : Dev nD) : (n : ℕ) → n < cfg0.N → Vec F S1x2 .f32
  | 0, hn => out0_A_9 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn => out0_B_9 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mxAt c n (Nat.lt_of_succ_lt hn))

theorem mnAt_zero (c : Dev nD) (t : Fin cfg0.N) (h0 : t.val = 0) :
    mnAt V c t.val t.isLt = out0_A_8 (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact absurd h0 (Nat.succ_ne_zero n)

theorem mnAt_succ (c : Dev nD) (t : Fin cfg0.N) (h0 : t.val ≠ 0) :
    mnAt V c t.val t.isLt = out0_B_8 (iblk0 V c 0 t) (iblk0 V c 1 t) (iblk0 V c 2 t) (iblk0 V c 3 t) (iblk0 V c 4 t) (iblk0 V c 5 t) (iblk0 V c 6 t) (mnAt V c (t.val - 1) (Nat.lt_of_le_of_lt (Nat.sub_le _ _) t.isLt)) := by
  obtain ⟨n, hn⟩ := t
  cases n with
  | zero => exact absurd rfl h0
  | succ n => exact rfl

theorem mxAt_zero (c : Dev nD) (t : Fin cfg0.N) (h0 : t.val = 0) :
    mxAt V c t.val t.isLt = out0_A_9 (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact absurd h0 (Nat.succ_ne_zero n)

theorem mxAt_succ (c : Dev nD) (t : Fin cfg0.N) (h0 : t.val ≠ 0) :
    mxAt V c t.val t.isLt = out0_B_9 (iblk0 V c 0 t) (iblk0 V c 1 t) (iblk0 V c 2 t) (iblk0 V c 3 t) (iblk0 V c 4 t) (iblk0 V c 5 t) (iblk0 V c 6 t) (mxAt V c (t.val - 1) (Nat.lt_of_le_of_lt (Nat.sub_le _ _) t.isLt)) := by
  obtain ⟨n, hn⟩ := t
  cases n with
  | zero => exact absurd rfl h0
  | succ n => exact rfl

/-- The region's proof data on core `c`: the arrays as the region finds them; after the body each input's buffer at its
    block, the encoded block at `out0_7` of the seven input blocks, the two rows at the running minimum and maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => mnAt V c t.val t.isLt
    | ⟨9, _⟩ => mxAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = mnAt V c t.val t.isLt := by dsimp only [dat0]
theorem after0_9 (c : Dev nD) (t : Fin cfg0.N) : (dat0 V c).after 9 t = mxAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- At a later point the minimum row's buffer holds what the body left at the point before: the row is written back at
    the last point only, and its window is live and uncut. -/
theorem before0_8_B (c : Dev nD) (t : Fin cfg0.N) (h0 : t.val ≠ 0) (d) :
    (dat0 V c).before 8 t d = mnAt V c (t.val - 1) (Nat.lt_of_le_of_lt (Nat.sub_le _ _) t.isLt) := by
  have hN : t.val < 32 := lt_of_lt_of_eq t.isLt (show cfg0.N = 32 from N_0)
  rw [Dat.before_out_kept _ 8 rfl t h0 (Bool.eq_false_iff.mpr fun h => by have := (flush0_8 _).mp h; dsimp only at this; omega)
    idle0_8 (fun _ _ => rfl)]
  dsimp only [dat0]
/-- The maximum row's likewise. -/
theorem before0_9_B (c : Dev nD) (t : Fin cfg0.N) (h0 : t.val ≠ 0) (d) :
    (dat0 V c).before 9 t d = mxAt V c (t.val - 1) (Nat.lt_of_le_of_lt (Nat.sub_le _ _) t.isLt) := by
  have hN : t.val < 32 := lt_of_lt_of_eq t.isLt (show cfg0.N = 32 from N_0)
  rw [Dat.before_out_kept _ 9 rfl t h0 (Bool.eq_false_iff.mpr fun h => by have := (flush0_9 _).mp h; dsimp only at this; omega)
    idle0_9 (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1600000 in
/-- The body at any point: the inputs' buffers hold their blocks; at the first point the three outputs' buffers hold
    anything and the first case applies; at a later point the two rows' buffers hold what the point before left, and the
    second case applies. The invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val = 0
  · rw [mnAt_zero V c t h0, mxAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ _ ((hcond1 t).mpr h0) (fun h => (hcond2 t).mp h h0) _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [mnAt_succ V c t h0, mxAt_succ V c t h0]
    simp only [before0_8_B V c t h0, before0_9_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ _ (fun h => h0 ((hcond1 t).mp h)) ((hcond2 t).mpr h0) _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point: the two rows' windows are nowhere idle. -/
theorem body_obligation0 (c : Dev nD) : BodyObligation (dat0 (F := F) V c) (defs₀ (F := F)) Variants.none () Set.univ := fun t => by
  rw [bigSep_W0, bigSep_W0]
  rw [show cfg0.idle 8 (cfg0.grid.coords t) = false from idle0_8 _]
  try rw [show cfg0.idle 9 (cfg0.grid.coords t) = false from idle0_9 _]
  exact sound_body0 V c t

end Cert.KernelIdeal.Hand

end
-- ==== Proof.KI.Region1.lean ====
/-
  The second kernel region (the table look-up) of the program, at any float instance and at any contents `V` of the
  core's buffers when the region is entered. The body reads four blocks — 8192 rows of the encoded pairs, the two
  1x2 rows holding the per-coordinate minimum and maximum, the 25x25 table — and stores one 8192x1 block: a single
  function of the four blocks (`k1_pay1`). No block is carried from one grid point to the next.
-/
import proofs.«120400_j53171695125388_1_alg».proof.Proof.Gen.KernelIdeal.Launch
import proofs.«120400_j53171695125388_1_alg».proof.Proof.Gen.KernelIdeal.Skeleton
import proofs.«120400_j53171695125388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or an
    earlier one did and the body left it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_e : Rect S8192x2 := Rect.unit (s := S8192x2) ![0, 0] S8192x2.size inb_S8192x2_S8192x2_0_0
abbrev r1_row : Rect S1x2 := Rect.unit (s := S1x2) ![0, 0] S1x2.size inb_S1x2_S1x2_0_0
abbrev r1_tab : Rect S25x25 := Rect.unit (s := S25x25) ![0, 0] S25x25.size inb_S25x25_S25x25_0_0
abbrev r1_out : Rect S8192x1 := Rect.unit (s := S8192x1) ![0, 0] S8192x1.size inb_S8192x1_S8192x1_0_0

/-- The output block after the body: its one store, which covers the block. -/
def out1_4 (x0 : Vec F S8192x2 .f32) (x1 : Vec F S1x2 .f32) (x2 : Vec F S1x2 .f32) (x3 : Vec F S25x25 .f32) : Vec F S8192x1 .f32 :=
  View.canon [⟨r1_out, k1_pay1 (View.ld x0 r1_e) (View.ld x1 r1_row) (View.ld x2 r1_row) (View.ld x3 r1_tab)⟩]

theorem cover1_4 (p0 : Vec F S8192x1 .f32) (y : S8192x1.Idx) :
    ∃ pc ∈ ([⟨r1_out, p0⟩] : List (View.Piece (Elt F) S8192x1 .f32)), y ∈ pc.1.set :=
  View.cover_of_tiled [⟨r1_out, p0⟩] S8192x1.size (by rfl) y

set_option maxHeartbeats 1000000 in
/-- The body on whole staging memrefs: the four inputs at contents `x0 … x3` stay as they are, the output's buffer,
    whatever it held, ends at `out1_4` of them. -/
theorem sound_kernel1 (c : Dev nD) (E : Set ℕ) (i : grid1.Coords)
    (arg1 : Memref sig .tc .vmem S8192x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S25x25 .f32) (harg4 : arg4.IsWhole)
    (arg5 : Memref sig .tc .vmem S8192x1 .f32) (harg5 : arg5.IsWhole)
    (x0 : Vec F S8192x2 .f32) (x1 : Vec F S1x2 .f32) (x2 : Vec F S1x2 .f32) (x3 : Vec F S25x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body each input's buffer
    at its block and the output's at `out1_4` of the four input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as three items in order — the host operations that lay out the weights (three transposes, four
  reshapes), the encoder region, the look-up region — and its run: from any memory, every weakly fair execution ends,
  nothing faults, the result buffer holds what the look-up region's write-backs leave and the eight argument
  buffers hold what they held at launch.

  The buffer contents at each boundary are a fold from the launch memory: `W1` after the host operations, `W2` with
  the encoder region's three result arrays at what its write-backs leave, `W3` likewise for the look-up region.
-/
import proofs.«120400_j53171695125388_1_alg».proof.Proof.KI.Region0
import proofs.«120400_j53171695125388_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations: what the encoder region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the encoder region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the look-up region's exit (it is entered from `W2`: no host operation stands between the two regions). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The result buffer at the end is what the look-up region's write-backs leave. -/
theorem W3_main_v8 (c : Dev nD) : W3 m ρ c (Proc.devRef .tc main_v8) = (dat1 (V2 m ρ) c).arrAt 4 cfg1.N := W3_arr m ρ c 4

/-! No host operation and no region writes an argument: the fold at an argument's buffer walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: its arrays split out of the unscoped buffers at entry and put back, at what the
    write-backs leave, at exit; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back, at what the
    write-backs leave, at exit; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. Every weakly fair execution from memory `m` with zero counters terminates without a fault; at the end every
    unscoped buffer of every core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run, read at the result and at the arguments: the result buffer at what the look-up region's write-backs leave,
    the eight arguments as launched. -/
theorem run_main : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (W3_main_v8 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- The frame: every execution ends without a fault and the eight arguments hold what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_main m ρ)

end Cert.KernelIdeal.Hand

end
-- ==== Proof.Spec.lean ====
/-
  What the two programs compute, index by index, over the extended reals.

  A row `xr` of the input goes through three affine layers, each followed by tanh: 32 → 20 → 5 → 2 (`enc`). Each of the
  two encoded coordinates is then moved affinely so that its least value over the whole batch goes to 0.01 and its
  greatest to 0.99, divided by the cell width 0.04 and floored: a cell number, 0 to 24 when the coordinate is not
  constant over the batch (`cell`, `cellIx`). The result for the row is the entry of the 625-long table at
  25 · (first cell) + (second cell) (`Y`).
-/
import Idealize.ShloMosaic.PureOps.Ideal
import Idealize.ShloMosaic.Lib.ValueIdx

noncomputable section

open scoped BigOperators

namespace Cert.Spec

open Idealize.ShloMosaic Idealize.ShloMosaic.ValueIdx

/-- The number of rows of the batch. -/
abbrev R : ℕ := 2097152

abbrev SRx32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev SRx2 : Shape := ⟨2, ![2097152, 2]⟩
abbrev S1x2 : Shape := ⟨2, ![1, 2]⟩
abbrev SRx1 : Shape := ⟨2, ![2097152, 1]⟩

/-- One row through the three layers: coordinate `d` of tanh(W3 · tanh(W2 · tanh(W1 · xr + b1) + b2) + b3). -/
def enc (W1 : Fin 20 → Fin 32 → EReal) (b1 : Fin 20 → EReal) (W2 : Fin 5 → Fin 20 → EReal) (b2 : Fin 5 → EReal)
    (W3 : Fin 2 → Fin 5 → EReal) (b3 : Fin 2 → EReal) (xr : Fin 32 → EReal) (d : Fin 2) : EReal :=
  Ideal.tanh ((∑ k : Fin 5,
      Ideal.tanh ((∑ j : Fin 20, Ideal.tanh ((∑ i : Fin 32, xr i * W1 j i) + b1 j) * W2 k j) + b2 k) * W3 d k) + b3 d)

/-- The three literals of the normalisation, as the 32-bit patterns both programs carry: 0.98, 0.01 and 0.04 rounded to f32. -/
def c98 : EReal := Ideal.ofBits .f32 0x3F7AE148#32
def c01 : EReal := Ideal.ofBits .f32 0x3C23D70A#32
def c04 : EReal := Ideal.ofBits .f32 0x3D23D70A#32

/-- The cell number of a coordinate `e` whose batch minimum is `mn` and maximum `mx`, as the signed 32-bit word both programs compute:
    floor (((e - mn) / (mx - mn) · 0.98 + 0.01) / 0.04), converted. -/
def cell (e mn mx : EReal) : BitVec 32 :=
  Ideal.fptosi 32 (Ideal.liftRound Int.floor (Ideal.div (Ideal.div (e - mn) (mx - mn) * c98 + c01) c04))

/-- The same cell number as an index 0 … 24 (its value mod 25; `cell_eq` says the word IS this index when the coordinate is not constant). -/
def cellIx (e mn mx : EReal) : Fin 25 := ⟨(cell e mn mx).toNat % 25, Nat.mod_lt _ (by decide)⟩

section
variable (x : SRx32.Idx → EReal) (W1 : S20x32.Idx → EReal) (b1 : S20.Idx → EReal) (W2 : S5x20.Idx → EReal) (b2 : S5.Idx → EReal)
  (W3 : S2x5.Idx → EReal) (b3 : S2.Idx → EReal) (bm : S625.Idx → EReal)

/-- The encoded pair of row `n`. -/
def E (n : Fin R) (d : Fin 2) : EReal :=
  enc (fun j i => W1 (ix2 j i)) (fun j => b1 (ix1 j)) (fun k j => W2 (ix2 k j)) (fun k => b2 (ix1 k))
    (fun d k => W3 (ix2 d k)) (fun d => b3 (ix1 d)) (fun i => x (ix2 n i)) d

/-- The least and the greatest value of coordinate `d` over the batch. -/
def mn (d : Fin 2) : EReal := Finset.univ.inf fun n : Fin R => E x W1 b1 W2 b2 W3 b3 n d
def mx (d : Fin 2) : EReal := Finset.univ.sup fun n : Fin R => E x W1 b1 W2 b2 W3 b3 n d

/-- The encoded pairs as an array [R, 2], and the two extrema as rows [1, 2]. -/
def Earr : SRx2.Idx → EReal := fun j => E x W1 b1 W2 b2 W3 b3 (j 0) (j 1)
def mnArr : S1x2.Idx → EReal := fun j => mn x W1 b1 W2 b2 W3 b3 (j 1)
def mxArr : S1x2.Idx → EReal := fun j => mx x W1 b1 W2 b2 W3 b3 (j 1)

/-- Row `n`'s two cell numbers. -/
def cix (n : Fin R) (d : Fin 2) : Fin 25 :=
  cellIx (E x W1 b1 W2 b2 W3 b3 n d) (mn x W1 b1 W2 b2 W3 b3 d) (mx x W1 b1 W2 b2 W3 b3 d)

/-- The result for row `n`: the table's entry at 25 · (first cell) + (second cell). -/
def Y (n : Fin R) : EReal :=
  bm (ix1 ⟨(cix x W1 b1 W2 b2 W3 b3 n 0).val * 25 + (cix x W1 b1 W2 b2 W3 b3 n 1).val,
    by have h0 := (cix x W1 b1 W2 b2 W3 b3 n 0).isLt; have h1 := (cix x W1 b1 W2 b2 W3 b3 n 1).isLt; omega⟩)

/-- The result as an array [R, 1]. -/
def Yarr : SRx1.Idx → EReal := fun j => Y x W1 b1 W2 b2 W3 b3 bm (j 0)

/-- What the precondition says of the inputs: every entry is a real number, and neither encoded coordinate is constant over the batch. -/
structure Good : Prop where
  fx : ∀ i, ∃ r : ℝ, x i = (r : EReal)
  fW1 : ∀ i, ∃ r : ℝ, W1 i = (r : EReal)
  fb1 : ∀ i, ∃ r : ℝ, b1 i = (r : EReal)
  fW2 : ∀ i, ∃ r : ℝ, W2 i = (r : EReal)
  fb2 : ∀ i, ∃ r : ℝ, b2 i = (r : EReal)
  fW3 : ∀ i, ∃ r : ℝ, W3 i = (r : EReal)
  fb3 : ∀ i, ∃ r : ℝ, b3 i = (r : EReal)
  fbm : ∀ i, ∃ r : ℝ, bm i = (r : EReal)
  sep : ∀ d : Fin 2, mn x W1 b1 W2 b2 W3 b3 d < mx x W1 b1 W2 b2 W3 b3 d

end

end Cert.Spec

end
-- ==== Proof.SpecMath.lean ====
/-
  The arithmetic facts about the specification: the three literals as exact rationals, the cell number of a
  coordinate lying between a batch minimum and a strictly larger batch maximum is one of 0 … 24, the encoded
  coordinates and their extrema are real numbers, and the one-hot selection and flat index of the table lookup.
-/
import proofs.«120400_j53171695125388_1_alg».proof.Proof.Spec
import Mathlib.Data.EReal.Inv
import Mathlib.Algebra.Order.Floor.Ring
import Mathlib.Data.Finset.Lattice.Fold
import Mathlib.Tactic.Linarith
import Mathlib.Tactic.NormNum
import Mathlib.Tactic.Ring

noncomputable section

open scoped BigOperators

namespace Cert.Spec

open Idealize.ShloMosaic Idealize.ShloMosaic.ValueIdx

/-! ### The three literals -/

/-- 0x3F7AE148 is 0xFAE148 · 2^-24. -/
theorem c98_val : c98 = ((16441672 / 16777216 : ℝ) : EReal) := by
  unfold c98
  simp [Ideal.ofBits, Ideal.ieee, -EReal.coe_mul]; norm_num

/-- 0x3C23D70A is 0xA3D70A · 2^-30. -/
theorem c01_val : c01 = ((10737418 / 1073741824 : ℝ) : EReal) := by
  unfold c01
  simp [Ideal.ofBits, Ideal.ieee, -EReal.coe_mul]; norm_num

/-- 0x3D23D70A is 0xA3D70A · 2^-28. -/
theorem c04_val : c04 = ((10737418 / 268435456 : ℝ) : EReal) := by
  unfold c04
  simp [Ideal.ofBits, Ideal.ieee, -EReal.coe_mul]; norm_num

/-! ### The cell number of a real coordinate -/

/-- The real number whose floor is the cell number: ((e - mn) / (mx - mn) · 0.98 + 0.01) / 0.04 at the f32 literals. -/
def qreal (e mn mx : ℝ) : ℝ :=
  ((e - mn) * (1 / (mx - mn)) * (16441672 / 16777216) + 10737418 / 1073741824) * (1 / (10737418 / 268435456))

/-- On reals with mn < mx the quotient inside `cell` is the real `qreal`. -/
theorem cell_arg_real (e mn mx : ℝ) (h3 : mn < mx) :
    Ideal.div (Ideal.div ((e : EReal) - (mn : EReal)) ((mx : EReal) - (mn : EReal)) * c98 + c01) c04
      = ((qreal e mn mx : ℝ) : EReal) := by
  have hd : (mx - mn : ℝ) ≠ 0 := sub_ne_zero.mpr (ne_of_gt h3)
  have hc : ((10737418 / 268435456 : ℝ)) ≠ 0 := by norm_num
  rw [c98_val, c01_val, c04_val, ← EReal.coe_sub, ← EReal.coe_sub, Ideal.div_coe hd, Ideal.div_coe hc,
    ← EReal.coe_mul, ← EReal.coe_mul, ← EReal.coe_add, ← EReal.coe_mul]
  rfl

/-- The quotient is affine in t = (e - mn) / (mx - mn): slope 0.98 / 0.04, offset 0.01 / 0.04 = 1 / 4. -/
theorem qreal_affine (e mn mx : ℝ) :
    qreal e mn mx = (e - mn) * (1 / (mx - mn)) * (263066752 / 10737418) + 1 / 4 := by
  unfold qreal; ring

/-- For mn ≤ e ≤ mx, mn < mx, the quotient lies in [0, 25). -/
theorem qreal_bounds (e mn mx : ℝ) (h1 : mn ≤ e) (h2 : e ≤ mx) (h3 : mn < mx) :
    0 ≤ qreal e mn mx ∧ qreal e mn mx < 25 := by
  have hd : 0 < mx - mn := sub_pos.mpr h3
  have ht0 : 0 ≤ (e - mn) * (1 / (mx - mn)) :=
    mul_nonneg (sub_nonneg.mpr h1) (one_div_nonneg.mpr hd.le)
  have ht1 : (e - mn) * (1 / (mx - mn)) ≤ 1 := by
    rw [mul_one_div, div_le_one hd]; linarith
  rw [qreal_affine]
  constructor <;> nlinarith

/-- A 32-bit word below 25 is the word of its own value mod 25. -/
theorem word_eq_of_lt (w : BitVec 32) (h : w.toNat < 25) : w = BitVec.ofNat 32 (w.toNat % 25) := by
  rw [Nat.mod_eq_of_lt h]; simp

/-- The signed conversion of an integer 0 ≤ k < 25, given as a real, is the word of k. -/
theorem fptosi_small (k : ℤ) (h0 : 0 ≤ k) (h25 : k < 25) :
    Ideal.fptosi 32 (((k : ℝ)) : EReal) = BitVec.ofInt 32 k := by
  have hk : (0 : ℝ) ≤ (k : ℝ) := by exact_mod_cast h0
  rw [Ideal.fptosi, Ideal.toIntClamped_coe, if_pos hk, Int.floor_intCast]
  congr 1
  norm_num
  omega

theorem cell_real_val (e mn mx : ℝ) (h1 : mn ≤ e) (h2 : e ≤ mx) (h3 : mn < mx) :
    cell (e : EReal) (mn : EReal) (mx : EReal) = BitVec.ofInt 32 ⌊qreal e mn mx⌋ := by
  have hb := qreal_bounds e mn mx h1 h2 h3
  unfold cell
  rw [cell_arg_real e mn mx h3, Ideal.liftRound_coe]
  exact fptosi_small _ (Int.floor_nonneg.mpr hb.1) (Int.floor_lt.mpr (by exact_mod_cast hb.2))

theorem cell_real_lt (e mn mx : ℝ) (h1 : mn ≤ e) (h2 : e ≤ mx) (h3 : mn < mx) :
    (cell (e : EReal) (mn : EReal) (mx : EReal)).toNat < 25 := by
  have hb := qreal_bounds e mn mx h1 h2 h3
  have h0 : 0 ≤ ⌊qreal e mn mx⌋ := Int.floor_nonneg.mpr hb.1
  have h25 : ⌊qreal e mn mx⌋ < 25 := Int.floor_lt.mpr (by exact_mod_cast hb.2)
  rw [cell_real_val e mn mx h1 h2 h3, BitVec.toNat_ofInt]
  omega

/-- The cell word of a coordinate between a minimum and a strictly larger maximum is its own index 0 … 24. -/
theorem cell_eq_of_real (e mn mx : ℝ) (h1 : mn ≤ e) (h2 : e ≤ mx) (h3 : mn < mx) :
    cell (e : EReal) (mn : EReal) (mx : EReal)
      = BitVec.ofNat 32 (cellIx (e : EReal) (mn : EReal) (mx : EReal)).val :=
  word_eq_of_lt _ (cell_real_lt e mn mx h1 h2 h3)

/-! ### The encoded coordinates and their extrema are real -/

/-- tanh of any extended real is a real number. -/
theorem tanh_real (a : EReal) : ∃ r : ℝ, Ideal.tanh a = (r : EReal) := by
  induction a using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

section
variable (x : SRx32.Idx → EReal) (W1 : S20x32.Idx → EReal) (b1 : S20.Idx → EReal) (W2 : S5x20.Idx → EReal) (b2 : S5.Idx → EReal)
  (W3 : S2x5.Idx → EReal) (b3 : S2.Idx → EReal) (bm : S625.Idx → EReal)

theorem E_real' (n : Fin R) (d : Fin 2) : ∃ r : ℝ, E x W1 b1 W2 b2 W3 b3 n d = (r : EReal) := by
  unfold E enc; exact tanh_real _

theorem E_real (h : Good x W1 b1 W2 b2 W3 b3 bm) (n : Fin R) (d : Fin 2) :
    ∃ r : ℝ, E x W1 b1 W2 b2 W3 b3 n d = (r : EReal) :=
  E_real' x W1 b1 W2 b2 W3 b3 n d

theorem mn_le_E (n : Fin R) (d : Fin 2) : mn x W1 b1 W2 b2 W3 b3 d ≤ E x W1 b1 W2 b2 W3 b3 n d :=
  Finset.inf_le (f := fun n : Fin R => E x W1 b1 W2 b2 W3 b3 n d) (Finset.mem_univ n)

theorem E_le_mx (n : Fin R) (d : Fin 2) : E x W1 b1 W2 b2 W3 b3 n d ≤ mx x W1 b1 W2 b2 W3 b3 d :=
  Finset.le_sup (f := fun n : Fin R => E x W1 b1 W2 b2 W3 b3 n d) (Finset.mem_univ n)

theorem univ_R_nonempty : (Finset.univ : Finset (Fin R)).Nonempty := ⟨⟨0, by norm_num⟩, Finset.mem_univ _⟩

/-- The minimum over the batch is attained, so it is a real. -/
theorem mn_real (h : Good x W1 b1 W2 b2 W3 b3 bm) (d : Fin 2) : ∃ r : ℝ, mn x W1 b1 W2 b2 W3 b3 d = (r : EReal) := by
  obtain ⟨i, _, hi⟩ := Finset.exists_mem_eq_inf Finset.univ univ_R_nonempty (fun n : Fin R => E x W1 b1 W2 b2 W3 b3 n d)
  obtain ⟨r, hr⟩ := E_real' x W1 b1 W2 b2 W3 b3 i d
  exact ⟨r, by unfold mn; rw [hi]; exact hr⟩

/-- The maximum over the batch is attained, so it is a real. -/
theorem mx_real (h : Good x W1 b1 W2 b2 W3 b3 bm) (d : Fin 2) : ∃ r : ℝ, mx x W1 b1 W2 b2 W3 b3 d = (r : EReal) := by
  obtain ⟨i, _, hi⟩ := Finset.exists_mem_eq_sup Finset.univ univ_R_nonempty (fun n : Fin R => E x W1 b1 W2 b2 W3 b3 n d)
  obtain ⟨r, hr⟩ := E_real' x W1 b1 W2 b2 W3 b3 i d
  exact ⟨r, by unfold mx; rw [hi]; exact hr⟩

/-- Under the precondition each row's cell word is its index 0 … 24. -/
theorem cell_eq (h : Good x W1 b1 W2 b2 W3 b3 bm) (n : Fin R) (d : Fin 2) :
    cell (E x W1 b1 W2 b2 W3 b3 n d) (mn x W1 b1 W2 b2 W3 b3 d) (mx x W1 b1 W2 b2 W3 b3 d)
      = BitVec.ofNat 32 (cix x W1 b1 W2 b2 W3 b3 n d).val := by
  obtain ⟨e, he⟩ := E_real' x W1 b1 W2 b2 W3 b3 n d
  obtain ⟨a, ha⟩ := mn_real x W1 b1 W2 b2 W3 b3 bm h d
  obtain ⟨b, hb⟩ := mx_real x W1 b1 W2 b2 W3 b3 bm h d
  have h1 : a ≤ e := by
    have := mn_le_E x W1 b1 W2 b2 W3 b3 n d; rw [he, ha] at this; exact EReal.coe_le_coe_iff.mp this
  have h2 : e ≤ b := by
    have := E_le_mx x W1 b1 W2 b2 W3 b3 n d; rw [he, hb] at this; exact EReal.coe_le_coe_iff.mp this
  have h3 : a < b := by
    have := h.sep d; rw [ha, hb] at this; exact EReal.coe_lt_coe_iff.mp this
  unfold cix
  rw [he, ha, hb]
  exact cell_eq_of_real e a b h1 h2 h3

end

/-! ### The one-hot selection and the flat index -/

/-- Words of indices below 25 are equal only when the indices are. -/
theorem ofNat_inj25 (a b : Fin 25) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · rintro rfl; rfl

/-- Multiplying a table by the one-hot row of k0 and the one-hot column of k1 and summing picks the entry (k0, k1). -/
theorem pick_eq (tab : Fin 25 → Fin 25 → EReal) (k0 k1 : Fin 25) :
    (∑ j : Fin 25, (∑ k : Fin 25, (if BitVec.ofNat 32 k.val = BitVec.ofNat 32 k0.val then (1 : EReal) else 0) * tab k j)
      * (if BitVec.ofNat 32 j.val = BitVec.ofNat 32 k1.val then (1 : EReal) else 0)) = tab k0 k1 := by
  simp only [ofNat_inj25, ite_mul, mul_ite, one_mul, mul_one, zero_mul, mul_zero, Finset.sum_ite_eq', Finset.mem_univ,
    if_true]

/-- The flat index 25 · k0 + k1 as 32-bit arithmetic. -/
theorem flat_eq (k0 k1 : Fin 25) :
    BitVec.ofNat 32 k0.val * 25#32 + BitVec.ofNat 32 k1.val = BitVec.ofNat 32 (k0.val * 25 + k1.val) := by
  rw [BitVec.ofNat_add, BitVec.ofNat_mul]

/-- The flat index is below 625. -/
theorem flat_lt (k0 k1 : Fin 25) : k0.val * 25 + k1.val < 625 := by
  have h0 := k0.isLt; have h1 := k1.isLt; omega

/-- The flat index word read as a signed number is the index itself (so it is not negative). -/
theorem flat_nonneg (k0 k1 : Fin 25) :
    (BitVec.ofNat 32 (k0.val * 25 + k1.val)).toInt = (k0.val * 25 + k1.val : ℤ) := by
  have h0 := k0.isLt; have h1 := k1.isLt
  rw [BitVec.toInt_eq_toNat_cond, BitVec.toNat_ofNat]
  split <;> omega

end Cert.Spec

end
-- ==== Proof.KI.Pay0.lean ====
/-
  The first kernel's stored values read at an index, over variables of the literal vector types.

  A row block of the input goes through three affine layers, each a matrix product into a zero accumulator plus a
  broadcast row, followed by tanh; the two row extrema are a minimum and a maximum over the block's rows. Each stored
  value is read here at one index as the extended-real expression it denotes. The host's transposes and reshapes of the
  weights are read at an index the same way.
-/
import proofs.«120400_j53171695125388_1_alg».proof.Proof.Gen.KernelIdeal.Skeleton
import proofs.«120400_j53171695125388_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

namespace Pay0

/-! ## A matrix product into the zero accumulator, read at an index -/

/-- An [m, k] by [k, n] product (contracting the left operand's axis 1 with the right operand's axis 0) into the zero
    splat, read at (a, b): the sum over the contracted coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- One layer: the product into the zero accumulator, plus the one row broadcast over the rows, through tanh, read at
    (r, c). The two casts of a shape to itself drop out. -/
theorem layer_apply {m k n : ℕ}
    (w : DotDims.WF ⟨2, ![m, k]⟩ ⟨2, ![k, n]⟩ ⟨2, ![m, n]⟩ [1] [0] [0] [1] [] [])
    (A : FVec Ideal ⟨2, ![m, k]⟩ .f32) (W : FVec Ideal ⟨2, ![k, n]⟩ .f32) (bias : FVec Ideal ⟨2, ![1, n]⟩ .f32)
    (hW : (⟨2, ![k, n]⟩ : Shape).ShapeCasts ⟨2, ![k, n]⟩) (hb : (⟨2, ![1, n]⟩ : Shape).ShapeCasts ⟨2, ![1, n]⟩)
    (hbr : (⟨2, ![1, n]⟩ : Shape).Broadcasts ⟨2, ![m, n]⟩) (r : Fin m) (c : Fin n) :
    tanh (addf
        (matmul (⟨[1], [0], [0], [1], [], [], w⟩ : DotDims ⟨2, ![m, k]⟩ ⟨2, ![k, n]⟩ ⟨2, ![m, n]⟩) none A
          (shapeCast ⟨2, ![k, n]⟩ W hW : FVec Ideal ⟨2, ![k, n]⟩ .f32) (constant (F := Ideal) ⟨2, ![m, n]⟩ .f32 0x00000000#32))
        (broadcastTo ⟨2, ![m, n]⟩ (shapeCast ⟨2, ![1, n]⟩ bias hb) hbr)) (ix2 r c)
      = Ideal.tanh ((∑ i : Fin k, A (ix2 r i) * W (ix2 i c)) + bias (ix2 0 c)) := by
  show Ideal.tanh (matmul (⟨[1], [0], [0], [1], [], [], w⟩ : DotDims ⟨2, ![m, k]⟩ ⟨2, ![k, n]⟩ ⟨2, ![m, n]⟩) none A
          (shapeCast ⟨2, ![k, n]⟩ W hW : FVec Ideal ⟨2, ![k, n]⟩ .f32) (constant (F := Ideal) ⟨2, ![m, n]⟩ .f32 0x00000000#32) (ix2 r c)
        + broadcastTo ⟨2, ![m, n]⟩ (shapeCast ⟨2, ![1, n]⟩ bias hb) hbr (ix2 r c)) = _
  rw [matmul_zero_apply, broadcastTo_1b_ab_apply, shapeCast_self, shapeCast_self]

end Pay0

open Pay0

/-! ## The encoded block, read at an index -/

/-- The stored block of encoded pairs at (r, d): row r of the input through the three layers, coordinate d. -/
theorem pay3_apply (x0 : Vec Ideal S65536x32 .f32) (x1 : Vec Ideal S32x20 .f32) (x2 : Vec Ideal S1x20 .f32)
    (x3 : Vec Ideal S20x5 .f32) (x4 : Vec Ideal S1x5 .f32) (x5 : Vec Ideal S5x2 .f32) (x6 : Vec Ideal S1x2 .f32)
    (r : Fin 65536) (d : Fin 2) :
    k0_pay3 (F := Ideal) x0 x1 x2 x3 x4 x5 x6 (ix2 r d)
      = Cert.Spec.enc (fun j i => x1 (ix2 i j)) (fun j => x2 (ix2 0 j)) (fun k j => x3 (ix2 j k)) (fun k => x4 (ix2 0 k))
          (fun d k => x5 (ix2 k d)) (fun d => x6 (ix2 0 d)) (fun i => x0 (ix2 r i)) d := by
  unfold k0_pay3 Cert.Spec.enc
  refine (layer_apply _ _ _ _ _ _ _ r d).trans ?_
  refine congrArg Ideal.tanh (congrArg (· + x6 (ix2 0 d)) (Finset.sum_congr rfl fun k _ => congrArg (· * x5 (ix2 k d)) ?_))
  refine (layer_apply _ _ _ _ _ _ _ r k).trans ?_
  refine congrArg Ideal.tanh (congrArg (· + x4 (ix2 0 k)) (Finset.sum_congr rfl fun j _ => congrArg (· * x3 (ix2 j k)) ?_))
  exact layer_apply _ _ _ _ _ _ _ r j

/-! ## The two row extrema -/

namespace Pay0

/-- A fold of min from the top element is the infimum. -/
theorem fold_min_top_eq_inf {ι : Type} (s : Finset ι) (f : ι → EReal) : s.fold min ⊤ f = s.inf f := rfl

/-- A fold of max from the bottom element is the supremum. -/
theorem fold_max_bot_eq_sup {ι : Type} (s : Finset ι) (f : ι → EReal) : s.fold max ⊥ f = s.sup f := rfl

/-- The f32 pattern of +∞ is the top element, that of -∞ the bottom element. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- A minimum reduction over one axis, read at the ideal values: the fold of min from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index a reduction over the rows of an [a, b] array inserts: row k at column d. -/
theorem lift_rows {a b : ℕ} (h : (⟨2, ![a, b]⟩ : Shape).Reduces [0] ⟨1, ![b]⟩) (d : Fin b) (k : Fin a) :
    h.lift (ix1 d) k = ix2 k d := by
  funext ax; apply Fin.ext
  match ax with
  | ⟨0, _⟩ => rfl
  | ⟨1, _⟩ => rfl

end Pay0

/-- The row minimum as stored, at column d: the infimum over the rows of the encoded block. -/
theorem pay4_apply (x0 : Vec Ideal S65536x32 .f32) (x1 : Vec Ideal S32x20 .f32) (x2 : Vec Ideal S1x20 .f32)
    (x3 : Vec Ideal S20x5 .f32) (x4 : Vec Ideal S1x5 .f32) (x5 : Vec Ideal S5x2 .f32) (x6 : Vec Ideal S1x2 .f32) (d : Fin 2) :
    k0_pay4 (F := Ideal) x0 x1 x2 x3 x4 x5 x6 (ix2 0 d)
      = Finset.univ.inf fun r : Fin 65536 => k0_pay3 (F := Ideal) x0 x1 x2 x3 x4 x5 x6 (ix2 r d) := by
  unfold k0_pay4
  generalize k0_pay3 (F := Ideal) x0 x1 x2 x3 x4 x5 x6 = P
  refine (shapeCast_a_1a_apply _ _ 0 d).trans ?_
  refine (multiReduction_minimumf_single P _ _ _ _ (ix1 d)).trans ?_
  rw [Ideal.ofBits_def, ofBits_posInf]
  refine (fold_min_top_eq_inf _ _).trans ?_
  refine congrArg (Finset.univ.inf) (funext fun k => ?_)
  exact congrArg P (lift_rows _ d k)

/-- The row maximum as stored, at column d: the supremum over the rows of the encoded block. -/
theorem pay5_apply (x0 : Vec Ideal S65536x32 .f32) (x1 : Vec Ideal S32x20 .f32) (x2 : Vec Ideal S1x20 .f32)
    (x3 : Vec Ideal S20x5 .f32) (x4 : Vec Ideal S1x5 .f32) (x5 : Vec Ideal S5x2 .f32) (x6 : Vec Ideal S1x2 .f32) (d : Fin 2) :
    k0_pay5 (F := Ideal) x0 x1 x2 x3 x4 x5 x6 (ix2 0 d)
      = Finset.univ.sup fun r : Fin 65536 => k0_pay3 (F := Ideal) x0 x1 x2 x3 x4 x5 x6 (ix2 r d) := by
  unfold k0_pay5
  generalize k0_pay3 (F := Ideal) x0 x1 x2 x3 x4 x5 x6 = P
  refine (shapeCast_a_1a_apply _ _ 0 d).trans ?_
  refine (Ideal.multiReduction_maximumf_single P _ _ _ _ (ix1 d)).trans ?_
  rw [Ideal.ofBits_def, ofBits_negInf]
  refine (fold_max_bot_eq_sup _ _).trans ?_
  refine congrArg (Finset.univ.sup) (funext fun k => ?_)
  exact congrArg P (lift_rows _ d k)

/-! ## The running extrema across grid points -/

/-- The minimum kept so far against this block's: the lesser of the two, entry by entry. -/
theorem pay1_apply (v27 : FVec Ideal S1x2 .f32) (v36 : Vec Ideal S1x2 .f32) (j : S1x2.Idx) :
    k0_pay1 (F := Ideal) v27 v36 j = min (v36 j) (v27 j) := by
  unfold k0_pay1
  show min (shapeCast S1x2 v36 _ j) (v27 j) = _
  rw [shapeCast_self]

/-- The maximum kept so far against this block's: the greater of the two, entry by entry. -/
theorem pay2_apply (v29 : FVec Ideal S1x2 .f32) (v40 : Vec Ideal S1x2 .f32) (j : S1x2.Idx) :
    k0_pay2 (F := Ideal) v29 v40 j = max (v40 j) (v29 j) := by
  unfold k0_pay2
  show max (shapeCast S1x2 v40 _ j) (v29 j) = _
  rw [shapeCast_self]

/-! ## The host's transposes and reshapes of the weights -/

theorem transpose_W1_apply (W : Vec Ideal S20x32 .f32) (h : S20x32.Transposes [1, 0] S32x20) (i : Fin 32) (j : Fin 20) :
    transpose S32x20 [1, 0] W h (ix2 i j) = W (ix2 j i) :=
  transpose_ix2_apply W h i j

theorem transpose_W2_apply (W : Vec Ideal S5x20 .f32) (h : S5x20.Transposes [1, 0] S20x5) (j : Fin 20) (k : Fin 5) :
    transpose S20x5 [1, 0] W h (ix2 j k) = W (ix2 k j) :=
  transpose_ix2_apply W h j k

theorem transpose_W3_apply (W : Vec Ideal S2x5 .f32) (h : S2x5.Transposes [1, 0] S5x2) (k : Fin 5) (d : Fin 2) :
    transpose S5x2 [1, 0] W h (ix2 k d) = W (ix2 d k) :=
  transpose_ix2_apply W h k d

theorem reshape_b1_apply (b : Vec Ideal S20 .f32) (h : S20.ShapeCasts S1x20) (j : Fin 20) :
    shapeCast S1x20 b h (ix2 0 j) = b (ix1 j) :=
  shapeCast_a_1a_apply b h 0 j

theorem reshape_b2_apply (b : Vec Ideal S5 .f32) (h : S5.ShapeCasts S1x5) (k : Fin 5) :
    shapeCast S1x5 b h (ix2 0 k) = b (ix1 k) :=
  shapeCast_a_1a_apply b h 0 k

theorem reshape_b3_apply (b : Vec Ideal S2 .f32) (h : S2.ShapeCasts S1x2) (d : Fin 2) :
    shapeCast S1x2 b h (ix2 0 d) = b (ix1 d) :=
  shapeCast_a_1a_apply b h 0 d

/-- The 625-long table reshaped to 25 by 25 reads, at (k0, k1), the table at 25 · k0 + k1. -/
theorem reshape_bm_apply (b : Vec Ideal S625 .f32) (h : S625.ShapeCasts S25x25) (k0 k1 : Fin 25) :
    shapeCast S25x25 b h (ix2 k0 k1) = b (ix1 ⟨k0.val * 25 + k1.val, by omega⟩) :=
  shapeCast_apply b h _ _ (by
    rw [Shape.rowMajor_val_two, Shape.rowMajor_val_one]
    rfl)

end Cert.KernelIdeal.Hand

end
-- ==== Proof.KI.Value0.lean ====
/-
  From the encoder region's blocks to its three result arrays, over the extended reals. Block t of the batch is rows
  65536 t … 65536 t + 65535, and the weight windows' blocks are the whole (transposed, reshaped) weight arrays; so the
  block the body stores at point t is the encoded pairs of those rows, and the 32 blocks tile the encoded array. The
  two 1x2 rows are written back once, after the last point, and what they hold then is, by induction on the point, the
  least (greatest) encoded value over the rows seen so far: at the last point, over the whole batch.
-/
import proofs.«120400_j53171695125388_1_alg».proof.Proof.KI.Region0
import proofs.«120400_j53171695125388_1_alg».proof.Proof.Spec
import proofs.«120400_j53171695125388_1_alg».proof.Proof.SpecMath
import proofs.«120400_j53171695125388_1_alg».proof.Proof.KI.Pay0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The order facts: a minimum (maximum) over the rows below a block boundary -/

/-- The least value over the rows below 65536 (n + 1) is the lesser of the least value over the rows below 65536 n and the
    least value over block n. -/
theorem inf_filter_succ (f : Fin 2097152 → EReal) (n : ℕ) (hn : n < 32) :
    (Finset.univ.filter fun r : Fin 2097152 => r.val < 65536 * (n + 1)).inf f
      = min ((Finset.univ.filter fun r : Fin 2097152 => r.val < 65536 * n).inf f)
          (Finset.univ.inf fun r : Fin 65536 => f ⟨65536 * n + r.val, by have := r.isLt; omega⟩) := by
  apply le_antisymm
  · apply le_min
    · apply Finset.inf_mono
      intro r hr
      rw [Finset.mem_filter] at hr ⊢
      exact ⟨hr.1, by omega⟩
    · apply Finset.le_inf
      intro r _
      exact Finset.inf_le (Finset.mem_filter.mpr ⟨Finset.mem_univ _, by show 65536 * n + r.val < 65536 * (n + 1); have := r.isLt; omega⟩)
  · apply Finset.le_inf
    intro r hr
    rw [Finset.mem_filter] at hr
    by_cases h : r.val < 65536 * n
    · exact (min_le_left _ _).trans (Finset.inf_le (Finset.mem_filter.mpr ⟨Finset.mem_univ _, h⟩))
    · refine (min_le_right _ _).trans ?_
      have hr' : r.val - 65536 * n < 65536 := by omega
      refine (Finset.inf_le (Finset.mem_univ (⟨r.val - 65536 * n, hr'⟩ : Fin 65536))).trans_eq ?_
      exact congrArg f (Fin.ext (by show 65536 * n + (r.val - 65536 * n) = r.val; omega))

/-- The greatest value, likewise. -/
theorem sup_filter_succ (f : Fin 2097152 → EReal) (n : ℕ) (hn : n < 32) :
    (Finset.univ.filter fun r : Fin 2097152 => r.val < 65536 * (n + 1)).sup f
      = max ((Finset.univ.filter fun r : Fin 2097152 => r.val < 65536 * n).sup f)
          (Finset.univ.sup fun r : Fin 65536 => f ⟨65536 * n + r.val, by have := r.isLt; omega⟩) := by
  apply le_antisymm
  · apply Finset.sup_le
    intro r hr
    rw [Finset.mem_filter] at hr
    by_cases h : r.val < 65536 * n
    · exact (Finset.le_sup (f := f) (Finset.mem_filter.mpr ⟨Finset.mem_univ _, h⟩)).trans (le_max_left _ _)
    · refine le_trans ?_ (le_max_right _ _)
      have hr' : r.val - 65536 * n < 65536 := by omega
      refine Eq.trans_le ?_ (Finset.le_sup (f := fun r : Fin 65536 => f ⟨65536 * n + r.val, by have := r.isLt; omega⟩) (Finset.mem_univ (⟨r.val - 65536 * n, hr'⟩ : Fin 65536)))
      exact congrArg f (Fin.ext (by show r.val = 65536 * n + (r.val - 65536 * n); omega))
  · apply max_le
    · apply Finset.sup_mono
      intro r hr
      rw [Finset.mem_filter] at hr ⊢
      exact ⟨hr.1, by omega⟩
    · apply Finset.sup_le
      intro r _
      exact Finset.le_sup (f := f) (Finset.mem_filter.mpr ⟨Finset.mem_univ _, by show 65536 * n + r.val < 65536 * (n + 1); have := r.isLt; omega⟩)

/-- No row is below 0: the least value over them is the top, -/
theorem inf_filter_zero (f : Fin 2097152 → EReal) : (Finset.univ.filter fun r : Fin 2097152 => r.val < 65536 * 0).inf f = ⊤ := by
  rw [Finset.filter_false_of_mem (fun r _ => by omega), Finset.inf_empty]
/-- and the greatest the bottom. -/
theorem sup_filter_zero (f : Fin 2097152 → EReal) : (Finset.univ.filter fun r : Fin 2097152 => r.val < 65536 * 0).sup f = ⊥ := by
  rw [Finset.filter_false_of_mem (fun r _ => by omega), Finset.sup_empty]
/-- Every row is below 65536 · 32. -/
theorem filter_all : (Finset.univ.filter fun r : Fin 2097152 => r.val < 65536 * (31 + 1)) = Finset.univ :=
  Finset.filter_true_of_mem (fun r _ => by have := r.isLt; omega)

/-! ## What the body leaves, at an index, over any seven blocks -/

theorem hz : (![0, 0] : Fin 2 → Nat) = fun _ => 0 := funext fun a => match a with | ⟨0, _⟩ => rfl | ⟨1, _⟩ => rfl

/-- The encoded block at row r, coordinate d: the row through the three layers. -/
theorem out0_7_apply (x0 : Vec Ideal S65536x32 .f32) (x1 : Vec Ideal S32x20 .f32) (x2 : Vec Ideal S1x20 .f32) (x3 : Vec Ideal S20x5 .f32) (x4 : Vec Ideal S1x5 .f32) (x5 : Vec Ideal S5x2 .f32) (x6 : Vec Ideal S1x2 .f32) (r : Fin 65536) (d : Fin 2) :
    out0_7 (F := Ideal) x0 x1 x2 x3 x4 x5 x6 (ix2 r d)
      = Cert.Spec.enc (fun j i => x1 (ix2 i j)) (fun j => x2 (ix2 0 j)) (fun k j => x3 (ix2 j k)) (fun k => x4 (ix2 0 k)) (fun d k => x5 (ix2 k d)) (fun d => x6 (ix2 0 d)) (fun i => x0 (ix2 r i)) d := by
  unfold out0_7
  rw [View.canon_unit_zero hz]
  simp only [View.ld_unit_zero (S := S65536x32) hz, View.ld_unit_zero (S := S32x20) hz, View.ld_unit_zero (S := S1x20) hz, View.ld_unit_zero (S := S20x5) hz, View.ld_unit_zero (S := S1x5) hz, View.ld_unit_zero (S := S5x2) hz, View.ld_unit_zero (S := S1x2) hz]
  exact pay3_apply x0 x1 x2 x3 x4 x5 x6 r d

/-- The minimum row at the first point, coordinate d: the least encoded value of the block's rows. -/
theorem out0_A_8_apply (x0 : Vec Ideal S65536x32 .f32) (x1 : Vec Ideal S32x20 .f32) (x2 : Vec Ideal S1x20 .f32) (x3 : Vec Ideal S20x5 .f32) (x4 : Vec Ideal S1x5 .f32) (x5 : Vec Ideal S5x2 .f32) (x6 : Vec Ideal S1x2 .f32) (d : Fin 2) :
    out0_A_8 (F := Ideal) x0 x1 x2 x3 x4 x5 x6 (ix2 0 d)
      = Finset.univ.inf fun r : Fin 65536 => Cert.Spec.enc (fun j i => x1 (ix2 i j)) (fun j => x2 (ix2 0 j)) (fun k j => x3 (ix2 j k)) (fun k => x4 (ix2 0 k)) (fun d k => x5 (ix2 k d)) (fun d => x6 (ix2 0 d)) (fun i => x0 (ix2 r i)) d := by
  unfold out0_A_8
  rw [View.canon_unit_zero hz]
  simp only [View.ld_unit_zero (S := S65536x32) hz, View.ld_unit_zero (S := S32x20) hz, View.ld_unit_zero (S := S1x20) hz, View.ld_unit_zero (S := S20x5) hz, View.ld_unit_zero (S := S1x5) hz, View.ld_unit_zero (S := S5x2) hz, View.ld_unit_zero (S := S1x2) hz]
  refine (pay4_apply x0 x1 x2 x3 x4 x5 x6 d).trans ?_
  exact Finset.inf_congr rfl (fun r _ => pay3_apply x0 x1 x2 x3 x4 x5 x6 r d)

/-- The maximum row at the first point, coordinate d: the greatest encoded value of the block's rows. -/
theorem out0_A_9_apply (x0 : Vec Ideal S65536x32 .f32) (x1 : Vec Ideal S32x20 .f32) (x2 : Vec Ideal S1x20 .f32) (x3 : Vec Ideal S20x5 .f32) (x4 : Vec Ideal S1x5 .f32) (x5 : Vec Ideal S5x2 .f32) (x6 : Vec Ideal S1x2 .f32) (d : Fin 2) :
    out0_A_9 (F := Ideal) x0 x1 x2 x3 x4 x5 x6 (ix2 0 d)
      = Finset.univ.sup fun r : Fin 65536 => Cert.Spec.enc (fun j i => x1 (ix2 i j)) (fun j => x2 (ix2 0 j)) (fun k j => x3 (ix2 j k)) (fun k => x4 (ix2 0 k)) (fun d k => x5 (ix2 k d)) (fun d => x6 (ix2 0 d)) (fun i => x0 (ix2 r i)) d := by
  unfold out0_A_9
  rw [View.canon_unit_zero hz]
  simp only [View.ld_unit_zero (S := S65536x32) hz, View.ld_unit_zero (S := S32x20) hz, View.ld_unit_zero (S := S1x20) hz, View.ld_unit_zero (S := S20x5) hz, View.ld_unit_zero (S := S1x5) hz, View.ld_unit_zero (S := S5x2) hz, View.ld_unit_zero (S := S1x2) hz]
  refine (pay5_apply x0 x1 x2 x3 x4 x5 x6 d).trans ?_
  exact Finset.sup_congr rfl (fun r _ => pay3_apply x0 x1 x2 x3 x4 x5 x6 r d)

/-- The minimum row at a later point: the lesser of the row found and the block's least encoded value. -/
theorem out0_B_8_apply (x0 : Vec Ideal S65536x32 .f32) (x1 : Vec Ideal S32x20 .f32) (x2 : Vec Ideal S1x20 .f32) (x3 : Vec Ideal S20x5 .f32) (x4 : Vec Ideal S1x5 .f32) (x5 : Vec Ideal S5x2 .f32) (x6 : Vec Ideal S1x2 .f32) (p : Vec Ideal S1x2 .f32) (d : Fin 2) :
    out0_B_8 (F := Ideal) x0 x1 x2 x3 x4 x5 x6 p (ix2 0 d)
      = min (p (ix2 0 d)) (Finset.univ.inf fun r : Fin 65536 => Cert.Spec.enc (fun j i => x1 (ix2 i j)) (fun j => x2 (ix2 0 j)) (fun k j => x3 (ix2 j k)) (fun k => x4 (ix2 0 k)) (fun d k => x5 (ix2 k d)) (fun d => x6 (ix2 0 d)) (fun i => x0 (ix2 r i)) d) := by
  unfold out0_B_8
  rw [View.canon_unit_zero hz]
  simp only [View.ld_unit_zero (S := S65536x32) hz, View.ld_unit_zero (S := S32x20) hz, View.ld_unit_zero (S := S1x20) hz, View.ld_unit_zero (S := S20x5) hz, View.ld_unit_zero (S := S1x5) hz, View.ld_unit_zero (S := S5x2) hz, View.ld_unit_zero (S := S1x2) hz]
  refine (pay1_apply (k0_pay4 (F := Ideal) x0 x1 x2 x3 x4 x5 x6) p (ix2 0 d)).trans ?_
  refine congrArg (min (p (ix2 0 d))) ?_
  refine (pay4_apply x0 x1 x2 x3 x4 x5 x6 d).trans ?_
  exact Finset.inf_congr rfl (fun r _ => pay3_apply x0 x1 x2 x3 x4 x5 x6 r d)

/-- The maximum row at a later point: the greater of the row found and the block's greatest encoded value. -/
theorem out0_B_9_apply (x0 : Vec Ideal S65536x32 .f32) (x1 : Vec Ideal S32x20 .f32) (x2 : Vec Ideal S1x20 .f32) (x3 : Vec Ideal S20x5 .f32) (x4 : Vec Ideal S1x5 .f32) (x5 : Vec Ideal S5x2 .f32) (x6 : Vec Ideal S1x2 .f32) (p : Vec Ideal S1x2 .f32) (d : Fin 2) :
    out0_B_9 (F := Ideal) x0 x1 x2 x3 x4 x5 x6 p (ix2 0 d)
      = max (p (ix2 0 d)) (Finset.univ.sup fun r : Fin 65536 => Cert.Spec.enc (fun j i => x1 (ix2 i j)) (fun j => x2 (ix2 0 j)) (fun k j => x3 (ix2 j k)) (fun k => x4 (ix2 0 k)) (fun d k => x5 (ix2 k d)) (fun d => x6 (ix2 0 d)) (fun i => x0 (ix2 r i)) d) := by
  unfold out0_B_9
  rw [View.canon_unit_zero hz]
  simp only [View.ld_unit_zero (S := S65536x32) hz, View.ld_unit_zero (S := S32x20) hz, View.ld_unit_zero (S := S1x20) hz, View.ld_unit_zero (S := S20x5) hz, View.ld_unit_zero (S := S1x5) hz, View.ld_unit_zero (S := S5x2) hz, View.ld_unit_zero (S := S1x2) hz]
  refine (pay2_apply (k0_pay5 (F := Ideal) x0 x1 x2 x3 x4 x5 x6) p (ix2 0 d)).trans ?_
  refine congrArg (max (p (ix2 0 d))) ?_
  refine (pay5_apply x0 x1 x2 x3 x4 x5 x6 d).trans ?_
  exact Finset.sup_congr rfl (fun r _ => pay3_apply x0 x1 x2 x3 x4 x5 x6 r d)

/-! ## The block indices at every point of the grid -/

variable (V : (c : Dev nD) → (b : Ref sig .tc) → Buf (Elt Ideal) ((c : Thread nD τ).loc b))

/-- The batch's block and the encoded block move with the point; -/
theorem idx0_0 : ∀ t : Fin cfg0.N, win0_0.index t (0 : Fin 2) = t.val ∧ win0_0.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
/-- every other window's block is its whole array. -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)

/-! ## The seven input blocks at a point, read off the arrays -/

abbrev B0 (c : Dev nD) (t : Fin cfg0.N) : Vec Ideal S65536x32 .f32 := iblk0 V c 0 t
abbrev B1 (c : Dev nD) (t : Fin cfg0.N) : Vec Ideal S32x20 .f32 := iblk0 V c 1 t
abbrev B2 (c : Dev nD) (t : Fin cfg0.N) : Vec Ideal S1x20 .f32 := iblk0 V c 2 t
abbrev B3 (c : Dev nD) (t : Fin cfg0.N) : Vec Ideal S20x5 .f32 := iblk0 V c 3 t
abbrev B4 (c : Dev nD) (t : Fin cfg0.N) : Vec Ideal S1x5 .f32 := iblk0 V c 4 t
abbrev B5 (c : Dev nD) (t : Fin cfg0.N) : Vec Ideal S5x2 .f32 := iblk0 V c 5 t
abbrev B6 (c : Dev nD) (t : Fin cfg0.N) : Vec Ideal S1x2 .f32 := iblk0 V c 6 t

/-- Block t of the batch is rows 65536 t … 65536 t + 65535. -/
theorem B0_apply (c : Dev nD) (t : Fin cfg0.N) (r : Fin 65536) (i : Fin 32) (h : 65536 * t.val + r.val < 2097152) :
    B0 V c t (ix2 r i) = V c main_arg0 (ix2 (n0 := 2097152) (n1 := 32) ⟨65536 * t.val + r.val, h⟩ i) := by
  obtain ⟨e0, e1⟩ := idx0_0 t
  show V c main_arg0 (((cfg0.win 0).blk t).view.emb (ix2 r i)) = _
  refine congrArg (V c main_arg0) (funext fun a => Fin.ext ?_)
  match a with
  | ⟨0, _⟩ => show win0_0.index t (0 : Fin 2) * 65536 + 1 * r.val = 65536 * t.val + r.val; rw [e0]; omega
  | ⟨1, _⟩ => show win0_0.index t (1 : Fin 2) * 32 + 1 * i.val = i.val; rw [e1]; omega

theorem B1_apply (c : Dev nD) (t : Fin cfg0.N) (p : Fin 32) (q : Fin 20) : B1 V c t (ix2 p q) = V c main_v0 (ix2 p q) := by
  obtain ⟨e0, e1⟩ := idx0_1 t
  show V c main_v0 (((cfg0.win 1).blk t).view.emb (ix2 p q)) = _
  refine congrArg (V c main_v0) (funext fun a => Fin.ext ?_)
  match a with
  | ⟨0, _⟩ => show win0_1.index t (0 : Fin 2) * 32 + 1 * p.val = p.val; rw [e0]; omega
  | ⟨1, _⟩ => show win0_1.index t (1 : Fin 2) * 20 + 1 * q.val = q.val; rw [e1]; omega

theorem B2_apply (c : Dev nD) (t : Fin cfg0.N) (p : Fin 1) (q : Fin 20) : B2 V c t (ix2 p q) = V c main_v3 (ix2 p q) := by
  obtain ⟨e0, e1⟩ := idx0_2 t
  show V c main_v3 (((cfg0.win 2).blk t).view.emb (ix2 p q)) = _
  refine congrArg (V c main_v3) (funext fun a => Fin.ext ?_)
  match a with
  | ⟨0, _⟩ => show win0_2.index t (0 : Fin 2) * 1 + 1 * p.val = p.val; rw [e0]; omega
  | ⟨1, _⟩ => show win0_2.index t (1 : Fin 2) * 20 + 1 * q.val = q.val; rw [e1]; omega

theorem B3_apply (c : Dev nD) (t : Fin cfg0.N) (p : Fin 20) (q : Fin 5) : B3 V c t (ix2 p q) = V c main_v1 (ix2 p q) := by
  obtain ⟨e0, e1⟩ := idx0_3 t
  show V c main_v1 (((cfg0.win 3).blk t).view.emb (ix2 p q)) = _
  refine congrArg (V c main_v1) (funext fun a => Fin.ext ?_)
  match a with
  | ⟨0, _⟩ => show win0_3.index t (0 : Fin 2) * 20 + 1 * p.val = p.val; rw [e0]; omega
  | ⟨1, _⟩ => show win0_3.index t (1 : Fin 2) * 5 + 1 * q.val = q.val; rw [e1]; omega

theorem B4_apply (c : Dev nD) (t : Fin cfg0.N) (p : Fin 1) (q : Fin 5) : B4 V c t (ix2 p q) = V c main_v4 (ix2 p q) := by
  obtain ⟨e0, e1⟩ := idx0_4 t
  show V c main_v4 (((cfg0.win 4).blk t).view.emb (ix2 p q)) = _
  refine congrArg (V c main_v4) (funext fun a => Fin.ext ?_)
  match a with
  | ⟨0, _⟩ => show win0_4.index t (0 : Fin 2) * 1 + 1 * p.val = p.val; rw [e0]; omega
  | ⟨1, _⟩ => show win0_4.index t (1 : Fin 2) * 5 + 1 * q.val = q.val; rw [e1]; omega

theorem B5_apply (c : Dev nD) (t : Fin cfg0.N) (p : Fin 5) (q : Fin 2) : B5 V c t (ix2 p q) = V c main_v2 (ix2 p q) := by
  obtain ⟨e0, e1⟩ := idx0_5 t
  show V c main_v2 (((cfg0.win 5).blk t).view.emb (ix2 p q)) = _
  refine congrArg (V c main_v2) (funext fun a => Fin.ext ?_)
  match a with
  | ⟨0, _⟩ => show win0_5.index t (0 : Fin 2) * 5 + 1 * p.val = p.val; rw [e0]; omega
  | ⟨1, _⟩ => show win0_5.index t (1 : Fin 2) * 2 + 1 * q.val = q.val; rw [e1]; omega

theorem B6_apply (c : Dev nD) (t : Fin cfg0.N) (p : Fin 1) (q : Fin 2) : B6 V c t (ix2 p q) = V c main_v5 (ix2 p q) := by
  obtain ⟨e0, e1⟩ := idx0_6 t
  show V c main_v5 (((cfg0.win 6).blk t).view.emb (ix2 p q)) = _
  refine congrArg (V c main_v5) (funext fun a => Fin.ext ?_)
  match a with
  | ⟨0, _⟩ => show win0_6.index t (0 : Fin 2) * 1 + 1 * p.val = p.val; rw [e0]; omega
  | ⟨1, _⟩ => show win0_6.index t (1 : Fin 2) * 2 + 1 * q.val = q.val; rw [e1]; omega

/-! ## The blocks against the program's arrays -/

/-- What the region finds in its seven input arrays: the batch, and the host's transposes and reshapes of the weights and biases. -/
structure Entry (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) : Prop where
  hx : V c main_arg0 = x
  hW1 : ∀ (i : Fin 32) (j : Fin 20), V c main_v0 (ix2 i j) = W1 (ix2 j i)
  hb1 : ∀ j : Fin 20, V c main_v3 (ix2 0 j) = b1 (ix1 j)
  hW2 : ∀ (j : Fin 20) (k : Fin 5), V c main_v1 (ix2 j k) = W2 (ix2 k j)
  hb2 : ∀ k : Fin 5, V c main_v4 (ix2 0 k) = b2 (ix1 k)
  hW3 : ∀ (k : Fin 5) (d : Fin 2), V c main_v2 (ix2 k d) = W3 (ix2 d k)
  hb3 : ∀ d : Fin 2, V c main_v5 (ix2 0 d) = b3 (ix1 d)

/-- Row r of block t through the three layers is the encoded pair of row 65536 t + r of the batch. -/
theorem enc_blk (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (t : Fin cfg0.N) (r : Fin 65536) (d : Fin 2)
    (h : 65536 * t.val + r.val < 2097152) :
    Cert.Spec.enc (fun j i => B1 V c t (ix2 i j)) (fun j => B2 V c t (ix2 0 j)) (fun k j => B3 V c t (ix2 j k)) (fun k => B4 V c t (ix2 0 k)) (fun d k => B5 V c t (ix2 k d)) (fun d => B6 V c t (ix2 0 d)) (fun i => B0 V c t (ix2 r i)) d
      = Cert.Spec.E x W1 b1 W2 b2 W3 b3 ⟨65536 * t.val + r.val, h⟩ d := by
  unfold Cert.Spec.E
  have e1 : (fun (j : Fin 20) (i : Fin 32) => B1 V c t (ix2 i j)) = fun j i => W1 (ix2 j i) :=
    funext fun j => funext fun i => (B1_apply V c t i j).trans (H.hW1 i j)
  have e2 : (fun j : Fin 20 => B2 V c t (ix2 0 j)) = fun j => b1 (ix1 j) := funext fun j => (B2_apply V c t 0 j).trans (H.hb1 j)
  have e3 : (fun (k : Fin 5) (j : Fin 20) => B3 V c t (ix2 j k)) = fun k j => W2 (ix2 k j) :=
    funext fun k => funext fun j => (B3_apply V c t j k).trans (H.hW2 j k)
  have e4 : (fun k : Fin 5 => B4 V c t (ix2 0 k)) = fun k => b2 (ix1 k) := funext fun k => (B4_apply V c t 0 k).trans (H.hb2 k)
  have e5 : (fun (d : Fin 2) (k : Fin 5) => B5 V c t (ix2 k d)) = fun d k => W3 (ix2 d k) :=
    funext fun d => funext fun k => (B5_apply V c t k d).trans (H.hW3 k d)
  have e6 : (fun d : Fin 2 => B6 V c t (ix2 0 d)) = fun d => b3 (ix1 d) := funext fun d => (B6_apply V c t 0 d).trans (H.hb3 d)
  have e0 : (fun i : Fin 32 => B0 V c t (ix2 r i)) = fun i => x (ix2 (n0 := 2097152) (n1 := 32) ⟨65536 * t.val + r.val, h⟩ i) :=
    funext fun i => (B0_apply V c t r i h).trans (congrFun H.hx _)
  rw [e1, e2, e3, e4, e5, e6, e0]

/-! ## The running minimum and maximum are those of the rows seen so far -/

theorem mnAt_eq (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (d : Fin 2) : ∀ (n : ℕ) (hn : n < cfg0.N),
    mnAt V c n hn (ix2 0 d) = (Finset.univ.filter fun r : Fin 2097152 => r.val < 65536 * (n + 1)).inf fun r => Cert.Spec.E x W1 b1 W2 b2 W3 b3 r d
  | 0, hn => by
    have hN : cfg0.N = 32 := N_0
    show out0_A_8 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (ix2 0 d) = _
    refine (out0_A_8_apply (B0 V c ⟨0, hn⟩) (B1 V c ⟨0, hn⟩) (B2 V c ⟨0, hn⟩) (B3 V c ⟨0, hn⟩) (B4 V c ⟨0, hn⟩) (B5 V c ⟨0, hn⟩) (B6 V c ⟨0, hn⟩) d).trans ?_
    rw [inf_filter_succ _ 0 (by omega), inf_filter_zero, min_top_left]
    exact Finset.inf_congr rfl (fun r _ => enc_blk V c x W1 b1 W2 b2 W3 b3 H ⟨0, hn⟩ r d (by have := r.isLt; show 65536 * 0 + r.val < 2097152; omega))
  | n + 1, hn => by
    have hN : cfg0.N = 32 := N_0
    show out0_B_8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mnAt V c n (Nat.lt_of_succ_lt hn)) (ix2 0 d) = _
    refine (out0_B_8_apply (B0 V c ⟨n + 1, hn⟩) (B1 V c ⟨n + 1, hn⟩) (B2 V c ⟨n + 1, hn⟩) (B3 V c ⟨n + 1, hn⟩) (B4 V c ⟨n + 1, hn⟩) (B5 V c ⟨n + 1, hn⟩) (B6 V c ⟨n + 1, hn⟩) (mnAt V c n (Nat.lt_of_succ_lt hn)) d).trans ?_
    refine Eq.trans ?_ (inf_filter_succ (fun r => Cert.Spec.E x W1 b1 W2 b2 W3 b3 r d) (n + 1) (by omega)).symm
    exact congrArg₂ min (mnAt_eq c x W1 b1 W2 b2 W3 b3 H d n (Nat.lt_of_succ_lt hn))
      (Finset.inf_congr rfl (fun r _ => enc_blk V c x W1 b1 W2 b2 W3 b3 H ⟨n + 1, hn⟩ r d (by have := r.isLt; show 65536 * (n + 1) + r.val < 2097152; omega)))

theorem mxAt_eq (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (d : Fin 2) : ∀ (n : ℕ) (hn : n < cfg0.N),
    mxAt V c n hn (ix2 0 d) = (Finset.univ.filter fun r : Fin 2097152 => r.val < 65536 * (n + 1)).sup fun r => Cert.Spec.E x W1 b1 W2 b2 W3 b3 r d
  | 0, hn => by
    have hN : cfg0.N = 32 := N_0
    show out0_A_9 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (ix2 0 d) = _
    refine (out0_A_9_apply (B0 V c ⟨0, hn⟩) (B1 V c ⟨0, hn⟩) (B2 V c ⟨0, hn⟩) (B3 V c ⟨0, hn⟩) (B4 V c ⟨0, hn⟩) (B5 V c ⟨0, hn⟩) (B6 V c ⟨0, hn⟩) d).trans ?_
    rw [sup_filter_succ _ 0 (by omega), sup_filter_zero, max_bot_left]
    exact Finset.sup_congr rfl (fun r _ => enc_blk V c x W1 b1 W2 b2 W3 b3 H ⟨0, hn⟩ r d (by have := r.isLt; show 65536 * 0 + r.val < 2097152; omega))
  | n + 1, hn => by
    have hN : cfg0.N = 32 := N_0
    show out0_B_9 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (mxAt V c n (Nat.lt_of_succ_lt hn)) (ix2 0 d) = _
    refine (out0_B_9_apply (B0 V c ⟨n + 1, hn⟩) (B1 V c ⟨n + 1, hn⟩) (B2 V c ⟨n + 1, hn⟩) (B3 V c ⟨n + 1, hn⟩) (B4 V c ⟨n + 1, hn⟩) (B5 V c ⟨n + 1, hn⟩) (B6 V c ⟨n + 1, hn⟩) (mxAt V c n (Nat.lt_of_succ_lt hn)) d).trans ?_
    refine Eq.trans ?_ (sup_filter_succ (fun r => Cert.Spec.E x W1 b1 W2 b2 W3 b3 r d) (n + 1) (by omega)).symm
    exact congrArg₂ max (mxAt_eq c x W1 b1 W2 b2 W3 b3 H d n (Nat.lt_of_succ_lt hn))
      (Finset.sup_congr rfl (fun r _ => enc_blk V c x W1 b1 W2 b2 W3 b3 H ⟨n + 1, hn⟩ r d (by have := r.isLt; show 65536 * (n + 1) + r.val < 2097152; omega)))

/-! ## The three specification arrays at an index given by its coordinates -/

theorem Earr_apply (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (j : Cert.Spec.SRx2.Idx) (n : Fin 2097152) (d : Fin 2) (h0 : (j 0).val = n.val) (h1 : (j 1).val = d.val) :
    Cert.Spec.Earr x W1 b1 W2 b2 W3 b3 j = Cert.Spec.E x W1 b1 W2 b2 W3 b3 n d := by
  unfold Cert.Spec.Earr
  have e0 : j 0 = n := Fin.ext h0
  have e1 : j 1 = d := Fin.ext h1
  rw [e0, e1]

theorem mnArr_apply (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (j : Cert.Spec.S1x2.Idx) (d : Fin 2) (h1 : (j 1).val = d.val) :
    Cert.Spec.mnArr x W1 b1 W2 b2 W3 b3 j = Finset.univ.inf fun r : Fin 2097152 => Cert.Spec.E x W1 b1 W2 b2 W3 b3 r d := by
  unfold Cert.Spec.mnArr Cert.Spec.mn
  have e1 : j 1 = d := Fin.ext h1
  rw [e1]

theorem mxArr_apply (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (j : Cert.Spec.S1x2.Idx) (d : Fin 2) (h1 : (j 1).val = d.val) :
    Cert.Spec.mxArr x W1 b1 W2 b2 W3 b3 j = Finset.univ.sup fun r : Fin 2097152 => Cert.Spec.E x W1 b1 W2 b2 W3 b3 r d := by
  unfold Cert.Spec.mxArr Cert.Spec.mx
  have e1 : j 1 = d := Fin.ext h1
  rw [e1]

/-! ## What each point writes back, and the arrays after the region -/

/-- An entry read through a point's block of a 1x2 array is the array's entry under it (any array). -/
theorem read8_apply (G : Cert.Spec.S1x2.Idx → EReal) (t : Fin cfg0.N) (j : S1x2.Idx) :
    ((cfg0.win 8).blk t).view.read (Elt Ideal) G j = G (((cfg0.win 8).blk t).view.emb j) := rfl
theorem read9_apply (G : Cert.Spec.S1x2.Idx → EReal) (t : Fin cfg0.N) (j : S1x2.Idx) :
    ((cfg0.win 9).blk t).view.read (Elt Ideal) G j = G (((cfg0.win 9).blk t).view.emb j) := rfl

/-- Point t writes back block t of the encoded array. -/
theorem flushed7_eq (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (t : Fin cfg0.N) :
    (dat0 V c).flushed 7 t = ((cfg0.win 7).blk t).view.read (Elt Ideal) (Cert.Spec.Earr x W1 b1 W2 b2 W3 b3) := by
  have hN : cfg0.N = 32 := N_0
  have ht : t.val < 32 := by have := t.isLt; omega
  obtain ⟨e0, e1⟩ := idx0_7 t
  show (cfg0.win 7).cut (grid0.coords t) ((dat0 V c).after 7 t) = _
  rw [after0_7]
  funext j
  obtain ⟨r, d, rfl⟩ : ∃ (r : Fin 65536) (d : Fin 2), j = ix2 r d := ⟨j 0, j 1, eq_ix2 (n0 := 65536) (n1 := 2) j⟩
  have hr : 65536 * t.val + r.val < 2097152 := by have := r.isLt; omega
  show out0_7 (iblk0 V c 0 t) (iblk0 V c 1 t) (iblk0 V c 2 t) (iblk0 V c 3 t) (iblk0 V c 4 t) (iblk0 V c 5 t) (iblk0 V c 6 t) (ix2 r d) = Cert.Spec.Earr x W1 b1 W2 b2 W3 b3 (((cfg0.win 7).blk t).view.emb (ix2 r d))
  refine (out0_7_apply (B0 V c t) (B1 V c t) (B2 V c t) (B3 V c t) (B4 V c t) (B5 V c t) (B6 V c t) r d).trans ?_
  refine (enc_blk V c x W1 b1 W2 b2 W3 b3 H t r d hr).trans ?_
  exact (Earr_apply x W1 b1 W2 b2 W3 b3 (((cfg0.win 7).blk t).view.emb (ix2 r d)) ⟨65536 * t.val + r.val, hr⟩ d
    (by show win0_7.index t (0 : Fin 2) * 65536 + 1 * r.val = 65536 * t.val + r.val; rw [e0]; omega)
    (by show win0_7.index t (1 : Fin 2) * 2 + 1 * d.val = d.val; rw [e1]; omega)).symm

/-- Every row of the encoded array is in the block of the point row / 65536. -/
theorem cover7 (i : S2097152x2.Idx) : ∃ t : Fin cfg0.N, (cfg0.win 7).flush t = true ∧ i ∈ ((cfg0.win 7).blk t).view.set := by
  have hN : cfg0.N = 32 := N_0
  have hi0 : (i 0).val < 2097152 := (i 0).isLt
  have hi1 : (i 1).val < 2 := (i 1).isLt
  obtain ⟨t, ht⟩ : ∃ t : Fin cfg0.N, t.val = (i 0).val / 65536 := ⟨⟨(i 0).val / 65536, by omega⟩, rfl⟩
  obtain ⟨e0, e1⟩ := idx0_7 t
  refine ⟨t, flush0_7 t, ?_⟩
  show i ∈ ((View.whole main_v7_0).slice (win0_7.rect t)).set
  rw [View.set_slice_whole, Rect.mem_set_unit]
  intro a
  match a with
  | ⟨0, _⟩ => show win0_7.index t (0 : Fin 2) * 65536 ≤ (i 0).val ∧ (i 0).val < win0_7.index t (0 : Fin 2) * 65536 + 65536; rw [e0, ht]; omega
  | ⟨1, _⟩ => show win0_7.index t (1 : Fin 2) * 2 ≤ (i 1).val ∧ (i 1).val < win0_7.index t (1 : Fin 2) * 2 + 2; rw [e1]; omega

/-- The one write-back of the minimum row, at the last point, writes the least encoded value over the whole batch. -/
theorem flushed8_eq (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (t : Fin cfg0.N) (hf : (cfg0.win 8).flush t = true) :
    (dat0 V c).flushed 8 t = ((cfg0.win 8).blk t).view.read (Elt Ideal) (Cert.Spec.mnArr x W1 b1 W2 b2 W3 b3) := by
  have hN : cfg0.N = 32 := N_0
  have h31 : t.val = 31 := by have := (flush0_8 t).mp hf; have := t.isLt; omega
  obtain ⟨e0, e1⟩ := idx0_8 t
  show (cfg0.win 8).cut (grid0.coords t) ((dat0 V c).after 8 t) = _
  rw [after0_8]
  funext j
  obtain ⟨z, d, rfl⟩ : ∃ (z : Fin 1) (d : Fin 2), j = ix2 z d := ⟨j 0, j 1, eq_ix2 (n0 := 1) (n1 := 2) j⟩
  obtain rfl : z = 0 := Subsingleton.elim _ _
  refine Eq.trans (b := mnAt V c t.val t.isLt (ix2 (0 : Fin 1) d)) rfl ?_
  refine (mnAt_eq V c x W1 b1 W2 b2 W3 b3 H d t.val t.isLt).trans ?_
  refine Eq.trans ?_ (read8_apply (Cert.Spec.mnArr x W1 b1 W2 b2 W3 b3) t (ix2 (0 : Fin 1) d)).symm
  refine Eq.trans ?_ (mnArr_apply x W1 b1 W2 b2 W3 b3 (((cfg0.win 8).blk t).view.emb (ix2 (0 : Fin 1) d)) d
    (by show win0_8.index t (1 : Fin 2) * 2 + 1 * d.val = d.val; rw [e1]; omega)).symm
  rw [h31, filter_all]

/-- The last point's block is the whole row. -/
theorem cover8 (i : S1x2.Idx) : ∃ t : Fin cfg0.N, (cfg0.win 8).flush t = true ∧ i ∈ ((cfg0.win 8).blk t).view.set := by
  have hN : cfg0.N = 32 := N_0
  have hi0 : (i 0).val < 1 := (i 0).isLt
  have hi1 : (i 1).val < 2 := (i 1).isLt
  obtain ⟨t, ht⟩ : ∃ t : Fin cfg0.N, t.val = 31 := ⟨⟨31, by omega⟩, rfl⟩
  obtain ⟨e0, e1⟩ := idx0_8 t
  refine ⟨t, (flush0_8 t).mpr (by omega), ?_⟩
  show i ∈ ((View.whole main_v7_1).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; rw [e0]; omega
  | ⟨1, _⟩ => show win0_8.index t (1 : Fin 2) * 2 ≤ (i 1).val ∧ (i 1).val < win0_8.index t (1 : Fin 2) * 2 + 2; rw [e1]; omega

/-- The one write-back of the maximum row, at the last point, writes the greatest encoded value over the whole batch. -/
theorem flushed9_eq (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal) (H : Entry V c x W1 b1 W2 b2 W3 b3) (t : Fin cfg0.N) (hf : (cfg0.win 9).flush t = true) :
    (dat0 V c).flushed 9 t = ((cfg0.win 9).blk t).view.read (Elt Ideal) (Cert.Spec.mxArr x W1 b1 W2 b2 W3 b3) := by
  have hN : cfg0.N = 32 := N_0
  have h31 : t.val = 31 := by have := (flush0_9 t).mp hf; have := t.isLt; omega
  obtain ⟨e0, e1⟩ := idx0_9 t
  show (cfg0.win 9).cut (grid0.coords t) ((dat0 V c).after 9 t) = _
  rw [after0_9]
  funext j
  obtain ⟨z, d, rfl⟩ : ∃ (z : Fin 1) (d : Fin 2), j = ix2 z d := ⟨j 0, j 1, eq_ix2 (n0 := 1) (n1 := 2) j⟩
  obtain rfl : z = 0 := Subsingleton.elim _ _
  refine Eq.trans (b := mxAt V c t.val t.isLt (ix2 (0 : Fin 1) d)) rfl ?_
  refine (mxAt_eq V c x W1 b1 W2 b2 W3 b3 H d t.val t.isLt).trans ?_
  refine Eq.trans ?_ (read9_apply (Cert.Spec.mxArr x W1 b1 W2 b2 W3 b3) t (ix2 (0 : Fin 1) d)).symm
  refine Eq.trans ?_ (mxArr_apply x W1 b1 W2 b2 W3 b3 (((cfg0.win 9).blk t).view.emb (ix2 (0 : Fin 1) d)) d
    (by show win0_9.index t (1 : Fin 2) * 2 + 1 * d.val = d.val; rw [e1]; omega)).symm
  rw [h31, filter_all]

/-- The last point's block is the whole row. -/
theorem cover9 (i : S1x2.Idx) : ∃ t : Fin cfg0.N, (cfg0.win 9).flush t = true ∧ i ∈ ((cfg0.win 9).blk t).view.set := by
  have hN : cfg0.N = 32 := N_0
  have hi0 : (i 0).val < 1 := (i 0).isLt
  have hi1 : (i 1).val < 2 := (i 1).isLt
  obtain ⟨t, ht⟩ : ∃ t : Fin cfg0.N, t.val = 31 := ⟨⟨31, by omega⟩, rfl⟩
  obtain ⟨e0, e1⟩ := idx0_9 t
  refine ⟨t, (flush0_9 t).mpr (by omega), ?_⟩
  show i ∈ ((View.whole main_v7_2).slice (win0_9.rect t)).set
  rw [View.set_slice_whole, Rect.mem_set_unit]
  intro a
  match a with
  | ⟨0, _⟩ => show win0_9.index t (0 : Fin 2) * 1 ≤ (i 0).val ∧ (i 0).val < win0_9.index t (0 : Fin 2) * 1 + 1; rw [e0]; omega
  | ⟨1, _⟩ => show win0_9.index t (1 : Fin 2) * 2 ≤ (i 1).val ∧ (i 1).val < win0_9.index t (1 : Fin 2) * 2 + 2; rw [e1]; omega

/-- THE ENCODED ARRAY after the region: every row's encoded pair. -/
theorem final0_7 (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal)
    (hx : V c main_arg0 = x) (hW1 : ∀ i j, V c main_v0 (ix2 i j) = W1 (ix2 j i)) (hb1 : ∀ j, V c main_v3 (ix2 0 j) = b1 (ix1 j))
    (hW2 : ∀ j k, V c main_v1 (ix2 j k) = W2 (ix2 k j)) (hb2 : ∀ k, V c main_v4 (ix2 0 k) = b2 (ix1 k))
    (hW3 : ∀ k d, V c main_v2 (ix2 k d) = W3 (ix2 d k)) (hb3 : ∀ d, V c main_v5 (ix2 0 d) = b3 (ix1 d)) :
    (dat0 (F := Ideal) V c).arrAt 7 cfg0.N = Cert.Spec.Earr x W1 b1 W2 b2 W3 b3 :=
  (dat0 V c).arrAt_eq_of_cover 7 (Cert.Spec.Earr x W1 b1 W2 b2 W3 b3)
    (fun t _ => flushed7_eq V c x W1 b1 W2 b2 W3 b3 ⟨hx, hW1, hb1, hW2, hb2, hW3, hb3⟩ t) cover7

/-- THE MINIMUM ROW after the region: each coordinate's least value over the batch. -/
theorem final0_8 (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal)
    (hx : V c main_arg0 = x) (hW1 : ∀ i j, V c main_v0 (ix2 i j) = W1 (ix2 j i)) (hb1 : ∀ j, V c main_v3 (ix2 0 j) = b1 (ix1 j))
    (hW2 : ∀ j k, V c main_v1 (ix2 j k) = W2 (ix2 k j)) (hb2 : ∀ k, V c main_v4 (ix2 0 k) = b2 (ix1 k))
    (hW3 : ∀ k d, V c main_v2 (ix2 k d) = W3 (ix2 d k)) (hb3 : ∀ d, V c main_v5 (ix2 0 d) = b3 (ix1 d)) :
    (dat0 (F := Ideal) V c).arrAt 8 cfg0.N = Cert.Spec.mnArr x W1 b1 W2 b2 W3 b3 :=
  (dat0 V c).arrAt_eq_of_cover 8 (Cert.Spec.mnArr x W1 b1 W2 b2 W3 b3)
    (fun t hf => flushed8_eq V c x W1 b1 W2 b2 W3 b3 ⟨hx, hW1, hb1, hW2, hb2, hW3, hb3⟩ t hf) cover8

/-- THE MAXIMUM ROW after the region: each coordinate's greatest value over the batch. -/
theorem final0_9 (c : Dev nD) (x : Cert.Spec.SRx32.Idx → EReal) (W1 : Cert.Spec.S20x32.Idx → EReal) (b1 : Cert.Spec.S20.Idx → EReal) (W2 : Cert.Spec.S5x20.Idx → EReal) (b2 : Cert.Spec.S5.Idx → EReal) (W3 : Cert.Spec.S2x5.Idx → EReal) (b3 : Cert.Spec.S2.Idx → EReal)
    (hx : V c main_arg0 = x) (hW1 : ∀ i j, V c main_v0 (ix2 i j) = W1 (ix2 j i)) (hb1 : ∀ j, V c main_v3 (ix2 0 j) = b1 (ix1 j))
    (hW2 : ∀ j k, V c main_v1 (ix2 j k) = W2 (ix2 k j)) (hb2 : ∀ k, V c main_v4 (ix2 0 k) = b2 (ix1 k))
    (hW3 : ∀ k d, V c main_v2 (ix2 k d) = W3 (ix2 d k)) (hb3 : ∀ d, V c main_v5 (ix2 0 d) = b3 (ix1 d)) :
    (dat0 (F := Ideal) V c).arrAt 9 cfg0.N = Cert.Spec.mxArr x W1 b1 W2 b2 W3 b3 :=
  (dat0 V c).arrAt_eq_of_cover 9 (Cert.Spec.mxArr x W1 b1 W2 b2 W3 b3)
    (fun t hf => flushed9_eq V c x W1 b1 W2 b2 W3 b3 ⟨hx, hW1, hb1, hW2, hb2, hW3, hb3⟩ t hf) cover9

end Cert.KernelIdeal.Hand

end
-- ==== Proof.KI.Pay1.lean ====
/-
  The table look-up's stored block, read at one row, over arbitrary blocks: when the two cell words of row r are the
  words of k0 and k1, the stored value at row r is the table's entry (k0, k1). The block is computed as a one-hot row
  (cell word of column 0 against the lane number) times the table, multiplied lane by lane with the one-hot row of the
  column-1 cell word, and summed over the 25 lanes.
-/
import proofs.«120400_j53171695125388_1_alg».proof.Proof.Gen.KernelIdeal.Skeleton
import proofs.«120400_j53171695125388_1_alg».proof.Proof.Spec
import proofs.«120400_j53171695125388_1_alg».proof.Proof.SpecMath
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-! ## Two layout reads at an index given by coordinates -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The cell word of a row and a column -/

/-- The normalised, scaled, floored and converted coordinate at `(r, d)` is the cell number of the entry `(r, d)`
    against the minimum and maximum of column `d`. -/
theorem cellWord_apply (e : FVec Ideal S8192x2 .f32) (mnr mxr : FVec Ideal S1x2 .f32)
    (h1 : S8192x2.ShapeCasts S8192x2) (h2 : S1x2.ShapeCasts S1x2) (hb : S1x2.Broadcasts S8192x2) (r : Fin 8192) (d : Fin 2) :
    (fptosi 32 (floor (divf (addf (mulf (divf (subf (shapeCast S8192x2 e h1) (broadcastTo S8192x2 (shapeCast S1x2 mnr h2) hb))
        (broadcastTo S8192x2 (subf (shapeCast S1x2 mxr h2) (shapeCast S1x2 mnr h2)) hb))
        (broadcast S8192x2 (Scalar.ofBits (F := Ideal) .f32 0x3F7AE148#32)))
        (broadcast S8192x2 (Scalar.ofBits (F := Ideal) .f32 0x3C23D70A#32)))
        (broadcast S8192x2 (Scalar.ofBits (F := Ideal) .f32 0x3D23D70A#32)))) : IVec S8192x2 32) (ix2 r d)
      = Cert.Spec.cell (e (ix2 r d)) (mnr (ix2 0 d)) (mxr (ix2 0 d)) := by
  rw [shapeCast_self e h1, shapeCast_self mnr h2, shapeCast_self mxr h2]
  show Ideal.fptosi 32 (Ideal.liftRound Int.floor (Ideal.div (Ideal.div (e (ix2 r d) - broadcastTo S8192x2 mnr hb (ix2 r d))
    (broadcastTo S8192x2 (subf mxr mnr) hb (ix2 r d)) * _ + _) _)) = _
  rw [broadcastTo_1b_ab_apply mnr hb r d, broadcastTo_1b_ab_apply (subf mxr mnr) hb r d]
  rfl

/-! ## A one-hot row -/

/-- The comparison of the lane number with a row's word, widened and converted, is 1 on the lane whose number is the
    word and 0 on every other. -/
theorem onehot_apply (w : IVec S8192x1 32) (hi : S8192x25.Iotas .tc 32 [1]) (hb : S8192x1.Broadcasts S8192x25)
    (hlt : 1 < 32) (r : Fin 8192) (k : Fin 25) :
    (sitofp .f32 (extui 32 (cmpi .eq (iota .tc S8192x25 32 [1] hi) (broadcastTo S8192x25 w hb)) hlt) :
        FVec Ideal S8192x25 .f32) (ix2 r k)
      = if BitVec.ofNat 32 k.val = w (ix2 r 0) then (1 : EReal) else 0 := by
  show FloatOps.sitofp (F := Ideal) .f32
    ((IntOp.cmpi .eq (iota .tc S8192x25 32 [1] hi (ix2 r k)) (broadcastTo S8192x25 w hb (ix2 r k))).setWidth 32) = _
  rw [iota_single_apply, broadcastTo_a1_ab_apply w hb r k]
  show FloatOps.sitofp (F := Ideal) .f32 ((BitVec.ofBool (BitVec.ofNat 32 k.val == w (ix2 r 0))).setWidth 32) = _
  by_cases h : BitVec.ofNat 32 k.val = w (ix2 r 0)
  · have hb' : (BitVec.ofNat 32 k.val == w (ix2 r 0)) = true := by simpa using h
    rw [if_pos h, hb']
    show ((((BitVec.ofBool true).setWidth 32 : BitVec 32).toInt : ℝ) : EReal) = 1
    have ht : ((BitVec.ofBool true).setWidth 32 : BitVec 32).toInt = 1 := by decide
    rw [ht]; simp
  · have hb' : (BitVec.ofNat 32 k.val == w (ix2 r 0)) = false := by simpa using h
    rw [if_neg h, hb']
    show ((((BitVec.ofBool false).setWidth 32 : BitVec 32).toInt : ℝ) : EReal) = 0
    have ht : ((BitVec.ofBool false).setWidth 32 : BitVec 32).toInt = 0 := by decide
    rw [ht]; simp

/-! ## The product with the table, one row -/

theorem lhs_row_0 (i : S8192x25.Idx) (q : dot_S8192x25_S25x25_S8192x25_1_0_0_1_n_n.contr.Idx) :
    (dot_S8192x25_S25x25_S8192x25_1_0_0_1_n_n.lhsIdx i q 0).val = (i 0).val := by
  unfold DotDims.lhsIdx
  rw [dif_neg (show ¬(0 : Fin S8192x25.rank) ∈ dot_S8192x25_S25x25_S8192x25_1_0_0_1_n_n.lhsBatch by decide),
    dif_pos (show (0 : Fin S8192x25.rank) ∈ dot_S8192x25_S25x25_S8192x25_1_0_0_1_n_n.lhsNonContracting by decide)]
  rfl

theorem lhs_row_1 (i : S8192x25.Idx) (q : dot_S8192x25_S25x25_S8192x25_1_0_0_1_n_n.contr.Idx) :
    (dot_S8192x25_S25x25_S8192x25_1_0_0_1_n_n.lhsIdx i q 1).val = (q ⟨0, by decide⟩).val :=
  dot_S8192x25_S25x25_S8192x25_1_0_0_1_n_n.lhsIdx_val_of_single rfl i q

theorem rhs_row_0 (i : S8192x25.Idx) (q : dot_S8192x25_S25x25_S8192x25_1_0_0_1_n_n.contr.Idx) :
    (dot_S8192x25_S25x25_S8192x25_1_0_0_1_n_n.rhsIdx i q 0).val = (q ⟨0, by decide⟩).val :=
  dot_S8192x25_S25x25_S8192x25_1_0_0_1_n_n.rhsIdx_val_of_single rfl i q

theorem rhs_row_1 (i : S8192x25.Idx) (q : dot_S8192x25_S25x25_S8192x25_1_0_0_1_n_n.contr.Idx) :
    (dot_S8192x25_S25x25_S8192x25_1_0_0_1_n_n.rhsIdx i q 1).val = (i 1).val := by
  unfold DotDims.rhsIdx
  rw [dif_neg (show ¬(1 : Fin S25x25.rank) ∈ dot_S8192x25_S25x25_S8192x25_1_0_0_1_n_n.rhsBatch by decide),
    dif_pos (show (1 : Fin S25x25.rank) ∈ dot_S8192x25_S25x25_S8192x25_1_0_0_1_n_n.rhsNonContracting by decide)]
  rfl

/-- The matrix product onto the zero accumulator, at `(r, j)`, is the sum over the 25 contracted lanes. -/
theorem matmul_row (A : FVec Ideal S8192x25 .f32) (B : FVec Ideal S25x25 .f32) (r : Fin 8192) (j : Fin 25) :
    matmul dot_S8192x25_S25x25_S8192x25_1_0_0_1_n_n none A B (constant (F := Ideal) S8192x25 .f32 0x00000000#32) (ix2 r j)
      = ∑ k : Fin 25, A (ix2 r k) * B (ix2 k j) := by
  refine (Ideal.matmul_constant_zero_apply dot_S8192x25_S25x25_S8192x25_1_0_0_1_n_n none A B (ix2 r j)).trans ?_
  rw [← Equiv.sum_comp (contrEquiv1 dot_S8192x25_S25x25_S8192x25_1_0_0_1_n_n 25 rfl rfl).symm]
  refine Finset.sum_congr rfl fun k _ => ?_
  have hk := contrEquiv1_symm_val dot_S8192x25_S25x25_S8192x25_1_0_0_1_n_n 25 rfl rfl k
  have el : dot_S8192x25_S25x25_S8192x25_1_0_0_1_n_n.lhsIdx (ix2 r j) ((contrEquiv1 dot_S8192x25_S25x25_S8192x25_1_0_0_1_n_n 25 rfl rfl).symm k) = ix2 r k :=
    funext fun a => Fin.ext (by
      match a with
      | ⟨0, _⟩ => exact lhs_row_0 _ _
      | ⟨1, _⟩ => exact (lhs_row_1 _ _).trans hk)
  have er : dot_S8192x25_S25x25_S8192x25_1_0_0_1_n_n.rhsIdx (ix2 r j) ((contrEquiv1 dot_S8192x25_S25x25_S8192x25_1_0_0_1_n_n 25 rfl rfl).symm k) = ix2 k j :=
    funext fun a => Fin.ext (by
      match a with
      | ⟨0, _⟩ => exact (rhs_row_0 _ _).trans hk
      | ⟨1, _⟩ => exact rhs_row_1 _ _)
  rw [el, er]

/-! ## The sum over the lanes -/

/-- The sum over axis 1 from the zero word, at row `r`, is the sum of the row's 25 lanes. -/
theorem lane_sum (src : FVec Ideal S8192x25 .f32) (h : S8192x25.Reduces [1] S8192) (hφ : FKind.Formats .f32)
    (hacc : (0x00000000#32 : BitVec 32) = 0x00000000#32) (r : Fin 8192) :
    multiReduction (F := Ideal) .add [1] S8192 src 0x00000000#32 h hφ hacc (ix1 r) = ∑ k : Fin 25, src (ix2 r k) := by
  refine (Ideal.multiReduction_add_single src 0x00000000#32 h hφ hacc (ix1 r)).trans ?_
  refine Finset.sum_congr rfl fun k _ => congrArg src ?_
  exact funext fun a => Fin.ext (by match a with | ⟨0, _⟩ => rfl | ⟨1, _⟩ => rfl)

/-! ## The stored block at a row -/

/-- When row `r`'s two cell words are the words of `k0` and `k1`, the stored value at row `r` is the table's entry
    `(k0, k1)`. -/
theorem pay1_cells (e : Vec Ideal S8192x2 .f32) (mnr mxr : Vec Ideal S1x2 .f32) (tab : Vec Ideal S25x25 .f32)
    (r : Fin 8192) (k0 k1 : Fin 25)
    (h0 : Cert.Spec.cell (e (ix2 r 0)) (mnr (ix2 0 0)) (mxr (ix2 0 0)) = BitVec.ofNat 32 k0.val)
    (h1 : Cert.Spec.cell (e (ix2 r 1)) (mnr (ix2 0 1)) (mxr (ix2 0 1)) = BitVec.ofNat 32 k1.val) :
    k1_pay1 (F := Ideal) e mnr mxr tab (ix2 r 0) = tab (ix2 k0 k1) := by
  unfold k1_pay1
  refine (shapeCast_a_a1_apply _ _ r 0).trans ?_
  refine (lane_sum _ _ _ _ r).trans ?_
  refine Eq.trans (Finset.sum_congr rfl fun j _ => ?_) (Cert.Spec.pick_eq (fun a b => tab (ix2 a b)) k0 k1)
  refine (mulf_apply _ _ _).trans ?_
  refine congrArg₂ (· * ·) ?_ ?_
  · refine (matmul_row _ _ r j).trans ?_
    refine Finset.sum_congr rfl fun k _ => ?_
    refine congrArg₂ (· * ·) ?_ ?_
    · refine (onehot_apply _ _ _ _ r k).trans ?_
      refine congrArg (fun w => if BitVec.ofNat 32 k.val = w then (1 : EReal) else 0) ?_
      refine (slice2_axis1_apply 0 _ _ r 0 0 rfl).trans ?_
      exact (cellWord_apply e mnr mxr _ _ _ r 0).trans h0
    · exact congrFun (shapeCast_self tab _) (ix2 k j)
  · refine (onehot_apply _ _ _ _ r j).trans ?_
    refine congrArg (fun w => if BitVec.ofNat 32 j.val = w then (1 : EReal) else 0) ?_
    refine (slice2_axis1_apply 1 _ _ r 0 1 rfl).trans ?_
    exact (cellWord_apply e mnr mxr _ _ _ r 1).trans h1

end Cert.KernelIdeal.Hand

end
-- ==== Proof.KI.Value1.lean ====
/-
  From the look-up region's blocks to its result array, at the ideal instance. Block t of the encoded pairs is rows
  8192 t … 8192 t + 8191 of the array; the two extrema rows and the 25x25 table are read whole at every point. At row r of
  block t the payload is the table's entry at the row's two cell numbers, which is the specification's result for row
  n = 8192 t + r; the 256 blocks of 8192 rows cover the 2097152 rows, row n in the block of point n / 8192. So the
  result array after the region is the specification's.
-/
import proofs.«120400_j53171695125388_1_alg».proof.Proof.KI.Region1
import proofs.«120400_j53171695125388_1_alg».proof.Proof.KI.Pay1
import proofs.«120400_j53171695125388_1_alg».proof.Proof.Spec
import proofs.«120400_j53171695125388_1_alg».proof.Proof.SpecMath
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

section Blocks
variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The printed index maps over the 256 grid points: the encoded pairs and the result move one block of rows per point,
    the two extrema rows and the table stay at block (0, 0). -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem points1 : cfg1.N = 256 := by decide

/-- The four input blocks at point t, at their literal types. -/
abbrev eblk (c : Dev nD) (t : Fin cfg1.N) : Vec F S8192x2 .f32 := iblk1 V c 0 t
abbrev mnblk (c : Dev nD) (t : Fin cfg1.N) : Vec F S1x2 .f32 := iblk1 V c 1 t
abbrev mxblk (c : Dev nD) (t : Fin cfg1.N) : Vec F S1x2 .f32 := iblk1 V c 2 t
abbrev tabblk (c : Dev nD) (t : Fin cfg1.N) : Vec F S25x25 .f32 := iblk1 V c 3 t

/-- Block t of the encoded pairs is rows 8192 t … 8192 t + 8191 of the array. -/
theorem eblk_apply (c : Dev nD) (t : Fin cfg1.N) (r : Fin 8192) (d : Fin 2) (n : Fin 2097152) (hn : n.val = 8192 * t.val + r.val) :
    eblk V c t (ix2 r d) = (V c main_v7_0 : S2097152x2.Idx → Elt F .f32) (ix2 n d) := by
  obtain ⟨e0, e1, -⟩ := index_maps1 t
  unfold eblk iblk1
  rw [View.read_apply]
  show V c main_v7_0 _ = V c main_v7_0 _
  congr 1
  funext a
  apply Fin.ext
  match a with
  | ⟨0, _⟩ => show win1_0.index t 0 * 8192 + 1 * r.val = n.val; rw [e0, hn]; omega
  | ⟨1, _⟩ => show win1_0.index t 1 * 2 + 1 * d.val = d.val; rw [e1]; omega

/-- The minimum row's block is the whole row at every point. -/
theorem mnblk_apply (c : Dev nD) (t : Fin cfg1.N) (a0 : Fin 1) (d : Fin 2) :
    mnblk V c t (ix2 a0 d) = (V c main_v7_1 : S1x2.Idx → Elt F .f32) (ix2 a0 d) := by
  obtain ⟨-, -, e0, e1, -⟩ := index_maps1 t
  unfold mnblk iblk1
  rw [View.read_apply]
  show V c main_v7_1 _ = V c main_v7_1 _
  congr 1
  funext a
  apply Fin.ext
  match a with
  | ⟨0, _⟩ => show win1_1.index t 0 * 1 + 1 * a0.val = a0.val; rw [e0]; omega
  | ⟨1, _⟩ => show win1_1.index t 1 * 2 + 1 * d.val = d.val; rw [e1]; omega

/-- The maximum row's block is the whole row at every point. -/
theorem mxblk_apply (c : Dev nD) (t : Fin cfg1.N) (a0 : Fin 1) (d : Fin 2) :
    mxblk V c t (ix2 a0 d) = (V c main_v7_2 : S1x2.Idx → Elt F .f32) (ix2 a0 d) := by
  obtain ⟨-, -, -, -, e0, e1, -⟩ := index_maps1 t
  unfold mxblk iblk1
  rw [View.read_apply]
  show V c main_v7_2 _ = V c main_v7_2 _
  congr 1
  funext a
  apply Fin.ext
  match a with
  | ⟨0, _⟩ => show win1_2.index t 0 * 1 + 1 * a0.val = a0.val; rw [e0]; omega
  | ⟨1, _⟩ => show win1_2.index t 1 * 2 + 1 * d.val = d.val; rw [e1]; omega

/-- The table's block is the whole table at every point. -/
theorem tabblk_apply (c : Dev nD) (t : Fin cfg1.N) (k0 k1 : Fin 25) :
    tabblk V c t (ix2 k0 k1) = (V c main_v6 : S25x25.Idx → Elt F .f32) (ix2 k0 k1) := by
  obtain ⟨-, -, -, -, -, -, e0, e1, -⟩ := index_maps1 t
  unfold tabblk iblk1
  rw [View.read_apply]
  show V c main_v6 _ = V c main_v6 _
  congr 1
  funext a
  apply Fin.ext
  match a with
  | ⟨0, _⟩ => show win1_3.index t 0 * 25 + 1 * k0.val = k0.val; rw [e0]; omega
  | ⟨1, _⟩ => show win1_3.index t 1 * 25 + 1 * k1.val = k1.val; rw [e1]; omega

end Blocks

section Result
open Cert.Spec (R)
variable (x : Cert.Spec.SRx32.Idx → EReal) (W1 : Cert.Spec.S20x32.Idx → EReal) (b1 : Cert.Spec.S20.Idx → EReal)
  (W2 : Cert.Spec.S5x20.Idx → EReal) (b2 : Cert.Spec.S5.Idx → EReal)
  (W3 : Cert.Spec.S2x5.Idx → EReal) (b3 : Cert.Spec.S2.Idx → EReal) (bm : Cert.Spec.S625.Idx → EReal)

/-- One row of one block: when the block of encoded pairs is rows of E, the two rows are the batch extrema and the
    table is the 625 entries laid out 25 by 25, the payload at row r is the specification's result for that row. -/
theorem row_value (hG : Cert.Spec.Good x W1 b1 W2 b2 W3 b3 bm)
    (e : Vec Ideal S8192x2 .f32) (mnr mxr : Vec Ideal S1x2 .f32) (tab : Vec Ideal S25x25 .f32) (r : Fin 8192) (n : Fin R)
    (he : ∀ d : Fin 2, e (ix2 r d) = Cert.Spec.E x W1 b1 W2 b2 W3 b3 n d)
    (hmn : ∀ d : Fin 2, mnr (ix2 0 d) = Cert.Spec.mn x W1 b1 W2 b2 W3 b3 d)
    (hmx : ∀ d : Fin 2, mxr (ix2 0 d) = Cert.Spec.mx x W1 b1 W2 b2 W3 b3 d)
    (htab : ∀ k0 k1 : Fin 25, tab (ix2 k0 k1) = bm (ix1 ⟨k0.val * 25 + k1.val, by omega⟩)) :
    k1_pay1 (F := Ideal) e mnr mxr tab (ix2 r 0) = Cert.Spec.Y x W1 b1 W2 b2 W3 b3 bm n := by
  have h0 : Cert.Spec.cell (e (ix2 r 0)) (mnr (ix2 0 0)) (mxr (ix2 0 0)) = BitVec.ofNat 32 (Cert.Spec.cix x W1 b1 W2 b2 W3 b3 n 0).val := by
    rw [he 0, hmn 0, hmx 0]; exact Cert.Spec.cell_eq x W1 b1 W2 b2 W3 b3 bm hG n 0
  have h1 : Cert.Spec.cell (e (ix2 r 1)) (mnr (ix2 0 1)) (mxr (ix2 0 1)) = BitVec.ofNat 32 (Cert.Spec.cix x W1 b1 W2 b2 W3 b3 n 1).val := by
    rw [he 1, hmn 1, hmx 1]; exact Cert.Spec.cell_eq x W1 b1 W2 b2 W3 b3 bm hG n 1
  refine (pay1_cells e mnr mxr tab r _ _ h0 h1).trans ?_
  rw [htab]
  rfl

end Result

section Final
open Cert.Spec (R)
variable (V : (c : Dev nD) → (b : Ref sig .tc) → Buf (Elt Ideal) ((c : Thread nD τ).loc b))
variable (x : Cert.Spec.SRx32.Idx → EReal) (W1 : Cert.Spec.S20x32.Idx → EReal) (b1 : Cert.Spec.S20.Idx → EReal)
  (W2 : Cert.Spec.S5x20.Idx → EReal) (b2 : Cert.Spec.S5.Idx → EReal)
  (W3 : Cert.Spec.S2x5.Idx → EReal) (b3 : Cert.Spec.S2.Idx → EReal) (bm : Cert.Spec.S625.Idx → EReal)

/-- What point t writes back is block t of the specification's result array. -/
theorem flushed1_4_eq (c : Dev nD) (hG : Cert.Spec.Good x W1 b1 W2 b2 W3 b3 bm)
    (hE : V c main_v7_0 = Cert.Spec.Earr x W1 b1 W2 b2 W3 b3) (hmn : V c main_v7_1 = Cert.Spec.mnArr x W1 b1 W2 b2 W3 b3)
    (hmx : V c main_v7_2 = Cert.Spec.mxArr x W1 b1 W2 b2 W3 b3)
    (htab : ∀ k0 k1 : Fin 25, V c main_v6 (ix2 k0 k1) = bm (ix1 ⟨k0.val * 25 + k1.val, by omega⟩)) (t : Fin cfg1.N) :
    (dat1 (F := Ideal) V c).flushed 4 t = ((cfg1.win 4).blk t).view.read (Elt Ideal) (Cert.Spec.Yarr x W1 b1 W2 b2 W3 b3 bm) := by
  show (cfg1.win 4).cut (grid1.coords t) ((dat1 V c).after 4 t) = _
  rw [after1_4]
  unfold out1_4
  rw [View.canon_unit_zero zero_offsets]
  simp only [View.ld_unit_zero (S := S8192x2) zero_offsets, View.ld_unit_zero (S := S1x2) zero_offsets, View.ld_unit_zero (S := S25x25) zero_offsets]
  obtain ⟨-, -, -, -, -, -, -, -, o0, o1⟩ := index_maps1 t
  funext j
  have hj0 : (j 0).val < 8192 := (j 0).isLt
  have hj1 : (j 1).val < 1 := (j 1).isLt
  have ht : t.val < 256 := lt_of_lt_of_eq t.isLt points1
  have hn : 8192 * t.val + (j 0).val < 2097152 := by omega
  have hl : (cfg1.win 4).xinj (grid1.coords t) j = (ix2 (⟨(j 0).val, hj0⟩ : Fin 8192) (0 : Fin 1) : S8192x1.Idx) := by
    funext a; apply Fin.ext
    match a with
    | ⟨0, _⟩ => rfl
    | ⟨1, _⟩ => show (j 1).val = 0; omega
  have hr : (((cfg1.win 4).blk t).view.emb j) 0 = (⟨8192 * t.val + (j 0).val, hn⟩ : Fin R) := by
    apply Fin.ext
    show win1_4.index t 0 * 8192 + 1 * (j 0).val = 8192 * t.val + (j 0).val
    rw [o0]; omega
  show k1_pay1 (F := Ideal) (eblk V c t) (mnblk V c t) (mxblk V c t) (tabblk V c t) ((cfg1.win 4).xinj (grid1.coords t) j)
    = Cert.Spec.Yarr x W1 b1 W2 b2 W3 b3 bm (((cfg1.win 4).blk t).view.emb j)
  refine (congrArg (k1_pay1 (F := Ideal) (eblk V c t) (mnblk V c t) (mxblk V c t) (tabblk V c t)) hl).trans ?_
  refine (row_value x W1 b1 W2 b2 W3 b3 bm hG (eblk V c t) (mnblk V c t) (mxblk V c t) (tabblk V c t) ⟨(j 0).val, hj0⟩
    ⟨8192 * t.val + (j 0).val, hn⟩ ?_ ?_ ?_ ?_).trans ?_
  · intro d
    rw [eblk_apply V c t ⟨(j 0).val, hj0⟩ d ⟨8192 * t.val + (j 0).val, hn⟩ rfl, hE]; rfl
  · intro d
    rw [mnblk_apply V c t 0 d, hmn]; rfl
  · intro d
    rw [mxblk_apply V c t 0 d, hmx]; rfl
  · intro k0 k1
    rw [tabblk_apply V c t k0 k1]; exact htab k0 k1
  · show Cert.Spec.Y x W1 b1 W2 b2 W3 b3 bm _ = Cert.Spec.Y x W1 b1 W2 b2 W3 b3 bm ((((cfg1.win 4).blk t).view.emb j) 0)
    rw [hr]

/-- Every row of the result array is in the block of the point (row / 8192). -/
theorem covered1_4 (i : S2097152x1.Idx) :
    ∃ t : Fin cfg1.N, (cfg1.win 4).flush t = true ∧ i ∈ ((cfg1.win 4).blk t).view.set := by
  have hi0 : (i 0).val < 2097152 := (i 0).isLt
  have hi1 : (i 1).val < 1 := (i 1).isLt
  have hlt : (i 0).val / 8192 < cfg1.N := by rw [points1]; omega
  obtain ⟨-, -, -, -, -, -, -, -, o0, o1⟩ := index_maps1 ⟨(i 0).val / 8192, hlt⟩
  have o0' : win1_4.index ⟨(i 0).val / 8192, hlt⟩ (0 : Fin 2) = (i 0).val / 8192 := o0
  refine ⟨⟨(i 0).val / 8192, hlt⟩, flush1_4 _, ?_⟩
  show i ∈ ((View.whole main_v8).slice (win1_4.rect ⟨(i 0).val / 8192, hlt⟩)).set
  rw [View.set_slice_whole, Rect.mem_set_unit]
  intro a
  match a with
  | ⟨0, _⟩ =>
    show win1_4.index ⟨(i 0).val / 8192, hlt⟩ 0 * 8192 ≤ (i 0).val ∧ (i 0).val < win1_4.index ⟨(i 0).val / 8192, hlt⟩ 0 * 8192 + 8192
    rw [o0']; omega
  | ⟨1, _⟩ =>
    show win1_4.index ⟨(i 0).val / 8192, hlt⟩ 1 * 1 ≤ (i 1).val ∧ (i 1).val < win1_4.index ⟨(i 0).val / 8192, hlt⟩ 1 * 1 + 1
    rw [o1]; omega

/-- The result array after the look-up region is the specification's. -/
theorem final1_4 (c : Dev nD) (hG : Cert.Spec.Good x W1 b1 W2 b2 W3 b3 bm)
    (hE : V c main_v7_0 = Cert.Spec.Earr x W1 b1 W2 b2 W3 b3) (hmn : V c main_v7_1 = Cert.Spec.mnArr x W1 b1 W2 b2 W3 b3)
    (hmx : V c main_v7_2 = Cert.Spec.mxArr x W1 b1 W2 b2 W3 b3)
    (htab : ∀ k0 k1 : Fin 25, V c main_v6 (ix2 k0 k1) = bm (ix1 ⟨k0.val * 25 + k1.val, by omega⟩)) :
    (dat1 (F := Ideal) V c).arrAt 4 cfg1.N = Cert.Spec.Yarr x W1 b1 W2 b2 W3 b3 bm :=
  (dat1 (F := Ideal) V c).arrAt_eq_of_cover 4 (Cert.Spec.Yarr x W1 b1 W2 b2 W3 b3 bm)
    (fun t _ => flushed1_4_eq V x W1 b1 W2 b2 W3 b3 bm c hG hE hmn hmx htab t) covered1_4

end Final

end Cert.KernelIdeal.Hand
end
-- ==== Proof.KI.Glue.lean ====
/-
  The idealized kernel program's result, read from its run: the host operations hand the encoder region the
  transposed weights and the biases as rows; the encoder region leaves the encoded pairs and their batch minimum and
  maximum; the look-up region, entered from those and from the table reshaped to 25 x 25, leaves the specification's
  result column.
-/
import proofs.«120400_j53171695125388_1_alg».proof.Proof.KI.Run
import proofs.«120400_j53171695125388_1_alg».proof.Proof.KI.Value0
import proofs.«120400_j53171695125388_1_alg».proof.Proof.KI.Value1
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What the host operations hand the encoder region -/

theorem V1_arg0 (c : Dev nD) : V1 m ρ c main_arg0 = m ((c : Thread nD τ).loc main_arg0) := by
  show StableHlo.after hostOps0 (fun b => m (c, b)) (Proc.devRef .tc main_arg0) = _
  after_results <;> rfl
theorem V1_v0 (c : Dev nD) : V1 m ρ c main_v0 = transpose S32x20 [1, 0] (m ((c : Thread nD τ).loc main_arg1)) Facts₀.transposes_S20x32_S32x20_1_0 := by
  show StableHlo.after hostOps0 (fun b => m (c, b)) (Proc.devRef .tc main_v0) = _
  after_results <;> rfl
theorem V1_v1 (c : Dev nD) : V1 m ρ c main_v1 = transpose S20x5 [1, 0] (m ((c : Thread nD τ).loc main_arg3)) Facts₀.transposes_S5x20_S20x5_1_0 := by
  show StableHlo.after hostOps0 (fun b => m (c, b)) (Proc.devRef .tc main_v1) = _
  after_results <;> rfl
theorem V1_v2 (c : Dev nD) : V1 m ρ c main_v2 = transpose S5x2 [1, 0] (m ((c : Thread nD τ).loc main_arg5)) Facts₀.transposes_S2x5_S5x2_1_0 := by
  show StableHlo.after hostOps0 (fun b => m (c, b)) (Proc.devRef .tc main_v2) = _
  after_results <;> rfl
theorem V1_v3 (c : Dev nD) : V1 m ρ c main_v3 = shapeCast S1x20 (m ((c : Thread nD τ).loc main_arg2)) Facts₀.shapeCasts_S20_S1x20 := by
  show StableHlo.after hostOps0 (fun b => m (c, b)) (Proc.devRef .tc main_v3) = _
  after_results <;> rfl
theorem V1_v4 (c : Dev nD) : V1 m ρ c main_v4 = shapeCast S1x5 (m ((c : Thread nD τ).loc main_arg4)) Facts₀.shapeCasts_S5_S1x5 := by
  show StableHlo.after hostOps0 (fun b => m (c, b)) (Proc.devRef .tc main_v4) = _
  after_results <;> rfl
theorem V1_v5 (c : Dev nD) : V1 m ρ c main_v5 = shapeCast S1x2 (m ((c : Thread nD τ).loc main_arg6)) Facts₀.shapeCasts_S2_S1x2 := by
  show StableHlo.after hostOps0 (fun b => m (c, b)) (Proc.devRef .tc main_v5) = _
  after_results <;> rfl
theorem V1_v6 (c : Dev nD) : V1 m ρ c main_v6 = shapeCast S25x25 (m ((c : Thread nD τ).loc main_arg7)) Facts₀.shapeCasts_S625_S25x25 := by
  show StableHlo.after hostOps0 (fun b => m (c, b)) (Proc.devRef .tc main_v6) = _
  after_results <;> rfl

/-- A vector as the one row of a matrix: the row's entry `j` is the vector's. -/
theorem row_apply {n : ℕ} (b : (⟨1, ![n]⟩ : Shape).Idx → EReal) (h : (⟨1, ![n]⟩ : Shape).ShapeCasts ⟨2, ![1, n]⟩) (j : Fin n) :
    shapeCast ⟨2, ![1, n]⟩ b h (ix2 0 j) = b (ix1 j) :=
  shapeCast_apply b h _ _ (by
    rw [Shape.rowMajor_val_two, Shape.rowMajor_val_one]
    show j.val = 0 * n + j.val
    omega)

/-- The 625 table entries as 25 rows of 25: entry (k0, k1) is entry 25 · k0 + k1. -/
theorem table_apply (b : S625.Idx → EReal) (h : S625.ShapeCasts S25x25) (k0 k1 : Fin 25) :
    shapeCast S25x25 b h (ix2 k0 k1) = b (ix1 ⟨k0.val * 25 + k1.val, by omega⟩) :=
  shapeCast_apply b h _ _ (by
    rw [Shape.rowMajor_val_two, Shape.rowMajor_val_one]
    show k0.val * 25 + k1.val = k0.val * 25 + k1.val
    rfl)

/-! ## The result -/

/-- The result buffer's final contents are the specification's result column, when the inputs are real and neither encoded
    coordinate is constant over the batch. -/
theorem final_v8 (c : Dev nD)
    (hG : Cert.Spec.Good (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    (dat1 (F := Ideal) (V2 m ρ) c).arrAt 4 cfg1.N = Cert.Spec.Yarr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hx := V1_arg0 m ρ c
  have hW1 : ∀ (i : Fin 32) (j : Fin 20), V1 m ρ c main_v0 (ix2 i j) = (m ((c : Thread nD τ).loc main_arg1)) (ix2 j i) := fun i j => by
    rw [V1_v0]; exact transpose_ix2_apply _ _ i j
  have hb1 : ∀ j : Fin 20, V1 m ρ c main_v3 (ix2 0 j) = (m ((c : Thread nD τ).loc main_arg2)) (ix1 j) := fun j => by rw [V1_v3]; exact row_apply _ _ j
  have hW2 : ∀ (j : Fin 20) (k : Fin 5), V1 m ρ c main_v1 (ix2 j k) = (m ((c : Thread nD τ).loc main_arg3)) (ix2 k j) := fun j k => by
    rw [V1_v1]; exact transpose_ix2_apply _ _ j k
  have hb2 : ∀ k : Fin 5, V1 m ρ c main_v4 (ix2 0 k) = (m ((c : Thread nD τ).loc main_arg4)) (ix1 k) := fun k => by rw [V1_v4]; exact row_apply _ _ k
  have hW3 : ∀ (k : Fin 5) (d : Fin 2), V1 m ρ c main_v2 (ix2 k d) = (m ((c : Thread nD τ).loc main_arg5)) (ix2 d k) := fun k d => by
    rw [V1_v2]; exact transpose_ix2_apply _ _ k d
  have hb3 : ∀ d : Fin 2, V1 m ρ c main_v5 (ix2 0 d) = (m ((c : Thread nD τ).loc main_arg6)) (ix1 d) := fun d => by rw [V1_v5]; exact row_apply _ _ d
  have hE : V2 m ρ c main_v7_0 = Cert.Spec.Earr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (W2_arr m ρ c 7).trans (final0_7 (V1 m ρ) c _ _ _ _ _ _ _ hx hW1 hb1 hW2 hb2 hW3 hb3)
  have hmn : V2 m ρ c main_v7_1 = Cert.Spec.mnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (W2_arr m ρ c 8).trans (final0_8 (V1 m ρ) c _ _ _ _ _ _ _ hx hW1 hb1 hW2 hb2 hW3 hb3)
  have hmx : V2 m ρ c main_v7_2 = Cert.Spec.mxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (W2_arr m ρ c 9).trans (final0_9 (V1 m ρ) c _ _ _ _ _ _ _ hx hW1 hb1 hW2 hb2 hW3 hb3)
  have htab : ∀ k0 k1 : Fin 25, V2 m ρ c main_v6 (ix2 k0 k1) = (m ((c : Thread nD τ).loc main_arg7)) (ix1 ⟨k0.val * 25 + k1.val, by omega⟩) := fun k0 k1 => by
    rw [show V2 m ρ c main_v6 = V1 m ρ c main_v6 from W2_of_ne m ρ c main_v6 (by decide), V1_v6]; exact table_apply _ _ k0 k1
  exact final1_4 (V2 m ρ) _ _ _ _ _ _ _ _ c hG hE hmn hmx htab

end Cert.KernelIdeal.Hand

end
-- ==== Proof.Ref.Term.lean ====
/-
  The reference program's result as ONE pure term of its eight argument arrays, at any float instance, cut into the
  stages the mathematics has: the encoded pairs, their batch minimum and maximum as rows, the two cell numbers of
  every row, the flat table index, the guarded table look-up, the result column.
-/
import proofs.«120400_j53171695125388_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- A bias vector laid along the rows of a batch: [k] → [1, k] → [R, k]. -/
abbrev biasRows20 (b : FVec F S20 .f32) : FVec F S2097152x20 .f32 :=
  broadcastInDim S2097152x20 ![0, 1] bcast_S1x20_S2097152x20_0_1 (broadcastInDim S1x20 ![1] bcast_S20_S1x20_1 b)
abbrev biasRows5 (b : FVec F S5 .f32) : FVec F S2097152x5 .f32 :=
  broadcastInDim S2097152x5 ![0, 1] bcast_S1x5_S2097152x5_0_1 (broadcastInDim S1x5 ![1] bcast_S5_S1x5_1 b)
abbrev biasRows2 (b : FVec F S2 .f32) : FVec F S2097152x2 .f32 :=
  broadcastInDim S2097152x2 ![0, 1] bcast_S1x2_S2097152x2_0_1 (broadcastInDim S1x2 ![1] bcast_S2_S1x2_1 b)

/-- The encoded pairs [R, 2]: three affine layers, tanh after each. -/
def refE (x : FVec F S2097152x32 .f32) (W1 : FVec F S20x32 .f32) (b1 : FVec F S20 .f32) (W2 : FVec F S5x20 .f32) (b2 : FVec F S5 .f32)
    (W3 : FVec F S2x5 .f32) (b3 : FVec F S2 .f32) : FVec F S2097152x2 .f32 :=
  Host.tanh (addf (Host.dotGeneral dot_S2097152x5_S5x2_S2097152x2_1_0_0_1_n_n none
      (Host.tanh (addf (Host.dotGeneral dot_S2097152x20_S20x5_S2097152x5_1_0_0_1_n_n none
          (Host.tanh (addf (Host.dotGeneral dot_S2097152x32_S32x20_S2097152x20_1_0_0_1_n_n none x
              (transpose S32x20 [1, 0] W1 transposes_S20x32_S32x20_1_0)) (biasRows20 b1)))
          (transpose S20x5 [1, 0] W2 transposes_S5x20_S20x5_1_0)) (biasRows5 b2)))
      (transpose S5x2 [1, 0] W3 transposes_S2x5_S5x2_1_0)) (biasRows2 b3))

/-- The batch minimum and maximum of each coordinate, as rows [1, 2]. -/
def refMn (e : FVec F S2097152x2 .f32) : FVec F S1x2 .f32 :=
  broadcastInDim S1x2 ![1] bcast_S2_S1x2_1 (Host.reduce FloatOps.minimumf e (constant S_ .f32 0x7F800000#32) reducesTo_S2097152x2_S2_d0 h_S_)
def refMx (e : FVec F S2097152x2 .f32) : FVec F S1x2 .f32 :=
  broadcastInDim S1x2 ![1] bcast_S2_S1x2_1 (Host.reduce FloatOps.maximumf e (constant S_ .f32 0xFF800000#32) reducesTo_S2097152x2_S2_d0 h_S_)

/-- The two cell numbers of every row [R, 2], as 32-bit words. -/
def refCells (e : FVec F S2097152x2 .f32) : IVec S2097152x2 32 :=
  fptosi 32 (Host.floor (Host.divf
    (addf (mulf (Host.divf (subf e (broadcastInDim S2097152x2 ![0, 1] bcast_S1x2_S2097152x2_0_1 (refMn e)))
          (broadcastInDim S2097152x2 ![0, 1] bcast_S1x2_S2097152x2_0_1 (subf (refMx e) (refMn e))))
        (broadcastInDim S2097152x2 ![] bcast_S_S2097152x2 (constant S_ .f32 0x3F7AE148#32)))
      (broadcastInDim S2097152x2 ![] bcast_S_S2097152x2 (constant S_ .f32 0x3C23D70A#32)))
    (broadcastInDim S2097152x2 ![] bcast_S_S2097152x2 (constant S_ .f32 0x3D23D70A#32))))

/-- The flat table index of every row [R]: 25 · (first cell) + (second cell), in 32-bit arithmetic. -/
def refFlat (cells : IVec S2097152x2 32) : IVec S2097152 32 :=
  addi (muli (shapeCast S2097152 (extractStridedSlice S2097152x1 ![0, 0] cells slices_S2097152x2_S2097152x1_0_0) shapeCasts_S2097152x1_S2097152)
      (broadcastInDim S2097152 ![] bcast_S_S2097152 (constantI S_ 32 25#32)))
    (shapeCast S2097152 (extractStridedSlice S2097152x1 ![0, 1] cells slices_S2097152x2_S2097152x1_0_1) shapeCasts_S2097152x1_S2097152)

/-- The index a negative one wraps to, as a column [R, 1]. -/
def refWrap (idx : IVec S2097152 32) : IVec S2097152x1 32 :=
  broadcastInDim S2097152x1 ![0] bcast_S2097152_S2097152x1_0
    (select (cmpi .slt idx (broadcastInDim S2097152 ![] bcast_S_S2097152 (constantI S_ 32 0#32)))
      (addi idx (broadcastInDim S2097152 ![] bcast_S_S2097152 (constantI S_ 32 625#32))) idx)

/-- The guarded look-up [R]: the table's entry where the wrapped index lies in 0 … 624, the fill pattern elsewhere. -/
def refTake (bm : FVec F S625 .f32) (idx : IVec S2097152 32) : FVec F S2097152 .f32 :=
  select
    (Host.reduce IntOp.andi
      (andi (cmpi .sge (refWrap idx) (broadcastInDim S2097152x1 ![] bcast_S_S2097152x1 (constantI S_ 32 0#32)))
        (cmpi .sle (refWrap idx) (broadcastInDim S2097152x1 ![0, 1] bcast_S1x1_S2097152x1_0_1 (broadcastInDim S1x1 ![1] bcast_S1_S1x1_1 (constantI S1 32 624#32)))))
      (constantI S_ 1 1#1) reducesTo_S2097152x1_S2097152_d1 h_S_)
    (Host.gather gather_S625_S2097152x1_S2097152_n_0_n_n_0_1_1 bm (refWrap idx))
    (broadcastInDim S2097152 ![] bcast_S_S2097152 (constant S_ .f32 0x7FC00000#32))

/-- The reference's result [R, 1]. -/
def refOut (x : FVec F S2097152x32 .f32) (W1 : FVec F S20x32 .f32) (b1 : FVec F S20 .f32) (W2 : FVec F S5x20 .f32) (b2 : FVec F S5 .f32)
    (W3 : FVec F S2x5 .f32) (b3 : FVec F S2 .f32) (bm : FVec F S625 .f32) : FVec F S2097152x1 .f32 :=
  broadcastInDim S2097152x1 ![0] bcast_S2097152_S2097152x1_0 (refTake bm (refFlat (refCells (refE x W1 b1 W2 b2 W3 b3))))

end Cert.ReferenceIdeal.Hand

end
-- ==== Proof.Ref.Run.lean ====
/-
  The reference program's run read back: its @main as ONE straight line of host operations (the two module-local
  functions it calls unfolded at their call sites over the call's buffers), every weakly fair execution of which
  terminates with the result buffer at the pure term `refOut` of the eight argument arrays, the arguments unchanged.
  The fold of the line at the result buffer is read stretch by stretch — the encoded pairs, their minimum and maximum
  rows, the cell numbers, the flat index, the wrapped index, the guarded look-up and its column — each stretch over
  arbitrary contents, then joined.
-/
import proofs.«120400_j53171695125388_1_alg».proof.Proof.Ref.Term
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's seventy-one operations, in order: its own forty-eight up to the flat index, the look-up function's
    twenty-two over the call's buffers (the selection function's one select among them, seventh), the result's broadcast. -/
abbrev ops : List (HloOp τ sig (Elt F)) :=
  [
    unary main_arg1 main_v0 ((transpose S32x20 [1, 0] · transposes_S20x32_S32x20_1_0) : (⟨S20x32, .f32⟩ : BufTy).Contents (Elt F) → (⟨S32x20, .f32⟩ : BufTy).Contents (Elt F)),
    binary main_arg0 main_v0 main_v1 ((fun l r => Host.dotGeneral dot_S2097152x32_S32x20_S2097152x20_1_0_0_1_n_n none l r) : (⟨S2097152x32, .f32⟩ : BufTy).Contents (Elt F) → (⟨S32x20, .f32⟩ : BufTy).Contents (Elt F) → (⟨S2097152x20, .f32⟩ : BufTy).Contents (Elt F)),
    unary main_arg2 main_v2 (broadcastInDim S1x20 ![1] bcast_S20_S1x20_1 : (⟨S20, .f32⟩ : BufTy).Contents (Elt F) → (⟨S1x20, .f32⟩ : BufTy).Contents (Elt F)),
    unary main_v2 main_v3 (broadcastInDim S2097152x20 ![0, 1] bcast_S1x20_S2097152x20_0_1 : (⟨S1x20, .f32⟩ : BufTy).Contents (Elt F) → (⟨S2097152x20, .f32⟩ : BufTy).Contents (Elt F)),
    binary main_v1 main_v3 main_v4 (addf : (⟨S2097152x20, .f32⟩ : BufTy).Contents (Elt F) → (⟨S2097152x20, .f32⟩ : BufTy).Contents (Elt F) → (⟨S2097152x20, .f32⟩ : BufTy).Contents (Elt F)),
    unary main_v4 main_v5 (Host.tanh : (⟨S2097152x20, .f32⟩ : BufTy).Contents (Elt F) → (⟨S2097152x20, .f32⟩ : BufTy).Contents (Elt F)),
    unary main_arg3 main_v6 ((transpose S20x5 [1, 0] · transposes_S5x20_S20x5_1_0) : (⟨S5x20, .f32⟩ : BufTy).Contents (Elt F) → (⟨S20x5, .f32⟩ : BufTy).Contents (Elt F)),
    binary main_v5 main_v6 main_v7 ((fun l r => Host.dotGeneral dot_S2097152x20_S20x5_S2097152x5_1_0_0_1_n_n none l r) : (⟨S2097152x20, .f32⟩ : BufTy).Contents (Elt F) → (⟨S20x5, .f32⟩ : BufTy).Contents (Elt F) → (⟨S2097152x5, .f32⟩ : BufTy).Contents (Elt F)),
    unary main_arg4 main_v8 (broadcastInDim S1x5 ![1] bcast_S5_S1x5_1 : (⟨S5, .f32⟩ : BufTy).Contents (Elt F) → (⟨S1x5, .f32⟩ : BufTy).Contents (Elt F)),
    unary main_v8 main_v9 (broadcastInDim S2097152x5 ![0, 1] bcast_S1x5_S2097152x5_0_1 : (⟨S1x5, .f32⟩ : BufTy).Contents (Elt F) → (⟨S2097152x5, .f32⟩ : BufTy).Contents (Elt F)),
    binary main_v7 main_v9 main_v10 (addf : (⟨S2097152x5, .f32⟩ : BufTy).Contents (Elt F) → (⟨S2097152x5, .f32⟩ : BufTy).Contents (Elt F) → (⟨S2097152x5, .f32⟩ : BufTy).Contents (Elt F)),
    unary main_v10 main_v11 (Host.tanh : (⟨S2097152x5, .f32⟩ : BufTy).Contents (Elt F) → (⟨S2097152x5, .f32⟩ : BufTy).Contents (Elt F)),
    unary main_arg5 main_v12 ((transpose S5x2 [1, 0] · transposes_S2x5_S5x2_1_0) : (⟨S2x5, .f32⟩ : BufTy).Contents (Elt F) → (⟨S5x2, .f32⟩ : BufTy).Contents (Elt F)),
    binary main_v11 main_v12 main_v13 ((fun l r => Host.dotGeneral dot_S2097152x5_S5x2_S2097152x2_1_0_0_1_n_n none l r) : (⟨S2097152x5, .f32⟩ : BufTy).Contents (Elt F) → (⟨S5x2, .f32⟩ : BufTy).Contents (Elt F) → (⟨S2097152x2, .f32⟩ : BufTy).Contents (Elt F)),
    unary main_arg6 main_v14 (broadcastInDim S1x2 ![1] bcast_S2_S1x2_1 : (⟨S2, .f32⟩ : BufTy).Contents (Elt F) → (⟨S1x2, .f32⟩ : BufTy).Contents (Elt F)),
    unary main_v14 main_v15 (broadcastInDim S2097152x2 ![0, 1] bcast_S1x2_S2097152x2_0_1 : (⟨S1x2, .f32⟩ : BufTy).Contents (Elt F) → (⟨S2097152x2, .f32⟩ : BufTy).Contents (Elt F)),
    binary main_v13 main_v15 main_v16 (addf : (⟨S2097152x2, .f32⟩ : BufTy).Contents (Elt F) → (⟨S2097152x2, .f32⟩ : BufTy).Contents (Elt F) → (⟨S2097152x2, .f32⟩ : BufTy).Contents (Elt F)),
    unary main_v16 main_v17 (Host.tanh : (⟨S2097152x2, .f32⟩ : BufTy).Contents (Elt F) → (⟨S2097152x2, .f32⟩ : BufTy).Contents (Elt F)),
    nullary main_cst (constant S_ .f32 0x7F800000#32),
    binary main_v17 main_cst main_v18 ((fun x v => Host.reduce FloatOps.minimumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    unary main_v18 main_v19 (broadcastInDim S1x2 ![1] bcast_S2_S1x2_1 : (⟨S2, .f32⟩ : BufTy).Contents (Elt F) → (⟨S1x2, .f32⟩ : BufTy).Contents (Elt F)),
    nullary main_cst_0 (constant S_ .f32 0xFF800000#32),
    binary main_v17 main_cst_0 main_v20 ((fun x v => Host.reduce FloatOps.maximumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    unary main_v20 main_v21 (broadcastInDim S1x2 ![1] bcast_S2_S1x2_1 : (⟨S2, .f32⟩ : BufTy).Contents (Elt F) → (⟨S1x2, .f32⟩ : BufTy).Contents (Elt F)),
    unary main_v19 main_v22 (broadcastInDim S2097152x2 ![0, 1] bcast_S1x2_S2097152x2_0_1 : (⟨S1x2, .f32⟩ : BufTy).Contents (Elt F) → (⟨S2097152x2, .f32⟩ : BufTy).Contents (Elt F)),
    binary main_v17 main_v22 main_v23 (subf : (⟨S2097152x2, .f32⟩ : BufTy).Contents (Elt F) → (⟨S2097152x2, .f32⟩ : BufTy).Contents (Elt F) → (⟨S2097152x2, .f32⟩ : BufTy).Contents (Elt F)),
    binary main_v21 main_v19 main_v24 (subf : (⟨S1x2, .f32⟩ : BufTy).Contents (Elt F) → (⟨S1x2, .f32⟩ : BufTy).Contents (Elt F) → (⟨S1x2, .f32⟩ : BufTy).Contents (Elt F)),
    unary main_v24 main_v25 (broadcastInDim S2097152x2 ![0, 1] bcast_S1x2_S2097152x2_0_1 : (⟨S1x2, .f32⟩ : BufTy).Contents (Elt F) → (⟨S2097152x2, .f32⟩ : BufTy).Contents (Elt F)),
    binary main_v23 main_v25 main_v26 (Host.divf : (⟨S2097152x2, .f32⟩ : BufTy).Contents (Elt F) → (⟨S2097152x2, .f32⟩ : BufTy).Contents (Elt F) → (⟨S2097152x2, .f32⟩ : BufTy).Contents (Elt F)),
    nullary main_cst_1 (constant S_ .f32 0x3F7AE148#32),
    unary main_cst_1 main_v27 (broadcastInDim S2097152x2 ![] bcast_S_S2097152x2 : (⟨S_, .f32⟩ : BufTy).Contents (Elt F) → (⟨S2097152x2, .f32⟩ : BufTy).Contents (Elt F)),
    binary main_v26 main_v27 main_v28 (mulf : (⟨S2097152x2, .f32⟩ : BufTy).Contents (Elt F) → (⟨S2097152x2, .f32⟩ : BufTy).Contents (Elt F) → (⟨S2097152x2, .f32⟩ : BufTy).Contents (Elt F)),
    nullary main_cst_2 (constant S_ .f32 0x3C23D70A#32),
    unary main_cst_2 main_v29 (broadcastInDim S2097152x2 ![] bcast_S_S2097152x2 : (⟨S_, .f32⟩ : BufTy).Contents (Elt F) → (⟨S2097152x2, .f32⟩ : BufTy).Contents (Elt F)),
    binary main_v28 main_v29 main_v30 (addf : (⟨S2097152x2, .f32⟩ : BufTy).Contents (Elt F) → (⟨S2097152x2, .f32⟩ : BufTy).Contents (Elt F) → (⟨S2097152x2, .f32⟩ : BufTy).Contents (Elt F)),
    nullary main_cst_3 (constant S_ .f32 0x3D23D70A#32),
    unary main_cst_3 main_v31 (broadcastInDim S2097152x2 ![] bcast_S_S2097152x2 : (⟨S_, .f32⟩ : BufTy).Contents (Elt F) → (⟨S2097152x2, .f32⟩ : BufTy).Contents (Elt F)),
    binary main_v30 main_v31 main_v32 (Host.divf : (⟨S2097152x2, .f32⟩ : BufTy).Contents (Elt F) → (⟨S2097152x2, .f32⟩ : BufTy).Contents (Elt F) → (⟨S2097152x2, .f32⟩ : BufTy).Contents (Elt F)),
    unary main_v32 main_v33 (Host.floor : (⟨S2097152x2, .f32⟩ : BufTy).Contents (Elt F) → (⟨S2097152x2, .f32⟩ : BufTy).Contents (Elt F)),
    unary main_v33 main_v34 (fptosi 32 : (⟨S2097152x2, .f32⟩ : BufTy).Contents (Elt F) → (⟨S2097152x2, .i32⟩ : BufTy).Contents (Elt F)),
    unary main_v34 main_v35 ((extractStridedSlice S2097152x1 ![0, 0] · slices_S2097152x2_S2097152x1_0_0) : (⟨S2097152x2, .i32⟩ : BufTy).Contents (Elt F) → (⟨S2097152x1, .i32⟩ : BufTy).Contents (Elt F)),
    reshape main_v35 main_v36 rfl shapeCasts_S2097152x1_S2097152,
    nullary main_c (constantI S_ 32 25#32),
    unary main_c main_v37 (broadcastInDim S2097152 ![] bcast_S_S2097152 : (⟨S_, .i32⟩ : BufTy).Contents (Elt F) → (⟨S2097152, .i32⟩ : BufTy).Contents (Elt F)),
    binary main_v36 main_v37 main_v38 (muli : (⟨S2097152, .i32⟩ : BufTy).Contents (Elt F) → (⟨S2097152, .i32⟩ : BufTy).Contents (Elt F) → (⟨S2097152, .i32⟩ : BufTy).Contents (Elt F)),
    unary main_v34 main_v39 ((extractStridedSlice S2097152x1 ![0, 1] · slices_S2097152x2_S2097152x1_0_1) : (⟨S2097152x2, .i32⟩ : BufTy).Contents (Elt F) → (⟨S2097152x1, .i32⟩ : BufTy).Contents (Elt F)),
    reshape main_v39 main_v40 rfl shapeCasts_S2097152x1_S2097152,
    binary main_v38 main_v40 main_v41 (addi : (⟨S2097152, .i32⟩ : BufTy).Contents (Elt F) → (⟨S2097152, .i32⟩ : BufTy).Contents (Elt F) → (⟨S2097152, .i32⟩ : BufTy).Contents (Elt F)),
    TRef.nullary main_call0.c (constantI S_ 32 0#32),
    TRef.unary main_call0.c main_call0.v0 (broadcastInDim S2097152 ![] bcast_S_S2097152),
    TRef.binary (.of main_v41) main_call0.v0 main_call0.v1 (cmpi .slt),
    TRef.nullary main_call0.c_0 (constantI S_ 32 625#32),
    TRef.unary main_call0.c_0 main_call0.v2 (broadcastInDim S2097152 ![] bcast_S_S2097152),
    TRef.binary (.of main_v41) main_call0.v2 main_call0.v3 addi,
    TRef.ternary main_call0.v1 main_call0.v3 (.of main_v41) main_call0.call0.v0 select,
    TRef.unary main_call0.call0.v0 main_call0.v5 (broadcastInDim S2097152x1 ![0] bcast_S2097152_S2097152x1_0),
    TRef.nullary main_call0.c_1 (constantI S1 32 624#32),
    TRef.nullary main_call0.c_2 (constantI S_ 32 0#32),
    TRef.unary main_call0.c_2 main_call0.v6 (broadcastInDim S2097152x1 ![] bcast_S_S2097152x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2097152x1 ![0, 1] bcast_S1x1_S2097152x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2097152x1_S2097152_d1 h_S_),
    TRef.binary (.of main_arg7) main_call0.v5 main_call0.v13 (fun x i => Host.gather gather_S625_S2097152x1_S2097152_n_0_n_n_0_1_1 x i),
    TRef.nullary main_call0.cst (constant S_ .f32 0x7FC00000#32),
    TRef.unary main_call0.cst main_call0.v14 (broadcastInDim S2097152 ![] bcast_S_S2097152),
    TRef.ternary main_call0.v12 main_call0.v13 main_call0.v14 main_call0.v15 select,
    unary main_v42 main_v43 (broadcastInDim S2097152x1 ![0] bcast_S2097152_S2097152x1_0 : (⟨S2097152, .f32⟩ : BufTy).Contents (Elt F) → (⟨S2097152x1, .f32⟩ : BufTy).Contents (Elt F)) ]

/-- @main is that straight line: sequencing computes through the two functions' bodies at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    nullary_bufs_sub .., binary_bufs_sub .., unary_bufs_sub .., nullary_bufs_sub .., binary_bufs_sub .., unary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., reshape_bufs_sub ..,
    nullary_bufs_sub .., unary_bufs_sub .., binary_bufs_sub .., unary_bufs_sub .., reshape_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub ..⟩

/-! ## The line in seven stretches -/

/-- Operations 1 to 18. -/
def opsA : List (HloOp τ sig (Elt F)) :=
  [
    unary main_arg1 main_v0 ((transpose S32x20 [1, 0] · transposes_S20x32_S32x20_1_0) : (⟨S20x32, .f32⟩ : BufTy).Contents (Elt F) → (⟨S32x20, .f32⟩ : BufTy).Contents (Elt F)),
    binary main_arg0 main_v0 main_v1 ((fun l r => Host.dotGeneral dot_S2097152x32_S32x20_S2097152x20_1_0_0_1_n_n none l r) : (⟨S2097152x32, .f32⟩ : BufTy).Contents (Elt F) → (⟨S32x20, .f32⟩ : BufTy).Contents (Elt F) → (⟨S2097152x20, .f32⟩ : BufTy).Contents (Elt F)),
    unary main_arg2 main_v2 (broadcastInDim S1x20 ![1] bcast_S20_S1x20_1 : (⟨S20, .f32⟩ : BufTy).Contents (Elt F) → (⟨S1x20, .f32⟩ : BufTy).Contents (Elt F)),
    unary main_v2 main_v3 (broadcastInDim S2097152x20 ![0, 1] bcast_S1x20_S2097152x20_0_1 : (⟨S1x20, .f32⟩ : BufTy).Contents (Elt F) → (⟨S2097152x20, .f32⟩ : BufTy).Contents (Elt F)),
    binary main_v1 main_v3 main_v4 (addf : (⟨S2097152x20, .f32⟩ : BufTy).Contents (Elt F) → (⟨S2097152x20, .f32⟩ : BufTy).Contents (Elt F) → (⟨S2097152x20, .f32⟩ : BufTy).Contents (Elt F)),
    unary main_v4 main_v5 (Host.tanh : (⟨S2097152x20, .f32⟩ : BufTy).Contents (Elt F) → (⟨S2097152x20, .f32⟩ : BufTy).Contents (Elt F)),
    unary main_arg3 main_v6 ((transpose S20x5 [1, 0] · transposes_S5x20_S20x5_1_0) : (⟨S5x20, .f32⟩ : BufTy).Contents (Elt F) → (⟨S20x5, .f32⟩ : BufTy).Contents (Elt F)),
    binary main_v5 main_v6 main_v7 ((fun l r => Host.dotGeneral dot_S2097152x20_S20x5_S2097152x5_1_0_0_1_n_n none l r) : (⟨S2097152x20, .f32⟩ : BufTy).Contents (Elt F) → (⟨S20x5, .f32⟩ : BufTy).Contents (Elt F) → (⟨S2097152x5, .f32⟩ : BufTy).Contents (Elt F)),
    unary main_arg4 main_v8 (broadcastInDim S1x5 ![1] bcast_S5_S1x5_1 : (⟨S5, .f32⟩ : BufTy).Contents (Elt F) → (⟨S1x5, .f32⟩ : BufTy).Contents (Elt F)),
    unary main_v8 main_v9 (broadcastInDim S2097152x5 ![0, 1] bcast_S1x5_S2097152x5_0_1 : (⟨S1x5, .f32⟩ : BufTy).Contents (Elt F) → (⟨S2097152x5, .f32⟩ : BufTy).Contents (Elt F)),
    binary main_v7 main_v9 main_v10 (addf : (⟨S2097152x5, .f32⟩ : BufTy).Contents (Elt F) → (⟨S2097152x5, .f32⟩ : BufTy).Contents (Elt F) → (⟨S2097152x5, .f32⟩ : BufTy).Contents (Elt F)),
    unary main_v10 main_v11 (Host.tanh : (⟨S2097152x5, .f32⟩ : BufTy).Contents (Elt F) → (⟨S2097152x5, .f32⟩ : BufTy).Contents (Elt F)),
    unary main_arg5 main_v12 ((transpose S5x2 [1, 0] · transposes_S2x5_S5x2_1_0) : (⟨S2x5, .f32⟩ : BufTy).Contents (Elt F) → (⟨S5x2, .f32⟩ : BufTy).Contents (Elt F)),
    binary main_v11 main_v12 main_v13 ((fun l r => Host.dotGeneral dot_S2097152x5_S5x2_S2097152x2_1_0_0_1_n_n none l r) : (⟨S2097152x5, .f32⟩ : BufTy).Contents (Elt F) → (⟨S5x2, .f32⟩ : BufTy).Contents (Elt F) → (⟨S2097152x2, .f32⟩ : BufTy).Contents (Elt F)),
    unary main_arg6 main_v14 (broadcastInDim S1x2 ![1] bcast_S2_S1x2_1 : (⟨S2, .f32⟩ : BufTy).Contents (Elt F) → (⟨S1x2, .f32⟩ : BufTy).Contents (Elt F)),
    unary main_v14 main_v15 (broadcastInDim S2097152x2 ![0, 1] bcast_S1x2_S2097152x2_0_1 : (⟨S1x2, .f32⟩ : BufTy).Contents (Elt F) → (⟨S2097152x2, .f32⟩ : BufTy).Contents (Elt F)),
    binary main_v13 main_v15 main_v16 (addf : (⟨S2097152x2, .f32⟩ : BufTy).Contents (Elt F) → (⟨S2097152x2, .f32⟩ : BufTy).Contents (Elt F) → (⟨S2097152x2, .f32⟩ : BufTy).Contents (Elt F)),
    unary main_v16 main_v17 (Host.tanh : (⟨S2097152x2, .f32⟩ : BufTy).Contents (Elt F) → (⟨S2097152x2, .f32⟩ : BufTy).Contents (Elt F)) ]

/-- Operations 19 to 24. -/
def opsB : List (HloOp τ sig (Elt F)) :=
  [
    nullary main_cst (constant S_ .f32 0x7F800000#32),
    binary main_v17 main_cst main_v18 ((fun x v => Host.reduce FloatOps.minimumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    unary main_v18 main_v19 (broadcastInDim S1x2 ![1] bcast_S2_S1x2_1 : (⟨S2, .f32⟩ : BufTy).Contents (Elt F) → (⟨S1x2, .f32⟩ : BufTy).Contents (Elt F)),
    nullary main_cst_0 (constant S_ .f32 0xFF800000#32),
    binary main_v17 main_cst_0 main_v20 ((fun x v => Host.reduce FloatOps.maximumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    unary main_v20 main_v21 (broadcastInDim S1x2 ![1] bcast_S2_S1x2_1 : (⟨S2, .f32⟩ : BufTy).Contents (Elt F) → (⟨S1x2, .f32⟩ : BufTy).Contents (Elt F)) ]

/-- Operations 25 to 40. -/
def opsC : List (HloOp τ sig (Elt F)) :=
  [
    unary main_v19 main_v22 (broadcastInDim S2097152x2 ![0, 1] bcast_S1x2_S2097152x2_0_1 : (⟨S1x2, .f32⟩ : BufTy).Contents (Elt F) → (⟨S2097152x2, .f32⟩ : BufTy).Contents (Elt F)),
    binary main_v17 main_v22 main_v23 (subf : (⟨S2097152x2, .f32⟩ : BufTy).Contents (Elt F) → (⟨S2097152x2, .f32⟩ : BufTy).Contents (Elt F) → (⟨S2097152x2, .f32⟩ : BufTy).Contents (Elt F)),
    binary main_v21 main_v19 main_v24 (subf : (⟨S1x2, .f32⟩ : BufTy).Contents (Elt F) → (⟨S1x2, .f32⟩ : BufTy).Contents (Elt F) → (⟨S1x2, .f32⟩ : BufTy).Contents (Elt F)),
    unary main_v24 main_v25 (broadcastInDim S2097152x2 ![0, 1] bcast_S1x2_S2097152x2_0_1 : (⟨S1x2, .f32⟩ : BufTy).Contents (Elt F) → (⟨S2097152x2, .f32⟩ : BufTy).Contents (Elt F)),
    binary main_v23 main_v25 main_v26 (Host.divf : (⟨S2097152x2, .f32⟩ : BufTy).Contents (Elt F) → (⟨S2097152x2, .f32⟩ : BufTy).Contents (Elt F) → (⟨S2097152x2, .f32⟩ : BufTy).Contents (Elt F)),
    nullary main_cst_1 (constant S_ .f32 0x3F7AE148#32),
    unary main_cst_1 main_v27 (broadcastInDim S2097152x2 ![] bcast_S_S2097152x2 : (⟨S_, .f32⟩ : BufTy).Contents (Elt F) → (⟨S2097152x2, .f32⟩ : BufTy).Contents (Elt F)),
    binary main_v26 main_v27 main_v28 (mulf : (⟨S2097152x2, .f32⟩ : BufTy).Contents (Elt F) → (⟨S2097152x2, .f32⟩ : BufTy).Contents (Elt F) → (⟨S2097152x2, .f32⟩ : BufTy).Contents (Elt F)),
    nullary main_cst_2 (constant S_ .f32 0x3C23D70A#32),
    unary main_cst_2 main_v29 (broadcastInDim S2097152x2 ![] bcast_S_S2097152x2 : (⟨S_, .f32⟩ : BufTy).Contents (Elt F) → (⟨S2097152x2, .f32⟩ : BufTy).Contents (Elt F)),
    binary main_v28 main_v29 main_v30 (addf : (⟨S2097152x2, .f32⟩ : BufTy).Contents (Elt F) → (⟨S2097152x2, .f32⟩ : BufTy).Contents (Elt F) → (⟨S2097152x2, .f32⟩ : BufTy).Contents (Elt F)),
    nullary main_cst_3 (constant S_ .f32 0x3D23D70A#32),
    unary main_cst_3 main_v31 (broadcastInDim S2097152x2 ![] bcast_S_S2097152x2 : (⟨S_, .f32⟩ : BufTy).Contents (Elt F) → (⟨S2097152x2, .f32⟩ : BufTy).Contents (Elt F)),
    binary main_v30 main_v31 main_v32 (Host.divf : (⟨S2097152x2, .f32⟩ : BufTy).Contents (Elt F) → (⟨S2097152x2, .f32⟩ : BufTy).Contents (Elt F) → (⟨S2097152x2, .f32⟩ : BufTy).Contents (Elt F)),
    unary main_v32 main_v33 (Host.floor : (⟨S2097152x2, .f32⟩ : BufTy).Contents (Elt F) → (⟨S2097152x2, .f32⟩ : BufTy).Contents (Elt F)),
    unary main_v33 main_v34 (fptosi 32 : (⟨S2097152x2, .f32⟩ : BufTy).Contents (Elt F) → (⟨S2097152x2, .i32⟩ : BufTy).Contents (Elt F)) ]

/-- Operations 41 to 48. -/
def opsD : List (HloOp τ sig (Elt F)) :=
  [
    unary main_v34 main_v35 ((extractStridedSlice S2097152x1 ![0, 0] · slices_S2097152x2_S2097152x1_0_0) : (⟨S2097152x2, .i32⟩ : BufTy).Contents (Elt F) → (⟨S2097152x1, .i32⟩ : BufTy).Contents (Elt F)),
    reshape main_v35 main_v36 rfl shapeCasts_S2097152x1_S2097152,
    nullary main_c (constantI S_ 32 25#32),
    unary main_c main_v37 (broadcastInDim S2097152 ![] bcast_S_S2097152 : (⟨S_, .i32⟩ : BufTy).Contents (Elt F) → (⟨S2097152, .i32⟩ : BufTy).Contents (Elt F)),
    binary main_v36 main_v37 main_v38 (muli : (⟨S2097152, .i32⟩ : BufTy).Contents (Elt F) → (⟨S2097152, .i32⟩ : BufTy).Contents (Elt F) → (⟨S2097152, .i32⟩ : BufTy).Contents (Elt F)),
    unary main_v34 main_v39 ((extractStridedSlice S2097152x1 ![0, 1] · slices_S2097152x2_S2097152x1_0_1) : (⟨S2097152x2, .i32⟩ : BufTy).Contents (Elt F) → (⟨S2097152x1, .i32⟩ : BufTy).Contents (Elt F)),
    reshape main_v39 main_v40 rfl shapeCasts_S2097152x1_S2097152,
    binary main_v38 main_v40 main_v41 (addi : (⟨S2097152, .i32⟩ : BufTy).Contents (Elt F) → (⟨S2097152, .i32⟩ : BufTy).Contents (Elt F) → (⟨S2097152, .i32⟩ : BufTy).Contents (Elt F)) ]

/-- Operations 49 to 56. -/
def opsE : List (HloOp τ sig (Elt F)) :=
  [
    TRef.nullary main_call0.c (constantI S_ 32 0#32),
    TRef.unary main_call0.c main_call0.v0 (broadcastInDim S2097152 ![] bcast_S_S2097152),
    TRef.binary (.of main_v41) main_call0.v0 main_call0.v1 (cmpi .slt),
    TRef.nullary main_call0.c_0 (constantI S_ 32 625#32),
    TRef.unary main_call0.c_0 main_call0.v2 (broadcastInDim S2097152 ![] bcast_S_S2097152),
    TRef.binary (.of main_v41) main_call0.v2 main_call0.v3 addi,
    TRef.ternary main_call0.v1 main_call0.v3 (.of main_v41) main_call0.call0.v0 select,
    TRef.unary main_call0.call0.v0 main_call0.v5 (broadcastInDim S2097152x1 ![0] bcast_S2097152_S2097152x1_0) ]

/-- Operations 57 to 66. -/
def opsG1 : List (HloOp τ sig (Elt F)) :=
  [
    TRef.nullary main_call0.c_1 (constantI S1 32 624#32),
    TRef.nullary main_call0.c_2 (constantI S_ 32 0#32),
    TRef.unary main_call0.c_2 main_call0.v6 (broadcastInDim S2097152x1 ![] bcast_S_S2097152x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2097152x1 ![0, 1] bcast_S1x1_S2097152x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2097152x1_S2097152_d1 h_S_) ]

/-- Operations 67 to 71. -/
def opsG2 : List (HloOp τ sig (Elt F)) :=
  [
    TRef.binary (.of main_arg7) main_call0.v5 main_call0.v13 (fun x i => Host.gather gather_S625_S2097152x1_S2097152_n_0_n_n_0_1_1 x i),
    TRef.nullary main_call0.cst (constant S_ .f32 0x7FC00000#32),
    TRef.unary main_call0.cst main_call0.v14 (broadcastInDim S2097152 ![] bcast_S_S2097152),
    TRef.ternary main_call0.v12 main_call0.v13 main_call0.v14 main_call0.v15 select,
    unary main_v42 main_v43 (broadcastInDim S2097152x1 ![0] bcast_S2097152_S2097152x1_0 : (⟨S2097152, .f32⟩ : BufTy).Contents (Elt F) → (⟨S2097152x1, .f32⟩ : BufTy).Contents (Elt F)) ]

theorem ops_split : (ops : List (HloOp τ sig (Elt F))) = opsA ++ (opsB ++ (opsC ++ (opsD ++ (opsE ++ (opsG1 ++ opsG2))))) := rfl

/-- The cell numbers as a function of the pairs and of their minimum and maximum rows. -/
def cellsOf (e : FVec F S2097152x2 .f32) (mn mx : FVec F S1x2 .f32) : IVec S2097152x2 32 :=
  fptosi 32 (Host.floor (Host.divf
    (addf (mulf (Host.divf (subf e (broadcastInDim S2097152x2 ![0, 1] bcast_S1x2_S2097152x2_0_1 mn))
          (broadcastInDim S2097152x2 ![0, 1] bcast_S1x2_S2097152x2_0_1 (subf mx mn)))
        (broadcastInDim S2097152x2 ![] bcast_S_S2097152x2 (constant S_ .f32 0x3F7AE148#32)))
      (broadcastInDim S2097152x2 ![] bcast_S_S2097152x2 (constant S_ .f32 0x3C23D70A#32)))
    (broadcastInDim S2097152x2 ![] bcast_S_S2097152x2 (constant S_ .f32 0x3D23D70A#32))))

theorem refCells_eq (e : FVec F S2097152x2 .f32) : refCells e = cellsOf e (refMn e) (refMx e) := rfl

/-- Which rows' wrapped index lies in 0 … 624. -/
def maskOf (w : IVec S2097152x1 32) : IVec S2097152 1 :=
  Host.reduce IntOp.andi
    (andi (cmpi .sge w (broadcastInDim S2097152x1 ![] bcast_S_S2097152x1 (constantI S_ 32 0#32)))
      (cmpi .sle w (broadcastInDim S2097152x1 ![0, 1] bcast_S1x1_S2097152x1_0_1 (broadcastInDim S1x1 ![1] bcast_S1_S1x1_1 (constantI S1 32 624#32)))))
    (constantI S_ 1 1#1) reducesTo_S2097152x1_S2097152_d1 h_S_

/-- The guarded look-up as a function of the table, of the wrapped index column and of the rows to keep. -/
def takeOf (bm : FVec F S625 .f32) (w : IVec S2097152x1 32) (mask : IVec S2097152 1) : FVec F S2097152 .f32 :=
  select mask (Host.gather gather_S625_S2097152x1_S2097152_n_0_n_n_0_1_1 bm w)
    (broadcastInDim S2097152 ![] bcast_S_S2097152 (constant S_ .f32 0x7FC00000#32))

theorem refTake_eq (bm : FVec F S625 .f32) (idx : IVec S2097152 32) :
    refTake bm idx = takeOf bm (refWrap idx) (maskOf (refWrap idx)) := rfl

/-! ## Each stretch over arbitrary contents -/

attribute [local irreducible] Host.reduce Host.gather in
/-- The first eighteen operations leave the encoded pairs. -/
theorem stageA_v17 (W : Valuation τ sig (Elt F)) :
    after opsA W (main_v17 : DevRef τ sig) = refE (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) := by
  unfold opsA
  after_results_simp <;> (try simp only [TRef.ofBuf, TRef.toBuf, cast_eq]) <;> rfl

theorem frameA_arg7 (W : Valuation τ sig (Elt F)) :
    after opsA W (main_arg7 : DevRef τ sig) = W (main_arg7 : DevRef τ sig) := by
  unfold opsA
  after_results_simp

attribute [local irreducible] Host.reduce Host.gather in
/-- The next six leave the minimum and the maximum rows, and keep the pairs. -/
theorem stageB_v19 (W : Valuation τ sig (Elt F)) :
    after opsB W (main_v19 : DevRef τ sig) = refMn (W (main_v17 : DevRef τ sig)) := by
  unfold opsB
  after_results_simp <;> (try simp only [TRef.ofBuf, TRef.toBuf, cast_eq]) <;> rfl

attribute [local irreducible] Host.reduce Host.gather in
theorem stageB_v21 (W : Valuation τ sig (Elt F)) :
    after opsB W (main_v21 : DevRef τ sig) = refMx (W (main_v17 : DevRef τ sig)) := by
  unfold opsB
  after_results_simp <;> (try simp only [TRef.ofBuf, TRef.toBuf, cast_eq]) <;> rfl

theorem frameB_v17 (W : Valuation τ sig (Elt F)) :
    after opsB W (main_v17 : DevRef τ sig) = W (main_v17 : DevRef τ sig) := by
  unfold opsB
  after_results_simp

theorem frameB_arg7 (W : Valuation τ sig (Elt F)) :
    after opsB W (main_arg7 : DevRef τ sig) = W (main_arg7 : DevRef τ sig) := by
  unfold opsB
  after_results_simp

attribute [local irreducible] Host.reduce Host.gather in
/-- The next sixteen leave the cell numbers. -/
theorem stageC_v34 (W : Valuation τ sig (Elt F)) :
    after opsC W (main_v34 : DevRef τ sig) = cellsOf (W (main_v17 : DevRef τ sig)) (W (main_v19 : DevRef τ sig)) (W (main_v21 : DevRef τ sig)) := by
  unfold opsC
  after_results_simp <;> (try simp only [TRef.ofBuf, TRef.toBuf, cast_eq]) <;> rfl

theorem frameC_arg7 (W : Valuation τ sig (Elt F)) :
    after opsC W (main_arg7 : DevRef τ sig) = W (main_arg7 : DevRef τ sig) := by
  unfold opsC
  after_results_simp

attribute [local irreducible] Host.reduce Host.gather in
/-- The next eight leave the flat index. -/
theorem stageD_v41 (W : Valuation τ sig (Elt F)) :
    after opsD W (main_v41 : DevRef τ sig) = refFlat (W (main_v34 : DevRef τ sig)) := by
  unfold opsD
  after_results_simp <;> (try simp only [TRef.ofBuf, TRef.toBuf, cast_eq]) <;> rfl

theorem frameD_arg7 (W : Valuation τ sig (Elt F)) :
    after opsD W (main_arg7 : DevRef τ sig) = W (main_arg7 : DevRef τ sig) := by
  unfold opsD
  after_results_simp

attribute [local irreducible] Host.reduce Host.gather in
/-- The look-up function's first eight leave the wrapped index column. -/
theorem stageE_v5 (W : Valuation τ sig (Elt F)) :
    after opsE W (main_call0_v5 : DevRef τ sig) = refWrap (W (main_v41 : DevRef τ sig)) := by
  unfold opsE
  after_results_simp <;> (try simp only [TRef.ofBuf, TRef.toBuf, cast_eq]) <;> rfl

theorem frameE_arg7 (W : Valuation τ sig (Elt F)) :
    after opsE W (main_arg7 : DevRef τ sig) = W (main_arg7 : DevRef τ sig) := by
  unfold opsE
  after_results_simp

attribute [local irreducible] Host.reduce Host.gather in
/-- Its next ten leave the rows to keep, and keep the wrapped index column. -/
theorem stageG1_v12 (W : Valuation τ sig (Elt F)) :
    after opsG1 W (main_call0_v12 : DevRef τ sig) = maskOf (W (main_call0_v5 : DevRef τ sig)) := by
  unfold opsG1
  after_results_simp <;> (try simp only [TRef.ofBuf, TRef.toBuf, cast_eq]) <;> rfl

theorem frameG1_call0_v5 (W : Valuation τ sig (Elt F)) :
    after opsG1 W (main_call0_v5 : DevRef τ sig) = W (main_call0_v5 : DevRef τ sig) := by
  unfold opsG1
  after_results_simp

theorem frameG1_arg7 (W : Valuation τ sig (Elt F)) :
    after opsG1 W (main_arg7 : DevRef τ sig) = W (main_arg7 : DevRef τ sig) := by
  unfold opsG1
  after_results_simp

attribute [local irreducible] Host.reduce Host.gather in
/-- Its last four and the result's broadcast leave the guarded look-up as a column. -/
theorem stageG2_v43 (W : Valuation τ sig (Elt F)) :
    after opsG2 W (main_v43 : DevRef τ sig) = broadcastInDim S2097152x1 ![0] bcast_S2097152_S2097152x1_0
      (takeOf (W (main_arg7 : DevRef τ sig)) (W (main_call0_v5 : DevRef τ sig)) (W (main_call0_v12 : DevRef τ sig))) := by
  unfold opsG2
  after_results_simp <;> (try simp only [TRef.ofBuf, TRef.toBuf, cast_eq]) <;> rfl

/-! ## Joined -/

/-- The fold of the whole line at the result buffer is `refOut` of the argument buffers' contents. -/
theorem out_eq (V : Valuation τ sig (Elt F)) :
    after ops V (main_v43 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, after_append, after_append, after_append, after_append, after_append, after_append]
  rw [stageG2_v43, stageG1_v12, frameG1_call0_v5, frameG1_arg7, stageE_v5, frameE_arg7, stageD_v41, frameD_arg7, stageC_v34, frameC_arg7,
    stageB_v19, stageB_v21, frameB_v17, frameB_arg7, stageA_v17, frameA_arg7]
  rw [← refCells_eq, ← refTake_eq]
  rfl

set_option maxHeartbeats 1600000 in
theorem arg0_eq (V : Valuation τ sig (Elt F)) :
    after ops V (main_arg0 : DevRef τ sig) = V (main_arg0 : DevRef τ sig) := by
  after_results_simp

set_option maxHeartbeats 1600000 in
theorem arg1_eq (V : Valuation τ sig (Elt F)) :
    after ops V (main_arg1 : DevRef τ sig) = V (main_arg1 : DevRef τ sig) := by
  after_results_simp

set_option maxHeartbeats 1600000 in
theorem arg2_eq (V : Valuation τ sig (Elt F)) :
    after ops V (main_arg2 : DevRef τ sig) = V (main_arg2 : DevRef τ sig) := by
  after_results_simp

set_option maxHeartbeats 1600000 in
theorem arg3_eq (V : Valuation τ sig (Elt F)) :
    after ops V (main_arg3 : DevRef τ sig) = V (main_arg3 : DevRef τ sig) := by
  after_results_simp

set_option maxHeartbeats 1600000 in
theorem arg4_eq (V : Valuation τ sig (Elt F)) :
    after ops V (main_arg4 : DevRef τ sig) = V (main_arg4 : DevRef τ sig) := by
  after_results_simp

set_option maxHeartbeats 1600000 in
theorem arg5_eq (V : Valuation τ sig (Elt F)) :
    after ops V (main_arg5 : DevRef τ sig) = V (main_arg5 : DevRef τ sig) := by
  after_results_simp

set_option maxHeartbeats 1600000 in
theorem arg6_eq (V : Valuation τ sig (Elt F)) :
    after ops V (main_arg6 : DevRef τ sig) = V (main_arg6 : DevRef τ sig) := by
  after_results_simp

set_option maxHeartbeats 1600000 in
theorem arg7_eq (V : Valuation τ sig (Elt F)) :
    after ops V (main_arg7 : DevRef τ sig) = V (main_arg7 : DevRef τ sig) := by
  after_results_simp

/-- On the device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.Hand

end
-- ==== Proof.Ref.Value.lean ====
/-
  The reference's result term is the specification, index by index, at the ideal values.

  Each of the three layers is a product read as a finite sum over its one contracted axis, plus a bias laid along
  the rows, under tanh; the batch minimum and maximum are a fold of min from +∞ and of max from -∞ over all rows,
  which are the infimum and the supremum of the column; the cell word is the specification's `cell` of the entry and
  the two extrema, hence (under the precondition) the cell index 0 … 24; the flat index 25 · (first) + (second) is a
  word below 625, so it is not negative, the wrap leaves it as it is, the guard holds in every row, and the gather
  reads the table at that index.
-/
import proofs.«120400_j53171695125388_1_alg».proof.Proof.Ref.Term
import proofs.«120400_j53171695125388_1_alg».proof.Proof.SpecMath
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

open scoped BigOperators

namespace Cert.ReferenceIdeal.Hand

open Cert.ReferenceIdeal Idealize.ShloMosaic Idealize.ShloMosaic.ValueIdx
open Cert.ReferenceIdeal.Facts₀

/-! ## The three products, read at an index -/

abbrev D32 := dot_S2097152x32_S32x20_S2097152x20_1_0_0_1_n_n
abbrev D20 := dot_S2097152x20_S20x5_S2097152x5_1_0_0_1_n_n
abbrev D5 := dot_S2097152x5_S5x2_S2097152x2_1_0_0_1_n_n

local macro "dot_coord" : tactic =>
  `(tactic| (simp [DotDims.lhsIdx, DotDims.rhsIdx, dot_S2097152x32_S32x20_S2097152x20_1_0_0_1_n_n,
      dot_S2097152x20_S20x5_S2097152x5_1_0_0_1_n_n, dot_S2097152x5_S5x2_S2097152x2_1_0_0_1_n_n] <;> rfl))

theorem lhs32_0 (j : S2097152x20.Idx) (k : D32.contr.Idx) : (D32.lhsIdx j k 0 : ℕ) = j 0 := by dot_coord
theorem lhs32_1 (j : S2097152x20.Idx) (k : D32.contr.Idx) : (D32.lhsIdx j k 1 : ℕ) = k ⟨0, by decide⟩ := by dot_coord
theorem rhs32_0 (j : S2097152x20.Idx) (k : D32.contr.Idx) : (D32.rhsIdx j k 0 : ℕ) = k ⟨0, by decide⟩ := by dot_coord
theorem rhs32_1 (j : S2097152x20.Idx) (k : D32.contr.Idx) : (D32.rhsIdx j k 1 : ℕ) = j 1 := by dot_coord
theorem lhs20_0 (j : S2097152x5.Idx) (k : D20.contr.Idx) : (D20.lhsIdx j k 0 : ℕ) = j 0 := by dot_coord
theorem lhs20_1 (j : S2097152x5.Idx) (k : D20.contr.Idx) : (D20.lhsIdx j k 1 : ℕ) = k ⟨0, by decide⟩ := by dot_coord
theorem rhs20_0 (j : S2097152x5.Idx) (k : D20.contr.Idx) : (D20.rhsIdx j k 0 : ℕ) = k ⟨0, by decide⟩ := by dot_coord
theorem rhs20_1 (j : S2097152x5.Idx) (k : D20.contr.Idx) : (D20.rhsIdx j k 1 : ℕ) = j 1 := by dot_coord
theorem lhs5_0 (j : S2097152x2.Idx) (k : D5.contr.Idx) : (D5.lhsIdx j k 0 : ℕ) = j 0 := by dot_coord
theorem lhs5_1 (j : S2097152x2.Idx) (k : D5.contr.Idx) : (D5.lhsIdx j k 1 : ℕ) = k ⟨0, by decide⟩ := by dot_coord
theorem rhs5_0 (j : S2097152x2.Idx) (k : D5.contr.Idx) : (D5.rhsIdx j k 0 : ℕ) = k ⟨0, by decide⟩ := by dot_coord
theorem rhs5_1 (j : S2097152x2.Idx) (k : D5.contr.Idx) : (D5.rhsIdx j k 1 : ℕ) = j 1 := by dot_coord

/-- The first layer's product at row `n`, column `c`: the sum over the 32 inputs. -/
theorem dot32_apply (l : FVec Ideal S2097152x32 .f32) (r : FVec Ideal S32x20 .f32) (n : Fin 2097152) (c : Fin 20) :
    Host.dotGeneral D32 none l r (ix2 n c) = ∑ i : Fin 32, l (ix2 n i) * r (ix2 i c) := by
  show FloatOps.dotGeneral D32 none .single l r (ix2 n c) = _
  rw [Ideal.dotGeneral_apply, ← Equiv.sum_comp (contrEquiv1 D32 32 rfl rfl).symm]
  refine Finset.sum_congr rfl fun i _ => ?_
  congr 2
  · apply Shape.idx_ext₂
    · rw [lhs32_0]
    · rw [lhs32_1]; exact contrEquiv1_symm_val D32 32 rfl rfl i
  · apply Shape.idx_ext₂
    · rw [rhs32_0]; exact contrEquiv1_symm_val D32 32 rfl rfl i
    · rw [rhs32_1]

/-- The second layer's product: the sum over the 20 hidden units. -/
theorem dot20_apply (l : FVec Ideal S2097152x20 .f32) (r : FVec Ideal S20x5 .f32) (n : Fin 2097152) (c : Fin 5) :
    Host.dotGeneral D20 none l r (ix2 n c) = ∑ i : Fin 20, l (ix2 n i) * r (ix2 i c) := by
  show FloatOps.dotGeneral D20 none .single l r (ix2 n c) = _
  rw [Ideal.dotGeneral_apply, ← Equiv.sum_comp (contrEquiv1 D20 20 rfl rfl).symm]
  refine Finset.sum_congr rfl fun i _ => ?_
  congr 2
  · apply Shape.idx_ext₂
    · rw [lhs20_0]
    · rw [lhs20_1]; exact contrEquiv1_symm_val D20 20 rfl rfl i
  · apply Shape.idx_ext₂
    · rw [rhs20_0]; exact contrEquiv1_symm_val D20 20 rfl rfl i
    · rw [rhs20_1]

/-- The third layer's product: the sum over the 5 hidden units. -/
theorem dot5_apply (l : FVec Ideal S2097152x5 .f32) (r : FVec Ideal S5x2 .f32) (n : Fin 2097152) (c : Fin 2) :
    Host.dotGeneral D5 none l r (ix2 n c) = ∑ i : Fin 5, l (ix2 n i) * r (ix2 i c) := by
  show FloatOps.dotGeneral D5 none .single l r (ix2 n c) = _
  rw [Ideal.dotGeneral_apply, ← Equiv.sum_comp (contrEquiv1 D5 5 rfl rfl).symm]
  refine Finset.sum_congr rfl fun i _ => ?_
  congr 2
  · apply Shape.idx_ext₂
    · rw [lhs5_0]
    · rw [lhs5_1]; exact contrEquiv1_symm_val D5 5 rfl rfl i
  · apply Shape.idx_ext₂
    · rw [rhs5_0]; exact contrEquiv1_symm_val D5 5 rfl rfl i
    · rw [rhs5_1]

/-! ## A bias laid along the rows -/

/-- A vector made a one-row matrix and that row laid down `m` rows reads, at (n, c), the vector at c. -/
theorem biasRows_apply {α : Type} {m k : ℕ} (h1 : (⟨1, ![k]⟩ : Shape).BroadcastsInDim ⟨2, ![1, k]⟩ ![1])
    (h2 : (⟨2, ![1, k]⟩ : Shape).BroadcastsInDim ⟨2, ![m, k]⟩ ![0, 1]) (b : (⟨1, ![k]⟩ : Shape).Idx → α) (n : Fin m) (c : Fin k) :
    broadcastInDim ⟨2, ![m, k]⟩ ![0, 1] h2 (broadcastInDim ⟨2, ![1, k]⟩ ![1] h1 b) (ix2 n c) = b (ix1 c) := by
  rw [broadcastInDim_oneRow_apply]
  refine broadcastInDim_apply ![1] h1 b _ (ix1 c) ?_
  intro a
  match a with
  | ⟨0, _⟩ =>
    show c.val = if k = 1 then 0 else c.val
    split_ifs with hk
    · have := c.isLt; omega
    · rfl

/-! ## The three layers -/

theorem layer32_apply (l : FVec Ideal S2097152x32 .f32) (W : FVec Ideal S20x32 .f32) (b : FVec Ideal S20 .f32) (n : Fin 2097152) (c : Fin 20) :
    (Host.tanh (addf (Host.dotGeneral D32 none l (transpose S32x20 [1, 0] W transposes_S20x32_S32x20_1_0)) (biasRows20 b))
      : FVec Ideal S2097152x20 .f32) (ix2 n c) = Ideal.tanh ((∑ i : Fin 32, l (ix2 n i) * W (ix2 c i)) + b (ix1 c)) := by
  show Ideal.tanh (Host.dotGeneral D32 none l (transpose S32x20 [1, 0] W transposes_S20x32_S32x20_1_0) (ix2 n c) + biasRows20 b (ix2 n c)) = _
  rw [dot32_apply, show biasRows20 b (ix2 n c) = b (ix1 c) from biasRows_apply _ _ b n c]
  refine congrArg Ideal.tanh (congrArg (· + b (ix1 c)) (Finset.sum_congr rfl fun i _ => congrArg (l (ix2 n i) * ·) ?_))
  exact transpose_ix2_apply W _ i c

theorem layer20_apply (l : FVec Ideal S2097152x20 .f32) (W : FVec Ideal S5x20 .f32) (b : FVec Ideal S5 .f32) (n : Fin 2097152) (c : Fin 5) :
    (Host.tanh (addf (Host.dotGeneral D20 none l (transpose S20x5 [1, 0] W transposes_S5x20_S20x5_1_0)) (biasRows5 b))
      : FVec Ideal S2097152x5 .f32) (ix2 n c) = Ideal.tanh ((∑ i : Fin 20, l (ix2 n i) * W (ix2 c i)) + b (ix1 c)) := by
  show Ideal.tanh (Host.dotGeneral D20 none l (transpose S20x5 [1, 0] W transposes_S5x20_S20x5_1_0) (ix2 n c) + biasRows5 b (ix2 n c)) = _
  rw [dot20_apply, show biasRows5 b (ix2 n c) = b (ix1 c) from biasRows_apply _ _ b n c]
  refine congrArg Ideal.tanh (congrArg (· + b (ix1 c)) (Finset.sum_congr rfl fun i _ => congrArg (l (ix2 n i) * ·) ?_))
  exact transpose_ix2_apply W _ i c

theorem layer5_apply (l : FVec Ideal S2097152x5 .f32) (W : FVec Ideal S2x5 .f32) (b : FVec Ideal S2 .f32) (n : Fin 2097152) (c : Fin 2) :
    (Host.tanh (addf (Host.dotGeneral D5 none l (transpose S5x2 [1, 0] W transposes_S2x5_S5x2_1_0)) (biasRows2 b))
      : FVec Ideal S2097152x2 .f32) (ix2 n c) = Ideal.tanh ((∑ i : Fin 5, l (ix2 n i) * W (ix2 c i)) + b (ix1 c)) := by
  show Ideal.tanh (Host.dotGeneral D5 none l (transpose S5x2 [1, 0] W transposes_S2x5_S5x2_1_0) (ix2 n c) + biasRows2 b (ix2 n c)) = _
  rw [dot5_apply, show biasRows2 b (ix2 n c) = b (ix1 c) from biasRows_apply _ _ b n c]
  refine congrArg Ideal.tanh (congrArg (· + b (ix1 c)) (Finset.sum_congr rfl fun i _ => congrArg (l (ix2 n i) * ·) ?_))
  exact transpose_ix2_apply W _ i c

/-- The reference's encoded pairs are the specification's. -/
theorem refE_eq (x : FVec Ideal S2097152x32 .f32) (W1 : FVec Ideal S20x32 .f32) (b1 : FVec Ideal S20 .f32) (W2 : FVec Ideal S5x20 .f32)
    (b2 : FVec Ideal S5 .f32) (W3 : FVec Ideal S2x5 .f32) (b3 : FVec Ideal S2 .f32) :
    refE (F := Ideal) x W1 b1 W2 b2 W3 b3 = Cert.Spec.Earr x W1 b1 W2 b2 W3 b3 := by
  funext j
  obtain ⟨n, d, rfl⟩ : ∃ (n : Fin 2097152) (d : Fin 2), j = ix2 n d := ⟨j 0, j 1, eq_ix2 j⟩
  show refE (F := Ideal) x W1 b1 W2 b2 W3 b3 (ix2 n d)
    = Ideal.tanh ((∑ k : Fin 5, Ideal.tanh ((∑ j : Fin 20, Ideal.tanh ((∑ i : Fin 32, x (ix2 n i) * W1 (ix2 j i)) + b1 (ix1 j))
        * W2 (ix2 k j)) + b2 (ix1 k)) * W3 (ix2 d k)) + b3 (ix1 d))
  unfold refE
  rw [layer5_apply]
  refine congrArg Ideal.tanh (congrArg (· + b3 (ix1 d)) (Finset.sum_congr rfl fun k _ => congrArg (· * W3 (ix2 d k)) ?_))
  rw [layer20_apply]
  refine congrArg Ideal.tanh (congrArg (· + b2 (ix1 k)) (Finset.sum_congr rfl fun j _ => congrArg (· * W2 (ix2 k j)) ?_))
  rw [layer32_apply]

/-! ## The batch minimum and maximum -/

/-- Dropping the row axis of an [R, 2] array leaves [2]. -/
theorem reduces_R2 : S2097152x2.Reduces [0] S2 := by decide

/-- Column `d` with row `k` put back is (k, d). -/
theorem lift_R2 (h : S2097152x2.Reduces [0] S2) (d : Fin 2) (k : Fin (S2097152x2.size 0)) :
    h.lift (ix1 d) k = ix2 (⟨k.val, k.isLt⟩ : Fin 2097152) d := by
  funext c; apply Fin.ext
  match c with
  | ⟨0, _⟩ => rfl
  | ⟨1, _⟩ => rfl

/-- The pattern 0x7F800000 denotes +∞, the pattern 0xFF800000 denotes -∞. -/
theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-- A fold of the minimum from +∞ over a finite set is the infimum over it; of the maximum from -∞ the supremum. -/
theorem fold_min_eq_inf {ι : Type} (s : Finset ι) (f : ι → EReal) :
    s.fold (FloatOps.minimumf (F := Ideal) (φ := .f32)) (Ideal.ofBits .f32 0x7F800000#32) f = s.inf f := by
  rw [ofBits_posInf]; rfl
theorem fold_max_eq_sup {ι : Type} (s : Finset ι) (f : ι → EReal) :
    s.fold (FloatOps.maximumf (F := Ideal) (φ := .f32)) (Ideal.ofBits .f32 0xFF800000#32) f = s.sup f := by
  rw [ofBits_negInf]; rfl

/-- The reference's minimum-reduce at column `d` is the infimum of that column. -/
theorem reduceMin_apply (e : FVec Ideal S2097152x2 .f32) (d : Fin 2) :
    Host.reduce FloatOps.minimumf e (constant S_ .f32 0x7F800000#32) reducesTo_S2097152x2_S2_d0 h_S_ (ix1 d)
      = Finset.univ.inf fun n : Fin 2097152 => e (ix2 n d) := by
  rw [Host.reduce_eq_fold_single FloatOps.minimumf e _ reducesTo_S2097152x2_S2_d0 reduces_R2 h_S_]
  have hf : (e ∘ reduces_R2.lift (ix1 d)) = fun k : Fin 2097152 => e (ix2 k d) :=
    funext fun k => congrArg e (lift_R2 reduces_R2 d k)
  rw [hf]
  exact fold_min_eq_inf Finset.univ _

theorem reduceMax_apply (e : FVec Ideal S2097152x2 .f32) (d : Fin 2) :
    Host.reduce FloatOps.maximumf e (constant S_ .f32 0xFF800000#32) reducesTo_S2097152x2_S2_d0 h_S_ (ix1 d)
      = Finset.univ.sup fun n : Fin 2097152 => e (ix2 n d) := by
  rw [Host.reduce_eq_fold_single FloatOps.maximumf e _ reducesTo_S2097152x2_S2_d0 reduces_R2 h_S_]
  have hf : (e ∘ reduces_R2.lift (ix1 d)) = fun k : Fin 2097152 => e (ix2 k d) :=
    funext fun k => congrArg e (lift_R2 reduces_R2 d k)
  rw [hf]
  exact fold_max_eq_sup Finset.univ _

/-- A vector made a one-row matrix reads, at (u, c), the vector at c. -/
theorem oneRow_apply {α : Type} {k : ℕ} (h1 : (⟨1, ![k]⟩ : Shape).BroadcastsInDim ⟨2, ![1, k]⟩ ![1])
    (b : (⟨1, ![k]⟩ : Shape).Idx → α) (u : Fin 1) (c : Fin k) :
    broadcastInDim ⟨2, ![1, k]⟩ ![1] h1 b (ix2 u c) = b (ix1 c) := by
  refine broadcastInDim_apply ![1] h1 b _ (ix1 c) ?_
  intro a
  match a with
  | ⟨0, _⟩ =>
    show c.val = if k = 1 then 0 else c.val
    split_ifs with hk
    · have := c.isLt; omega
    · rfl

theorem refMn_apply (e : FVec Ideal S2097152x2 .f32) (u : Fin 1) (d : Fin 2) :
    refMn (F := Ideal) e (ix2 u d) = Finset.univ.inf fun n : Fin 2097152 => e (ix2 n d) := by
  unfold refMn
  rw [oneRow_apply, reduceMin_apply]

theorem refMx_apply (e : FVec Ideal S2097152x2 .f32) (u : Fin 1) (d : Fin 2) :
    refMx (F := Ideal) e (ix2 u d) = Finset.univ.sup fun n : Fin 2097152 => e (ix2 n d) := by
  unfold refMx
  rw [oneRow_apply, reduceMax_apply]

theorem refMn_eq (e : FVec Ideal S2097152x2 .f32) :
    refMn (F := Ideal) e = fun j => Finset.univ.inf fun n : Fin 2097152 => e (ix2 n (j 1)) := by
  funext j
  obtain ⟨u, d, rfl⟩ : ∃ (u : Fin 1) (d : Fin 2), j = ix2 u d := ⟨j 0, j 1, eq_ix2 j⟩
  exact refMn_apply e u d

theorem refMx_eq (e : FVec Ideal S2097152x2 .f32) :
    refMx (F := Ideal) e = fun j => Finset.univ.sup fun n : Fin 2097152 => e (ix2 n (j 1)) := by
  funext j
  obtain ⟨u, d, rfl⟩ : ∃ (u : Fin 1) (d : Fin 2), j = ix2 u d := ⟨j 0, j 1, eq_ix2 j⟩
  exact refMx_apply e u d

/-! ## The cell numbers -/

/-- Elementwise operations of the host at an index, at the ideal values. -/
theorem hdivf_apply {s : Shape} (X Y : FVec Ideal s .f32) (i : s.Idx) : Host.divf X Y i = Ideal.div (X i) (Y i) := rfl
theorem bconst_apply (b : BitVec 32) (j : S2097152x2.Idx) :
    broadcastInDim S2097152x2 ![] bcast_S_S2097152x2 (constant (F := Ideal) S_ .f32 b) j = Ideal.ofBits .f32 b := rfl

/-- The outer steps of the cell computation at an index: convert, floor, divide by the cell width. -/
theorem refCells_top (e : FVec Ideal S2097152x2 .f32) (n : Fin 2097152) (d : Fin 2) :
    refCells (F := Ideal) e (ix2 n d) = Ideal.fptosi 32 (Ideal.liftRound Int.floor (Ideal.div
      ((addf (mulf (Host.divf (subf e (broadcastInDim S2097152x2 ![0, 1] bcast_S1x2_S2097152x2_0_1 (refMn e)))
          (broadcastInDim S2097152x2 ![0, 1] bcast_S1x2_S2097152x2_0_1 (subf (refMx e) (refMn e))))
        (broadcastInDim S2097152x2 ![] bcast_S_S2097152x2 (constant S_ .f32 0x3F7AE148#32)))
      (broadcastInDim S2097152x2 ![] bcast_S_S2097152x2 (constant S_ .f32 0x3C23D70A#32))) (ix2 n d)) Cert.Spec.c04)) := rfl

/-- The reference's cell word of row `n`, coordinate `d`: the specification's `cell` of the entry and its column's two extrema. -/
theorem refCells_apply' (e : FVec Ideal S2097152x2 .f32) (n : Fin 2097152) (d : Fin 2) :
    refCells (F := Ideal) e (ix2 n d)
      = Cert.Spec.cell (e (ix2 n d)) (Finset.univ.inf fun m : Fin 2097152 => e (ix2 m d))
          (Finset.univ.sup fun m : Fin 2097152 => e (ix2 m d)) := by
  refine (refCells_top e n d).trans ?_
  rw [addf_apply, mulf_apply, hdivf_apply, subf_apply, bconst_apply, bconst_apply, broadcastInDim_oneRow_apply,
    broadcastInDim_oneRow_apply, subf_apply, refMn_apply, refMx_apply]
  rfl

section Inputs
variable (x : FVec Ideal S2097152x32 .f32) (W1 : FVec Ideal S20x32 .f32) (b1 : FVec Ideal S20 .f32) (W2 : FVec Ideal S5x20 .f32)
  (b2 : FVec Ideal S5 .f32) (W3 : FVec Ideal S2x5 .f32) (b3 : FVec Ideal S2 .f32) (bm : FVec Ideal S625 .f32)

/-- Under the precondition the cell word is the cell index 0 … 24. -/
theorem refCells_apply (h : Cert.Spec.Good x W1 b1 W2 b2 W3 b3 bm) (n : Fin 2097152) (d : Fin 2) :
    refCells (F := Ideal) (Cert.Spec.Earr x W1 b1 W2 b2 W3 b3) (ix2 n d)
      = BitVec.ofNat 32 (Cert.Spec.cix x W1 b1 W2 b2 W3 b3 n d).val :=
  (refCells_apply' _ n d).trans (Cert.Spec.cell_eq x W1 b1 W2 b2 W3 b3 bm h n d)

end Inputs

/-! ## The flat index -/

/-- A one-column matrix cast to a vector reads, at `i`, the matrix at (i, 0). -/
theorem shapeCast_col_apply {α : Type} {a : ℕ} (y : (⟨2, ![a, 1]⟩ : Shape).Idx → α)
    (h : (⟨2, ![a, 1]⟩ : Shape).ShapeCasts ⟨1, ![a]⟩) (i : Fin a) :
    shapeCast ⟨1, ![a]⟩ y h (ix1 i) = y (ix2 i (0 : Fin 1)) :=
  shapeCast_apply y h _ _ (by
    rw [Shape.rowMajor_val_two, Shape.rowMajor_val_one]
    show i.val * 1 + 0 = i.val
    omega)

theorem refFlat_apply (cells : IVec S2097152x2 32) (n : Fin 2097152) :
    refFlat cells (ix1 n) = cells (ix2 n 0) * 25#32 + cells (ix2 n 1) := by
  show IntOp.addi (IntOp.muli (shapeCast S2097152 (extractStridedSlice S2097152x1 ![0, 0] cells slices_S2097152x2_S2097152x1_0_0)
        shapeCasts_S2097152x1_S2097152 (ix1 n)) 25#32)
      (shapeCast S2097152 (extractStridedSlice S2097152x1 ![0, 1] cells slices_S2097152x2_S2097152x1_0_1)
        shapeCasts_S2097152x1_S2097152 (ix1 n)) = _
  rw [shapeCast_col_apply, shapeCast_col_apply,
    slice2_axis1_apply 0 cells slices_S2097152x2_S2097152x1_0_0 n 0 0 rfl,
    slice2_axis1_apply 1 cells slices_S2097152x2_S2097152x1_0_1 n 0 1 rfl]
  rfl

/-! ## The guarded look-up -/

/-- A vector made a one-column matrix reads, at (i, u), the vector at i. -/
theorem col_apply {α : Type} {a : ℕ} (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) := by
  refine broadcastInDim_apply ![0] h v _ (ix1 i) ?_
  intro b
  match b with
  | ⟨0, _⟩ =>
    show i.val = if a = 1 then 0 else i.val
    split_ifs with ha
    · have := i.isLt; omega
    · rfl

/-- A word below 625 read as a signed number is itself. -/
theorem toInt_ofNat_lt (v : ℕ) (hv : v < 625) : (BitVec.ofNat 32 v).toInt = (v : ℤ) := by
  rw [BitVec.toInt_eq_toNat_cond, BitVec.toNat_ofNat]
  split <;> omega

/-- The wrapped index of a non-negative word is the word. -/
theorem refWrap_apply (idx : IVec S2097152 32) (n : Fin 2097152) (u : Fin 1) (h0 : 0 ≤ (idx (ix1 n)).toInt) :
    refWrap idx (ix2 n u) = idx (ix1 n) := by
  unfold refWrap
  rw [col_apply]
  show Scalar.select (IntOp.cmpi .slt (idx (ix1 n)) 0#32) (IntOp.addi (idx (ix1 n)) 625#32) (idx (ix1 n)) = _
  have hc : IntOp.cmpi .slt (idx (ix1 n)) 0#32 = 0#1 := eq_zero_of_ne_one (fun hh => by
    have h1 := IntOp.cmpi_slt.mp hh
    have e0 : (0#32 : BitVec 32).toInt = 0 := by decide
    omega)
  rw [hc, select_zero]

/-- A left fold by `and` from 1 over words that are all 1 is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_all_one f l fun n hn => h n (List.mem_cons_of_mem _ hn)

/-- Where every flat index lies in 0 … 624, the guard is 1 at every entry … -/
theorem guard_apply (idx : IVec S2097152 32) (hall : ∀ m, 0 ≤ (idx (ix1 m)).toInt ∧ (idx (ix1 m)).toInt ≤ 624) (i : S2097152x1.Idx) :
    andi (cmpi .sge (refWrap idx) (broadcastInDim S2097152x1 ![] bcast_S_S2097152x1 (constantI S_ 32 0#32)))
      (cmpi .sle (refWrap idx) (broadcastInDim S2097152x1 ![0, 1] bcast_S1x1_S2097152x1_0_1
        (broadcastInDim S1x1 ![1] bcast_S1_S1x1_1 (constantI S1 32 624#32)))) i = 1#1 := by
  obtain ⟨m, u, rfl⟩ : ∃ (m : Fin 2097152) (u : Fin 1), i = ix2 m u := ⟨i 0, i 1, eq_ix2 i⟩
  show IntOp.andi (IntOp.cmpi .sge (refWrap idx (ix2 m u)) 0#32)
      (IntOp.cmpi .sle (refWrap idx (ix2 m u)) (broadcastInDim S2097152x1 ![0, 1] bcast_S1x1_S2097152x1_0_1
        (broadcastInDim S1x1 ![1] bcast_S1_S1x1_1 (constantI S1 32 624#32)) (ix2 m u))) = 1#1
  rw [biasRows_apply, refWrap_apply idx m u (hall m).1]
  have e0 : (0#32 : BitVec 32).toInt = 0 := by decide
  have e624 : (624#32 : BitVec 32).toInt = 624 := by decide
  refine IntOp.andi_eq_one.mpr ⟨IntOp.cmpi_sge.mpr ?_, IntOp.cmpi_sle.mpr ?_⟩
  · rw [e0]; exact (hall m).1
  · show (idx (ix1 m)).toInt ≤ (624#32 : BitVec 32).toInt
    rw [e624]; exact (hall m).2

/-- … and so is its conjunction along each row. -/
theorem guardAll_apply (idx : IVec S2097152 32) (hall : ∀ m, 0 ≤ (idx (ix1 m)).toInt ∧ (idx (ix1 m)).toInt ≤ 624) (n : Fin 2097152) :
    Host.reduce IntOp.andi
      (andi (cmpi .sge (refWrap idx) (broadcastInDim S2097152x1 ![] bcast_S_S2097152x1 (constantI S_ 32 0#32)))
        (cmpi .sle (refWrap idx) (broadcastInDim S2097152x1 ![0, 1] bcast_S1x1_S2097152x1_0_1
          (broadcastInDim S1x1 ![1] bcast_S1_S1x1_1 (constantI S1 32 624#32)))))
      (constantI S_ 1 1#1) reducesTo_S2097152x1_S2097152_d1 h_S_ (ix1 n) = 1#1 := by
  rw [Host.reduce_eq_foldl]
  exact foldl_andi_all_one _ _ fun i _ => guard_apply idx hall i

abbrev G625 := gather_S625_S2097152x1_S2097152_n_0_n_n_0_1_1

/-- The table gathered at a column of start indices reads, at row `n`, the table at the start index of row `n`, read signed
    and clamped into 0 … 624. -/
theorem gather_apply {α : Type} (tab : S625.Idx → α) (w : IVec S2097152x1 32) (n : Fin 2097152) :
    Host.gather G625 tab w (ix1 n) = tab (ix1 ⟨min (w (ix2 n 0)).toInt.toNat 624, by omega⟩) := by
  unfold Host.gather
  congr 1
  funext a
  obtain rfl : a = 0 := Subsingleton.elim _ _
  refine Fin.ext ?_
  show G625.start (ix1 n) w 0 + G625.batchCoord (ix1 n) 0 + G625.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ G625.startIndexMap from List.mem_singleton.mpr rfl)]
  have hsi : G625.siIdx (ix1 n) ⟨List.idxOf (0 : Fin 1) G625.startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- Where every flat index is a word below 625, the guarded look-up reads the table there. -/
theorem refTake_apply (tab : FVec Ideal S625 .f32) (idx : IVec S2097152 32) (f : Fin 2097152 → Fin 625)
    (hidx : ∀ m, idx (ix1 m) = BitVec.ofNat 32 (f m).val) (n : Fin 2097152) :
    refTake (F := Ideal) tab idx (ix1 n) = tab (ix1 (f n)) := by
  have hint : ∀ m, (idx (ix1 m)).toInt = ((f m).val : ℤ) := fun m => by rw [hidx m]; exact toInt_ofNat_lt _ (f m).isLt
  have hall : ∀ m, 0 ≤ (idx (ix1 m)).toInt ∧ (idx (ix1 m)).toInt ≤ 624 := fun m => by
    rw [hint m]; have := (f m).isLt; omega
  unfold refTake
  rw [select_apply, guardAll_apply idx hall n, select_one, gather_apply]
  refine congrArg tab (congrArg ix1 (Fin.ext ?_))
  show min (refWrap idx (ix2 n 0)).toInt.toNat 624 = (f n).val
  rw [refWrap_apply idx n 0 (hall n).1, hint n, Int.toNat_natCast]
  have := (f n).isLt; omega

/-! ## The result -/

section Result
variable (x : FVec Ideal S2097152x32 .f32) (W1 : FVec Ideal S20x32 .f32) (b1 : FVec Ideal S20 .f32) (W2 : FVec Ideal S5x20 .f32)
  (b2 : FVec Ideal S5 .f32) (W3 : FVec Ideal S2x5 .f32) (b3 : FVec Ideal S2 .f32) (bm : FVec Ideal S625 .f32)

/-- Row `m`'s flat table index, 25 · (first cell) + (second cell). -/
def flatIx (m : Fin 2097152) : Fin 625 :=
  ⟨(Cert.Spec.cix x W1 b1 W2 b2 W3 b3 m 0).val * 25 + (Cert.Spec.cix x W1 b1 W2 b2 W3 b3 m 1).val, Cert.Spec.flat_lt _ _⟩

/-- THE REFERENCE'S RESULT IS THE SPECIFICATION'S. -/
theorem refOut_eq (h : Cert.Spec.Good x W1 b1 W2 b2 W3 b3 bm) :
    refOut (F := Ideal) x W1 b1 W2 b2 W3 b3 bm = Cert.Spec.Yarr x W1 b1 W2 b2 W3 b3 bm := by
  funext j
  obtain ⟨n, u, rfl⟩ : ∃ (n : Fin 2097152) (u : Fin 1), j = ix2 n u := ⟨j 0, j 1, eq_ix2 j⟩
  unfold refOut
  rw [col_apply, refE_eq]
  have hflat : ∀ m : Fin 2097152, refFlat (refCells (F := Ideal) (Cert.Spec.Earr x W1 b1 W2 b2 W3 b3)) (ix1 m)
      = BitVec.ofNat 32 (flatIx x W1 b1 W2 b2 W3 b3 m).val := fun m => by
    rw [refFlat_apply, refCells_apply x W1 b1 W2 b2 W3 b3 bm h m 0, refCells_apply x W1 b1 W2 b2 W3 b3 bm h m 1]
    exact Cert.Spec.flat_eq _ _
  rw [refTake_apply bm _ (flatIx x W1 b1 W2 b2 W3 b3) hflat n]
  rfl

end Result

end Cert.ReferenceIdeal.Hand

end
-- ==== Proof.PreFacts.lean ====
/-
  The precondition read back: that the printed predicate is 1 says that every entry of the eight arrays is a real
  number and that, for each of the two encoded coordinates, the maximum over the batch exceeds the minimum.
-/
import proofs.«120400_j53171695125388_1_alg».proof.Pre_finite_inputs
import proofs.«120400_j53171695125388_1_alg».proof.Proof.Spec
import proofs.«120400_j53171695125388_1_alg».proof.Proof.Ref.Term
import Idealize.ShloMosaic.Lib.ReduceAll
import Idealize.ShloMosaic.Lib.StableHlo.Predicate

set_option maxRecDepth 16384

noncomputable section

namespace Cert.Proof.PreFacts

open Idealize.ShloMosaic Idealize.ShloMosaic.ValueIdx

/-- The scalar shape. -/
abbrev S0 : Shape := ⟨0, ![]⟩

/-- The scalar shape has one index. -/
instance subsingleton_S0_Idx : Subsingleton S0.Idx := ⟨fun a b => funext fun d => d.elim0⟩

/-- The pattern 0x7F800000 is +∞, and 0xFF800000 is -∞. -/
theorem inf_bits : Ideal.ofBits .f32 0x7F800000#32 = ⊤ := by simp [Ideal.ofBits, Ideal.ieee]
theorem neg_inf_bits : Ideal.ofBits .f32 0xFF800000#32 = ⊥ := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

section Generic
variable {F : FTy → Type} [FloatOps F]

/-- all(|v| < +∞), as the reduce by "and" of the comparison of |v| against the broadcast +∞ pattern. -/
def allFin {s : Shape} {axes : List (Fin s.rank)} (v : FVec F s .f32)
    (hb : S0.BroadcastsInDim s (![] : Fin 0 → Fin s.rank)) (hr : s.ReducesTo axes S0) (hu : 0 < S0.numel) : IVec S0 1 :=
  Host.reduce IntOp.andi (cmpf .olt (Host.absf v) (broadcastInDim s ![] hb (constant S0 .f32 0x7F800000#32)))
    (constantI S0 1 1#1) hr hu

end Generic

/-- Where all(|v| < +∞) is 1, every entry of v is a real number. -/
theorem real_of_allFin {s : Shape} {axes : List (Fin s.rank)} (v : FVec Ideal s .f32)
    (hb : S0.BroadcastsInDim s (![] : Fin 0 → Fin s.rank)) (hr : s.ReducesTo axes S0) (hu : 0 < S0.numel)
    (h : allFin v hb hr hu ix0 = 1#1) (i : s.Idx) : ∃ r : ℝ, v i = (r : EReal) := by
  have hi := Host.reduce_andi_all _ _ hr hu ix0 h i
  have hi' : Ideal.cmp .olt (max (v i) (-(v i))) (Ideal.ofBits .f32 0x7F800000#32) = 1#1 := hi
  rw [inf_bits] at hi'
  exact real_of_abs_lt_top _ (of_decide_eq_true ((StableHlo.Predicate.ofBool_eq_one_iff _).1 hi'))

/-- Where the comparison "greater" of two arrays is 1 at an index, the second is below the first there. -/
theorem lt_of_cmpf_ogt {s : Shape} (a b : FVec Ideal s .f32) (i : s.Idx) (h : cmpf .ogt a b i = 1#1) :
    (b i : EReal) < (a i : EReal) := by
  have h' : Ideal.cmp .ogt (a i) (b i) = 1#1 := h
  exact of_decide_eq_true ((StableHlo.Predicate.ofBool_eq_one_iff _).1 h')

/-- At the extended reals the minimum and maximum of two floats are the order's. -/
theorem minimumf_eq_min : (FloatOps.minimumf (F := Ideal) (φ := .f32)) = (min : EReal → EReal → EReal) := by
  funext a b; rfl
theorem maximumf_eq_max : (FloatOps.maximumf (F := Ideal) (φ := .f32)) = (max : EReal → EReal → EReal) := by
  funext a b; rfl

/-- A reduction by min from +∞ over axis 0 of an [R, 2] array is, at column d, the infimum over the rows; by max from -∞, the supremum. -/
theorem reduce_min_rows (e : FVec Ideal ⟨2, ![2097152, 2]⟩ .f32) (h' : (⟨2, ![2097152, 2]⟩ : Shape).ReducesTo [0] ⟨1, ![2]⟩)
    (hR : (⟨2, ![2097152, 2]⟩ : Shape).Reduces [0] ⟨1, ![2]⟩) (init : S0.Idx → EReal) (hi : ∀ j, init j = ⊤) (hu : 0 < S0.numel)
    (d : Fin 2) :
    Host.reduce (min : EReal → EReal → EReal) e init h' hu (ix1 d) = Finset.univ.inf fun n : Fin 2097152 => (e (ix2 n d) : EReal) := by
  have hl : (e ∘ hR.lift (ix1 d)) = fun n : Fin 2097152 => (e (ix2 n d) : EReal) := by
    funext n
    refine congrArg e ?_
    funext c
    match c with
    | ⟨0, _⟩ => rfl
    | ⟨1, _⟩ => rfl
  rw [Host.reduce_eq_fold_single (min : EReal → EReal → EReal) e init h' hR hu (ix1 d), hi, hl]
  rfl

theorem reduce_max_rows (e : FVec Ideal ⟨2, ![2097152, 2]⟩ .f32) (h' : (⟨2, ![2097152, 2]⟩ : Shape).ReducesTo [0] ⟨1, ![2]⟩)
    (hR : (⟨2, ![2097152, 2]⟩ : Shape).Reduces [0] ⟨1, ![2]⟩) (init : S0.Idx → EReal) (hi : ∀ j, init j = ⊥) (hu : 0 < S0.numel)
    (d : Fin 2) :
    Host.reduce (max : EReal → EReal → EReal) e init h' hu (ix1 d) = Finset.univ.sup fun n : Fin 2097152 => (e (ix2 n d) : EReal) := by
  have hl : (e ∘ hR.lift (ix1 d)) = fun n : Fin 2097152 => (e (ix2 n d) : EReal) := by
    funext n
    refine congrArg e ?_
    funext c
    match c with
    | ⟨0, _⟩ => rfl
    | ⟨1, _⟩ => rfl
  rw [Host.reduce_eq_fold_single (max : EReal → EReal → EReal) e init h' hR hu (ix1 d), hi, hl]
  rfl

/-- A conjunction of two scalar bits that is 1 has both bits 1. -/
theorem andi_ix0 (a b : IVec S0 1) (h : andi a b ix0 = 1#1) : a ix0 = 1#1 ∧ b ix0 = 1#1 :=
  IntOp.andi_eq_one.1 (show IntOp.andi (a ix0) (b ix0) = 1#1 from h)

section Pre
open Cert.Pre_finite_inputs Cert.Pre_finite_inputs.Facts
variable [Cert.Pre_finite_inputs.Facts]

section AnyF
variable {F : FTy → Type} [FloatOps F]

/-- The encoder as the precondition computes it: three affine layers, tanh after each. -/
def preE (x : FVec F S2097152x32 .f32) (W1 : FVec F S20x32 .f32) (b1 : FVec F S20 .f32) (W2 : FVec F S5x20 .f32)
    (b2 : FVec F S5 .f32) (W3 : FVec F S2x5 .f32) (b3 : FVec F S2 .f32) : FVec F S2097152x2 .f32 :=
  Host.tanh (addf (Host.dotGeneral dot_S2097152x5_S5x2_S2097152x2_1_0_0_1_n_n none
      (Host.tanh (addf (Host.dotGeneral dot_S2097152x20_S20x5_S2097152x5_1_0_0_1_n_n none
          (Host.tanh (addf (Host.dotGeneral dot_S2097152x32_S32x20_S2097152x20_1_0_0_1_n_n none x
              (transpose S32x20 [1, 0] W1 transposes_S20x32_S32x20_1_0))
            (broadcastInDim S2097152x20 ![0, 1] bcast_S1x20_S2097152x20_0_1 (broadcastInDim S1x20 ![1] bcast_S20_S1x20_1 b1))))
          (transpose S20x5 [1, 0] W2 transposes_S5x20_S20x5_1_0))
        (broadcastInDim S2097152x5 ![0, 1] bcast_S1x5_S2097152x5_0_1 (broadcastInDim S1x5 ![1] bcast_S5_S1x5_1 b2))))
      (transpose S5x2 [1, 0] W3 transposes_S2x5_S5x2_1_0))
    (broadcastInDim S2097152x2 ![0, 1] bcast_S1x2_S2097152x2_0_1 (broadcastInDim S1x2 ![1] bcast_S2_S1x2_1 b3)))

/-- The batch maximum and minimum of each encoded coordinate, as the precondition computes them. -/
def preMx (e : FVec F S2097152x2 .f32) : FVec F S2 .f32 :=
  Host.reduce FloatOps.maximumf e (constant S_ .f32 0xFF800000#32) reducesTo_S2097152x2_S2_d0 h_S_
def preMn (e : FVec F S2097152x2 .f32) : FVec F S2 .f32 :=
  Host.reduce FloatOps.minimumf e (constant S_ .f32 0x7F800000#32) reducesTo_S2097152x2_S2_d0 h_S_

/-- all(max > min) over the two coordinates. -/
def sepAll (e : FVec F S2097152x2 .f32) : IVec S_ 1 :=
  Host.reduce IntOp.andi (cmpf .ogt (preMx e) (preMn e)) (constantI S_ 1 1#1) reducesTo_S2_S_d0 h_S_

end AnyF

/-- Where all(max > min) is 1, each coordinate's minimum is below its maximum. -/
theorem lt_of_sepAll (e : FVec Ideal S2097152x2 .f32) (h : sepAll e ix0 = 1#1) (d : Fin 2) :
    (preMn e (ix1 d) : EReal) < (preMx e (ix1 d) : EReal) := by
  exact lt_of_cmpf_ogt (preMx e) (preMn e) (ix1 d) (Host.reduce_andi_all (t := S0) _ _ reducesTo_S2_S_d0 h_S_ ix0 h (ix1 d))

/-- The precondition, decoded: the eight arrays hold real numbers, and the precondition's own minimum of each
    encoded coordinate is below its maximum. -/
theorem decode (x : FVec Ideal S2097152x32 .f32) (W1 : FVec Ideal S20x32 .f32) (b1 : FVec Ideal S20 .f32)
    (W2 : FVec Ideal S5x20 .f32) (b2 : FVec Ideal S5 .f32) (W3 : FVec Ideal S2x5 .f32) (b3 : FVec Ideal S2 .f32)
    (bm : FVec Ideal S625 .f32) (h : fn (F := Ideal) x W1 b1 W2 b2 W3 b3 bm = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) ∧ (∀ i, ∃ r : ℝ, W3 i = (r : EReal))
      ∧ (∀ i, ∃ r : ℝ, b3 i = (r : EReal)) ∧ (∀ i, ∃ r : ℝ, bm i = (r : EReal))
      ∧ (∀ d : Fin 2, (preMn (preE x W1 b1 W2 b2 W3 b3) (ix1 d) : EReal) < (preMx (preE x W1 b1 W2 b2 W3 b3) (ix1 d) : EReal)) := by
  have h0 := congrFun h ix0
  dsimp only [fn, fn_part1, fn_part2, fn_part3] at h0
  obtain ⟨h0, h9⟩ := andi_ix0 _ _ h0
  obtain ⟨h0, h8⟩ := andi_ix0 _ _ h0
  obtain ⟨h0, h7⟩ := andi_ix0 _ _ h0
  obtain ⟨h0, h6⟩ := andi_ix0 _ _ h0
  obtain ⟨h0, h5⟩ := andi_ix0 _ _ h0
  obtain ⟨h0, h4⟩ := andi_ix0 _ _ h0
  obtain ⟨h0, h3⟩ := andi_ix0 _ _ h0
  obtain ⟨h1, h2⟩ := andi_ix0 _ _ h0
  exact ⟨real_of_allFin _ _ _ _ h1, real_of_allFin _ _ _ _ h2, real_of_allFin _ _ _ _ h3, real_of_allFin _ _ _ _ h4,
    real_of_allFin _ _ _ _ h5, real_of_allFin _ _ _ _ h6, real_of_allFin _ _ _ _ h7, real_of_allFin _ _ _ _ h8,
    lt_of_sepAll (preE x W1 b1 W2 b2 W3 b3) h9⟩

/-- The precondition's encoder is the reference's. -/
theorem pre_enc_eq {F : FTy → Type} [FloatOps F] (x : FVec F S2097152x32 .f32) (W1 : FVec F S20x32 .f32) (b1 : FVec F S20 .f32)
    (W2 : FVec F S5x20 .f32) (b2 : FVec F S5 .f32) (W3 : FVec F S2x5 .f32) (b3 : FVec F S2 .f32) :
    preE x W1 b1 W2 b2 W3 b3 = Cert.ReferenceIdeal.Hand.refE x W1 b1 W2 b2 W3 b3 := rfl

/-- The precondition's minimum over the batch is, at column d, the infimum over the rows. -/
theorem preMn_apply (e : FVec Ideal S2097152x2 .f32) (d : Fin 2) :
    (preMn e (ix1 d) : EReal) = Finset.univ.inf fun n : Fin 2097152 => (e (ix2 n d) : EReal) := by
  unfold preMn
  rw [minimumf_eq_min]
  exact reduce_min_rows e reducesTo_S2097152x2_S2_d0 (by decide) _ (fun _ => inf_bits) h_S_ d

/-- The precondition's maximum over the batch is, at column d, the supremum over the rows. -/
theorem preMx_apply (e : FVec Ideal S2097152x2 .f32) (d : Fin 2) :
    (preMx e (ix1 d) : EReal) = Finset.univ.sup fun n : Fin 2097152 => (e (ix2 n d) : EReal) := by
  unfold preMx
  rw [maximumf_eq_max]
  exact reduce_max_rows e reducesTo_S2097152x2_S2_d0 (by decide) _ (fun _ => neg_inf_bits) h_S_ d

/-- The precondition gives the specification's hypothesis, once its encoder is known to be the specification's. -/
theorem good_of_fn_of (x : Cert.Spec.SRx32.Idx → EReal) (W1 : Cert.Spec.S20x32.Idx → EReal) (b1 : Cert.Spec.S20.Idx → EReal)
    (W2 : Cert.Spec.S5x20.Idx → EReal) (b2 : Cert.Spec.S5.Idx → EReal) (W3 : Cert.Spec.S2x5.Idx → EReal)
    (b3 : Cert.Spec.S2.Idx → EReal) (bm : Cert.Spec.S625.Idx → EReal)
    (hE : preE (F := Ideal) x W1 b1 W2 b2 W3 b3 = Cert.Spec.Earr x W1 b1 W2 b2 W3 b3)
    (h : fn (F := Ideal) x W1 b1 W2 b2 W3 b3 bm = fun _ => 1#1) : Cert.Spec.Good x W1 b1 W2 b2 W3 b3 bm := by
  obtain ⟨hx, hW1, hb1, hW2, hb2, hW3, hb3, hbm, hsep⟩ := decode x W1 b1 W2 b2 W3 b3 bm h
  refine ⟨hx, hW1, hb1, hW2, hb2, hW3, hb3, hbm, fun d => ?_⟩
  have hd := hsep d
  rw [hE, preMn_apply, preMx_apply] at hd
  exact hd

end Pre

end Cert.Proof.PreFacts

end
-- ==== Proof.PreGood.lean ====
/-
  The precondition gives the specification's hypothesis: the precondition's encoder is the reference's term, and the
  reference's encoded pairs are the specification's.
-/
import proofs.«120400_j53171695125388_1_alg».proof.Proof.PreFacts
import proofs.«120400_j53171695125388_1_alg».proof.Proof.Ref.Value

namespace Cert.Proof.PreFacts

open Idealize.ShloMosaic

/-- Where the printed precondition is 1, every entry of the eight arrays is a real number and each encoded coordinate's
    minimum over the batch is below its maximum. -/
theorem good_of_fn [Cert.Pre_finite_inputs.Facts] (x : Cert.Spec.SRx32.Idx → EReal) (W1 : Cert.Spec.S20x32.Idx → EReal) (b1 : Cert.Spec.S20.Idx → EReal)
    (W2 : Cert.Spec.S5x20.Idx → EReal) (b2 : Cert.Spec.S5.Idx → EReal) (W3 : Cert.Spec.S2x5.Idx → EReal)
    (b3 : Cert.Spec.S2.Idx → EReal) (bm : Cert.Spec.S625.Idx → EReal)
    (h : Cert.Pre_finite_inputs.fn (F := Ideal) x W1 b1 W2 b2 W3 b3 bm = fun _ => 1#1) :
    Cert.Spec.Good x W1 b1 W2 b2 W3 b3 bm :=
  good_of_fn_of x W1 b1 W2 b2 W3 b3 bm
    ((pre_enc_eq (F := Ideal) x W1 b1 W2 b2 W3 b3).trans (Cert.ReferenceIdeal.Hand.refE_eq x W1 b1 W2 b2 W3 b3)) h

end Cert.Proof.PreFacts
-- ==== Proof.lean ====
/-
  The certificate's claims, assembled.

  Both programs send a batch of rows through three affine layers with tanh after each, take the batch minimum and
  maximum of each of the two encoded coordinates, move every coordinate affinely into [0.01, 0.99], cut the unit square
  into 25 x 25 cells and return the table's entry at each row's cell. The kernel program does it in two pipelined
  regions (the encoder with a running minimum and maximum carried across grid points; then a look-up by two one-hot
  selections), the reference in one line of array operations with a guarded gather. Over the extended reals the two
  agree wherever neither encoded coordinate is constant over the batch (the precondition's last conjunct: the reference
  divides by maximum minus minimum): then every cell number lies in 0 … 24, the one-hot selection picks exactly the
  table entry the gather reads, and the gather's guard is never needed.
-/
import proofs.«120400_j53171695125388_1_alg».proof.Defs
import proofs.«120400_j53171695125388_1_alg».proof.Proof.Gen.Kernel
import proofs.«120400_j53171695125388_1_alg».proof.Proof.Gen.KernelIdeal
import proofs.«120400_j53171695125388_1_alg».proof.Proof.Gen.ReferenceIdeal
import proofs.«120400_j53171695125388_1_alg».proof.Proof.Gen.Pre_finite_inputs
import proofs.«120400_j53171695125388_1_alg».proof.Proof.K.Run
import proofs.«120400_j53171695125388_1_alg».proof.Proof.KI.Run
import proofs.«120400_j53171695125388_1_alg».proof.Proof.KI.Glue
import proofs.«120400_j53171695125388_1_alg».proof.Proof.Ref.Run
import proofs.«120400_j53171695125388_1_alg».proof.Proof.Ref.Value
import proofs.«120400_j53171695125388_1_alg».proof.Proof.PreGood

noncomputable section

namespace Cert.Proof

open Idealize.ShloMosaic Idealize.ShloMosaic.TcCoe Idealize.SL.Sem

/-- The word-level kernel program runs to the end without a fault and leaves its arguments as they were. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on the eight arguments both idealized programs end with the specification's result column. -/
theorem algebraic : Cert.algebraic_KernelIdeal_ReferenceIdeal := by
  intro m ρ m' ρ' hpre hagree
  have hG : ∀ c : Dev Cert.KernelIdeal.nD, Cert.Spec.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    fun c => Cert.Proof.PreFacts.good_of_fn _ _ _ _ _ _ _ _ (hpre c)
  refine ⟨fun c => Cert.Spec.Yarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.final_v8 m ρ c (hG c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7⟩ := hagree c
    rw [h0, h1, h2, h3, h4, h5, h6, h7]
    exact Cert.ReferenceIdeal.Hand.refOut_eq _ _ _ _ _ _ _ _ (hG c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
